-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S32768 : Shape := ⟨1, ![32768]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x1000 .f32) (main_arg1 : IVec S32768 32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  let main_c_0 : IVec S_ 32 := constantI S_ 32 0#32
  let main_v4 : IVec S32768 32 := broadcastInDim S32768 ![] bcast_S_S32768 main_c_0
  let main_v5 : IVec S32768 1 := cmpi .sge main_arg1 main_v4
  let main_c_1 : IVec S_ 1 := constantI S_ 1 1#1
  let main_v6 : IVec S_ 1 := (fun x v => Host.reduce IntOp.andi x v reducesTo_S32768_S_d0 h_S_) main_v5 main_c_1
  let main_v7 : IVec S_ 1 := andi main_v3 main_v6
  let main_c_2 : IVec S_ 32 := constantI S_ 32 1000#32
  let main_v8 : IVec S32768 32 := broadcastInDim S32768 ![] bcast_S_S32768 main_c_2
  let main_v9 : IVec S32768 1 := cmpi .slt main_arg1 main_v8
  let main_c_3 : IVec S_ 1 := constantI S_ 1 1#1
  let main_v10 : IVec S_ 1 := (fun x v => Host.reduce IntOp.andi x v reducesTo_S32768_S_d0 h_S_) main_v9 main_c_3
  let main_v11 : IVec S_ 1 := andi main_v7 main_v10
  main_v11
-- ==== Kernel.lean ====
abbrev S32768x1000 : Shape := ⟨2, ![32768, 1000]⟩
abbrev S32768 : Shape := ⟨1, ![32768]⟩
abbrev S32768x1 : Shape := ⟨2, ![32768, 1]⟩
abbrev S2x8x1000 : Shape := ⟨3, ![2, 8, 1000]⟩
abbrev S2x8x1 : Shape := ⟨3, ![2, 8, 1]⟩
abbrev S1024x1000 : Shape := ⟨2, ![1024, 1000]⟩
abbrev S1024x1 : Shape := ⟨2, ![1024, 1]⟩
abbrev S1x8x1000 : Shape := ⟨3, ![1, 8, 1000]⟩
abbrev S1x8x1 : Shape := ⟨3, ![1, 8, 1]⟩
abbrev S1x1000 : Shape := ⟨2, ![1, 1000]⟩
abbrev S1x1 : Shape := ⟨2, ![1, 1]⟩
abbrev S1024 : Shape := ⟨1, ![1024]⟩
abbrev S1 : Shape := ⟨1, ![1]⟩
abbrev S1000 : Shape := ⟨1, ![1000]⟩
abbrev S1x1x1000 : Shape := ⟨3, ![1, 1, 1000]⟩
abbrev S1x1x1 : Shape := ⟨3, ![1, 1, 1]⟩
abbrev S_ : Shape := ⟨0, ![]⟩
abbrev S2x1000 : Shape := ⟨2, ![2, 1000]⟩
abbrev S2x1 : Shape := ⟨2, ![2, 1]⟩

abbrev nBuf : Space → Nat
  | .hbm => 43
  | .vmem => 13
  | .smem => 0
  | _ => 0

abbrev bufTy : (tb : Table) → Fin (tcTables nBuf tb) → BufTy
  | .hbm, ⟨0, _⟩ => ⟨S32768x1000, .f32⟩
  | .hbm, ⟨1, _⟩ => ⟨S32768, .i32⟩
  | .hbm, ⟨2, _⟩ => ⟨S32768x1, .i32⟩
  | .hbm, ⟨3, _⟩ => ⟨S2x8x1000, .f32⟩
  | .hbm, ⟨4, _⟩ => ⟨S2x8x1000, .f32⟩
  | .hbm, ⟨5, _⟩ => ⟨S2x8x1, .f32⟩
  | .hbm, ⟨6, _⟩ => ⟨S_, .f32⟩
  | .hbm, ⟨7, _⟩ => ⟨S2x1000, .f32⟩
  | .hbm, ⟨8, _⟩ => ⟨S_, .f32⟩
  | .hbm, ⟨9, _⟩ => ⟨S2x1000, .f32⟩
  | .hbm, ⟨10, _⟩ => ⟨S2x1000, .f32⟩
  | .hbm, ⟨11, _⟩ => ⟨S_, .f32⟩
  | .hbm, ⟨12, _⟩ => ⟨S1000, .f32⟩
  | .hbm, ⟨13, _⟩ => ⟨S_, .f32⟩
  | .hbm, ⟨14, _⟩ => ⟨S2x1000, .f32⟩
  | .hbm, ⟨15, _⟩ => ⟨S_, .f32⟩
  | .hbm, ⟨16, _⟩ => ⟨S2x1000, .f32⟩
  | .hbm, ⟨17, _⟩ => ⟨S2x1000, .f32⟩
  | .hbm, ⟨18, _⟩ => ⟨S_, .f32⟩
  | .hbm, ⟨19, _⟩ => ⟨S1000, .f32⟩
  | .hbm, ⟨20, _⟩ => ⟨S_, .f32⟩
  | .hbm, ⟨21, _⟩ => ⟨S2x1, .f32⟩
  | .hbm, ⟨22, _⟩ => ⟨S_, .f32⟩
  | .hbm, ⟨23, _⟩ => ⟨S2x1, .f32⟩
  | .hbm, ⟨24, _⟩ => ⟨S2x1, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S_, .f32⟩
  | .hbm, ⟨29, _⟩ => ⟨S1000, .f32⟩
  | .hbm, ⟨30, _⟩ => ⟨S1000, .f32⟩
  | .hbm, ⟨31, _⟩ => ⟨S_, .f32⟩
  | .hbm, ⟨32, _⟩ => ⟨S1000, .f32⟩
  | .hbm, ⟨33, _⟩ => ⟨S1000, .f32⟩
  | .hbm, ⟨34, _⟩ => ⟨S1000, .f32⟩
  | .hbm, ⟨35, _⟩ => ⟨S1000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S1x8x1000, .f32⟩
  | .local _ .vmem, ⟨5, _⟩ => ⟨S1x8x1000, .f32⟩
  | .local _ .vmem, ⟨6, _⟩ => ⟨S1x8x1000, .f32⟩
  | .local _ .vmem, ⟨7, _⟩ => ⟨S1x8x1000, .f32⟩
  | .local _ .vmem, ⟨8, _⟩ => ⟨S1x8x1, .f32⟩
  | .local _ .vmem, ⟨9, _⟩ => ⟨S1x8x1, .f32⟩
  | .local _ .vmem, ⟨10, _⟩ => ⟨S1x1000, .f32⟩
  | .local _ .vmem, ⟨11, _⟩ => ⟨S1x1000, .f32⟩
  | .local _ .vmem, ⟨12, _⟩ => ⟨S1x1, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_cst_7 : Ref sig .tc := ⟨.hbm, 25, rfl⟩
abbrev main_v13 : Ref sig .tc := ⟨.hbm, 26, rfl⟩
abbrev main_v14 : Ref sig .tc := ⟨.hbm, 27, rfl⟩
abbrev main_cst_8 : Ref sig .tc := ⟨.hbm, 28, rfl⟩
abbrev main_v15 : Ref sig .tc := ⟨.hbm, 29, rfl⟩
abbrev main_v16 : Ref sig .tc := ⟨.hbm, 30, rfl⟩
abbrev main_cst_9 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_10 : Ref sig .tc := ⟨.hbm, 36, rfl⟩
abbrev main_v21 : Ref sig .tc := ⟨.hbm, 37, rfl⟩
abbrev main_cst_11 : Ref sig .tc := ⟨.hbm, 38, rfl⟩
abbrev main_v22 : Ref sig .tc := ⟨.hbm, 39, rfl⟩
abbrev main_cst_12 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v65 : BitVec 1 := Scalar.cmpi .eq arg1 c15_i32
  let v66 : BitVec 32 := Scalar.extui v65
  let c0_i32_29 : BitVec 32 := 0#32
  let v67 : BitVec 1 := Scalar.cmpi .ne v66 c0_i32_29
  v67

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32768_S32768x1 : S32768.ShapeCasts S32768x1
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  natLt_1_32 : 1 < 32
  reduces_S1024x1_S1 : S1024x1.Reduces [0] S1
  shapeCasts_S1_S1x1 : S1.ShapeCasts S1x1
  reduces_S1024x1000_S1000 : S1024x1000.Reduces [0] S1000
  shapeCasts_S1000_S1x1000 : S1000.ShapeCasts S1x1000
  shapeCasts_S1x1000_S1x1x1000 : S1x1000.ShapeCasts S1x1x1000
  shapeCasts_S1x1x1000_S1x1x1000 : S1x1x1000.ShapeCasts S1x1x1000
  broadcasts_S1x1x1000_S1x8x1000 : S1x1x1000.Broadcasts S1x8x1000
  inb_S1x8x1000_S1x8x1000_0_0_0 : ∀ a, (![0, 0, 0] : Fin 3 → Nat) a + S1x8x1000.size a ≤ S1x8x1000.size a
  h_S1x8x1000 : 0 < S1x8x1000.numel
  shapeCasts_S1x1_S1x1x1 : S1x1.ShapeCasts S1x1x1
  shapeCasts_S1x1x1_S1x1x1 : S1x1x1.ShapeCasts S1x1x1
  broadcasts_S1x1x1_S1x8x1 : S1x1x1.Broadcasts S1x8x1
  inb_S1x8x1_S1x8x1_0_0_0 : ∀ a, (![0, 0, 0] : Fin 3 → Nat) a + S1x8x1.size a ≤ S1x8x1.size a
  h_S1x8x1 : 0 < S1x8x1.numel
  reducesTo_S2x8x1000_S2x1000_d1 : S2x8x1000.ReducesTo [1] S2x1000
  h_S_ : 0 < S_.numel
  bcast_S_S2x1000 : S_.BroadcastsInDim S2x1000 (![] : Fin 0 → Fin S2x1000.rank)
  reducesTo_S2x1000_S1000_d0 : S2x1000.ReducesTo [0] S1000
  reducesTo_S2x8x1_S2x1_d1 : S2x8x1.ReducesTo [1] S2x1
  bcast_S_S2x1 : S_.BroadcastsInDim S2x1 (![] : Fin 0 → Fin S2x1.rank)
  reducesTo_S2x1_S1_d0 : S2x1.ReducesTo [0] S1
  shapeCasts_S1_S_ : S1.ShapeCasts S_
  bcast_S_S1000 : S_.BroadcastsInDim S1000 (![] : Fin 0 → Fin S1000.rank)
  reducesTo_S1000_S_d0 : S1000.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S32768x1000.size a
  hwx0_0 : ∀ i : grid0.Coords, EltTy.bits .f32 = 32 ∨ (Rect.block (s := S32768x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S32768x1.size a
  hwx0_1 : ∀ i : grid0.Coords, EltTy.bits .i32 = 32 ∨ (Rect.block (s := S32768x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1000.size a ≤ S2x8x1000.size a
  hwx0_2 : ∀ i : grid0.Coords, EltTy.bits .f32 = 32 ∨ (Rect.block (s := S2x8x1000) S1x8x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1000.size a ≤ S2x8x1000.size a
  hwx0_3 : ∀ i : grid0.Coords, EltTy.bits .f32 = 32 ∨ (Rect.block (s := S2x8x1000) S1x8x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x1.size a ≤ S2x8x1.size a
  hwx0_4 : ∀ i : grid0.Coords, EltTy.bits .f32 = 32 ∨ (Rect.block (s := S2x8x1) S1x8x1.size (cc0_transform_4 i) (hinb0_4 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x8x1000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x1000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32768x1000 : Shape := ⟨2, ![32768, 1000]⟩
abbrev S32768 : Shape := ⟨1, ![32768]⟩
abbrev S_ : Shape := ⟨0, ![]⟩
abbrev S32768x1 : Shape := ⟨2, ![32768, 1]⟩
abbrev S1000 : Shape := ⟨1, ![1000]⟩
abbrev S32768x1x1 : Shape := ⟨3, ![32768, 1, 1]⟩
abbrev S1 : Shape := ⟨1, ![1]⟩
abbrev S1x1x1 : Shape := ⟨3, ![1, 1, 1]⟩

abbrev nBuf : Space → Nat
  | .hbm => 101
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S32768, .i32⟩
  | .hbm, ⟨2, _⟩ => ⟨S_, .f32⟩
  | .hbm, ⟨3, _⟩ => ⟨S32768, .f32⟩
  | .hbm, ⟨4, _⟩ => ⟨S_, .f32⟩
  | .hbm, ⟨5, _⟩ => ⟨S32768, .f32⟩
  | .hbm, ⟨6, _⟩ => ⟨S32768, .f32⟩
  | .hbm, ⟨7, _⟩ => ⟨S32768x1, .f32⟩
  | .hbm, ⟨8, _⟩ => ⟨S32768x1000, .f32⟩
  | .hbm, ⟨9, _⟩ => ⟨S32768x1000, .f32⟩
  | .hbm, ⟨10, _⟩ => ⟨S32768x1000, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x1000, .f32⟩
  | .hbm, ⟨15, _⟩ => ⟨S32768x1000, .f32⟩
  | .hbm, ⟨16, _⟩ => ⟨S_, .f32⟩
  | .hbm, ⟨17, _⟩ => ⟨S1000, .f32⟩
  | .hbm, ⟨18, _⟩ => ⟨S_, .i32⟩
  | .hbm, ⟨19, _⟩ => ⟨S32768, .i32⟩
  | .hbm, ⟨20, _⟩ => ⟨S32768, .i1⟩
  | .hbm, ⟨21, _⟩ => ⟨S_, .i32⟩
  | .hbm, ⟨22, _⟩ => ⟨S32768, .i32⟩
  | .hbm, ⟨23, _⟩ => ⟨S32768, .i32⟩
  | .hbm, ⟨24, _⟩ => ⟨S32768, .i32⟩
  | .hbm, ⟨25, _⟩ => ⟨S32768x1, .i32⟩
  | .hbm, ⟨26, _⟩ => ⟨S_, .f32⟩
  | .hbm, ⟨27, _⟩ => ⟨S32768, .f32⟩
  | .hbm, ⟨28, _⟩ => ⟨S1000, .f32⟩
  | .hbm, ⟨29, _⟩ => ⟨S_, .f32⟩
  | .hbm, ⟨30, _⟩ => ⟨S1000, .f32⟩
  | .hbm, ⟨31, _⟩ => ⟨S1000, .f32⟩
  | .hbm, ⟨32, _⟩ => ⟨S_, .f32⟩
  | .hbm, ⟨33, _⟩ => ⟨S1000, .f32⟩
  | .hbm, ⟨34, _⟩ => ⟨S_, .f32⟩
  | .hbm, ⟨35, _⟩ => ⟨S1000, .f32⟩
  | .hbm, ⟨36, _⟩ => ⟨S1000, .f32⟩
  | .hbm, ⟨37, _⟩ => ⟨S1000, .f32⟩
  | .hbm, ⟨38, _⟩ => ⟨S1000, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S32768, .f32⟩
  | .hbm, ⟨45, _⟩ => ⟨S_, .f32⟩
  | .hbm, ⟨46, _⟩ => ⟨S32768, .f32⟩
  | .hbm, ⟨47, _⟩ => ⟨S32768, .f32⟩
  | .hbm, ⟨48, _⟩ => ⟨S32768x1, .f32⟩
  | .hbm, ⟨49, _⟩ => ⟨S32768x1000, .f32⟩
  | .hbm, ⟨50, _⟩ => ⟨S32768x1000, .f32⟩
  | .hbm, ⟨51, _⟩ => ⟨S32768x1000, .f32⟩
  | .hbm, ⟨52, _⟩ => ⟨S_, .f32⟩
  | .hbm, ⟨53, _⟩ => ⟨S32768, .f32⟩
  | .hbm, ⟨54, _⟩ => ⟨S32768x1, .f32⟩
  | .hbm, ⟨55, _⟩ => ⟨S32768x1, .f32⟩
  | .hbm, ⟨56, _⟩ => ⟨S32768x1000, .f32⟩
  | .hbm, ⟨57, _⟩ => ⟨S32768x1000, .f32⟩
  | .hbm, ⟨58, _⟩ => ⟨S32768x1, .i32⟩
  | .hbm, ⟨59, _⟩ => ⟨S_, .i32⟩
  | .hbm, ⟨60, _⟩ => ⟨S32768x1, .i32⟩
  | .hbm, ⟨61, _⟩ => ⟨S32768x1, .i1⟩
  | .hbm, ⟨62, _⟩ => ⟨S_, .i32⟩
  | .hbm, ⟨63, _⟩ => ⟨S32768x1, .i32⟩
  | .hbm, ⟨64, _⟩ => ⟨S32768x1, .i32⟩
  | .hbm, ⟨65, _⟩ => ⟨S32768x1, .i32⟩
  | .hbm, ⟨66, _⟩ => ⟨S32768x1x1, .i32⟩
  | .hbm, ⟨67, _⟩ => ⟨S1, .i32⟩
  | .hbm, ⟨68, _⟩ => ⟨S_, .i32⟩
  | .hbm, ⟨69, _⟩ => ⟨S32768x1x1, .i32⟩
  | .hbm, ⟨70, _⟩ => ⟨S32768x1x1, .i1⟩
  | .hbm, ⟨71, _⟩ => ⟨S1x1x1, .i32⟩
  | .hbm, ⟨72, _⟩ => ⟨S32768x1x1, .i32⟩
  | .hbm, ⟨73, _⟩ => ⟨S32768x1x1, .i1⟩
  | .hbm, ⟨74, _⟩ => ⟨S32768x1x1, .i1⟩
  | .hbm, ⟨75, _⟩ => ⟨S_, .i1⟩
  | .hbm, ⟨76, _⟩ => ⟨S32768x1, .i1⟩
  | .hbm, ⟨77, _⟩ => ⟨S32768x1, .f32⟩
  | .hbm, ⟨78, _⟩ => ⟨S_, .f32⟩
  | .hbm, ⟨79, _⟩ => ⟨S32768x1, .f32⟩
  | .hbm, ⟨80, _⟩ => ⟨S32768x1, .f32⟩
  | .hbm, ⟨81, _⟩ => ⟨S32768, .f32⟩
  | .hbm, ⟨82, _⟩ => ⟨S32768, .f32⟩
  | .hbm, ⟨83, _⟩ => ⟨S_, .f32⟩
  | .hbm, ⟨84, _⟩ => ⟨S32768, .f32⟩
  | .hbm, ⟨85, _⟩ => ⟨S_, .f32⟩
  | .hbm, ⟨86, _⟩ => ⟨S32768, .f32⟩
  | .hbm, ⟨87, _⟩ => ⟨S32768, .f32⟩
  | .hbm, ⟨88, _⟩ => ⟨S32768, .f32⟩
  | .hbm, ⟨89, _⟩ => ⟨S_, .f32⟩
  | .hbm, ⟨90, _⟩ => ⟨S32768, .f32⟩
  | .hbm, ⟨91, _⟩ => ⟨S32768, .f32⟩
  | .hbm, ⟨92, _⟩ => ⟨S_, .f32⟩
  | .hbm, ⟨93, _⟩ => ⟨S32768, .f32⟩
  | .hbm, ⟨94, _⟩ => ⟨S32768, .f32⟩
  | .hbm, ⟨95, _⟩ => ⟨S32768, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_call0_cst_0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_cst_1 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_v29 : Ref sig .tc := ⟨.hbm, 57, rfl⟩
abbrev main_v30 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_cst : Ref sig .tc := ⟨.hbm, 78, rfl⟩
abbrev main_call1_v14 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_cst_10 : Ref sig .tc := ⟨.hbm, 83, rfl⟩
abbrev main_v34 : Ref sig .tc := ⟨.hbm, 84, rfl⟩
abbrev main_cst_11 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_12 : Ref sig .tc := ⟨.hbm, 89, rfl⟩
abbrev main_v38 : Ref sig .tc := ⟨.hbm, 90, rfl⟩
abbrev main_v39 : Ref sig .tc := ⟨.hbm, 91, rfl⟩
abbrev main_cst_13 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_cst_14 : Ref sig .tc := ⟨.hbm, 96, rfl⟩
abbrev main_v43 : Ref sig .tc := ⟨.hbm, 97, rfl⟩
abbrev main_cst_15 : Ref sig .tc := ⟨.hbm, 98, rfl⟩
abbrev main_v44 : Ref sig .tc := ⟨.hbm, 99, rfl⟩
abbrev main_v45 : Ref sig .tc := ⟨.hbm, 100, rfl⟩

abbrev nD : Nat := 1
abbrev τ : Topo := Topo.v7x

variable {F : FTy → Type} [FloatOps F]

class Facts₀ : Prop where
  reducesTo_S32768x1000_S32768_d1 : S32768x1000.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1000_0_1 : S32768x1.BroadcastsInDim S32768x1000 (![0, 1] : Fin 2 → Fin S32768x1000.rank)
  bcast_S_S1000 : S_.BroadcastsInDim S1000 (![] : Fin 0 → Fin S1000.rank)
  reducesTo_S32768x1000_S1000_d0 : S32768x1000.ReducesTo [0] S1000
  reducesTo_S1000_S_d0 : S1000.ReducesTo [0] S_
  bcast_S_S32768x1 : S_.BroadcastsInDim S32768x1 (![] : Fin 0 → Fin S32768x1.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  shapeCasts_S32768x1_S32768 : S32768x1.ShapeCasts S32768
  reducesTo_S32768_S_d0 : S32768.ReducesTo [0] S_
  scatter_S1000_S32768x1_S32768_n_0_0_1_wf : ScatterDims.WF S1000 S32768x1 S32768 [] [0] [0] 1
  gather_S32768x1000_S32768x1x1_S32768x1_n_1_0_0_1_2_11_wf : GatherDims.WF S32768x1000 S32768x1x1 S32768x1 [] [1] [0] [1] [0] 2 ![1, 1]

variable [Facts₀]

def scatter_S1000_S32768x1_S32768_n_0_0_1 : ScatterDims S1000 S32768x1 S32768 where
  updateWindowDims := []
  insertedWindowDims := [0]
  scatterDimsToOperandDims := [0]
  indexVectorDim := 1
  wf := scatter_S1000_S32768x1_S32768_n_0_0_1_wf
def gather_S32768x1000_S32768x1x1_S32768x1_n_1_0_0_1_2_11 : GatherDims S32768x1000 S32768x1x1 S32768x1 where
  offsetDims := []
  collapsedSliceDims := [1]
  operandBatchingDims := [0]
  startIndicesBatchingDims := [0]
  startIndexMap := [1]
  indexVectorDim := 2
  sliceSizes := ![1, 1]
  wf := gather_S32768x1000_S32768x1x1_S32768x1_n_1_0_0_1_2_11_wf

class Facts : Prop extends Facts₀ where

variable [Facts]
-- ==== Proof.Spec.lean ====
/-
  The calibration loss as mathematics. For a matrix of real logits with one class label per row:
  the row-wise softmax prob; the log-probabilities of the softmax itself, logp = prob − log Σ exp prob
  (the loss re-applies log-softmax to probabilities); per row the label-smoothed cross entropy
  a · (−logp at the label) + b · (−mean of logp); over the batch its mean lossCe; per class the mean
  probability against the label frequency, their absolute differences averaged over the classes, lossMdca;
  and loss, the sum of the two. Everything is a real number: the programs' extended reals are shown to be
  these reals. The row count is a parameter, so one block of rows and the whole batch share the definitions.
-/
import Idealize.ShloMosaic.PureOps.Ideal
import Idealize.ShloMosaic.Lib.ValueIdx

noncomputable section

open scoped BigOperators

namespace Cert.Mdca

open Idealize.ShloMosaic Idealize.ShloMosaic.ValueIdx

/-- The weight of the label's term: the real number the single-precision pattern of 0.9 denotes. -/
def wNll : ℝ := (Ideal.ofBits .f32 0x3F666666#32).toReal
/-- The weight of the uniform term: the real number the single-precision pattern of 0.1 denotes. -/
def wSmooth : ℝ := (Ideal.ofBits .f32 0x3DCCCCCD#32).toReal

section rows
variable {n : Nat} (x : Fin n → Fin 1000 → ℝ) (tg : Fin n → Fin 1000)

/-- The largest logit of a row. -/
def rowMax (r : Fin n) : ℝ := Finset.univ.sup' Finset.univ_nonempty (x r)
/-- The shifted exponentials of a row. -/
def ex (r : Fin n) (j : Fin 1000) : ℝ := Real.exp (x r j - rowMax x r)
/-- Their sum, at least 1. -/
def Z (r : Fin n) : ℝ := ∑ j, ex x r j
/-- The softmax of a row. -/
def prob (r : Fin n) (j : Fin 1000) : ℝ := ex x r j / Z x r
/-- The log of the sum of the exponentials of a row's probabilities. -/
def lse (r : Fin n) : ℝ := Real.log (∑ j, Real.exp (prob x r j))
/-- The log-softmax of a row's probabilities. -/
def logp (r : Fin n) (j : Fin 1000) : ℝ := prob x r j - lse x r
/-- The label-smoothed cross entropy of a row. -/
def rowLoss (r : Fin n) : ℝ := wNll * (-(logp x r (tg r))) + wSmooth * (-((∑ j, logp x r j) / 1000))
/-- The sum of the rows' losses. -/
def ceSum : ℝ := ∑ r, rowLoss x tg r
/-- The sum over the rows of the probability of class i. -/
def sumProb (i : Fin 1000) : ℝ := ∑ r, prob x r i
/-- The number of rows labelled i. -/
def count (i : Fin 1000) : ℝ := ((Finset.univ.filter fun r => tg r = i).card : ℝ)

end rows

section batch
variable (x : Fin 32768 → Fin 1000 → ℝ) (tg : Fin 32768 → Fin 1000)

/-- The mean label-smoothed cross entropy of the batch. -/
def lossCe : ℝ := ceSum x tg / 32768
/-- The mean over the classes of |mean probability − label frequency|. -/
def lossMdca : ℝ := (∑ i, |sumProb x i / 32768 - count tg i / 32768|) / 1000
/-- The loss. -/
def loss : ℝ := lossCe x tg + lossMdca x tg

end batch

/-- The logits of an array of extended reals, read as reals. -/
def realOf {n : Nat} (X : (⟨2, ![n, 1000]⟩ : Shape).Idx → EReal) (r : Fin n) (j : Fin 1000) : ℝ := (X (ix2 r j)).toReal
/-- The label of a row of a vector of words, as a class (reduced modulo the class count, so that it is total). -/
def labelOf {n : Nat} (T : (⟨1, ![n]⟩ : Shape).Idx → BitVec 32) (r : Fin n) : Fin 1000 :=
  ⟨(T (ix1 r)).toNat % 1000, Nat.mod_lt _ (by norm_num)⟩

/-- Every entry is a real number. -/
def AllReal {n : Nat} (X : (⟨2, ![n, 1000]⟩ : Shape).Idx → EReal) : Prop := ∀ r j, X (ix2 r j) = ((realOf X r j : ℝ) : EReal)
/-- Every label is a class. -/
def InRange {n : Nat} (T : (⟨1, ![n]⟩ : Shape).Idx → BitVec 32) : Prop := ∀ r, (T (ix1 r)).toNat < 1000

end Cert.Mdca

end
-- ==== Proof.Pre.lean ====
/-
  What the precondition says of the two argument arrays: every logit is a real number, and every label is a class.
-/
import proofs.«407091_j17901423690504_3_alg».proof.Pre_finite_inputs
import proofs.«407091_j17901423690504_3_alg».proof.Proof.Spec
import Idealize.ShloMosaic.Lib.ReduceAll
import Idealize.ShloMosaic.Lib.StableHlo.Predicate

noncomputable section

namespace Cert.Mdca

open Idealize.ShloMosaic Idealize.ShloMosaic.ValueIdx

/-- The shape with no axes has exactly one index. -/
instance subsingleton_scalar_idx : Subsingleton Cert.Pre_finite_inputs.S_.Idx :=
  ⟨fun a b => funext fun d => d.elim0⟩

/-- The single-precision pattern with exponent field all ones and fraction zero denotes +∞. -/
theorem ofBits_pos_inf : Ideal.ofBits .f32 0x7F800000#32 = (⊤ : EReal) := by
  simp [Ideal.ofBits, Ideal.ieee]

/-- An extended real whose absolute value max x (−x) is strictly below +∞ is neither infinity, hence a real. -/
theorem real_of_abs_lt_top (x : EReal)
    (h : Ideal.cmp .olt (max x (-x)) (Ideal.ofBits .f32 0x7F800000#32) = 1#1) : x = ((x.toReal : ℝ) : EReal) := by
  rw [ofBits_pos_inf] at h
  simp only [Ideal.cmp, StableHlo.Predicate.ofBool_eq_one_iff, decide_eq_true_eq] at h
  -- both x and −x lie below the maximum, hence strictly below +∞
  have hx : x < ⊤ := lt_of_le_of_lt (le_max_left _ _) h
  have hnx : -x < ⊤ := lt_of_le_of_lt (le_max_right _ _) h
  have h1 : x ≠ ⊤ := ne_of_lt hx
  have h2 : x ≠ ⊥ := by
    rintro rfl
    -- −(−∞) = +∞ is not strictly below +∞
    exact absurd hnx (by simp)
  exact (EReal.coe_toReal h1 h2).symm

/-- A 32-bit word that read signed lies in [0, 1000) is below 1000 read unsigned. -/
theorem toNat_lt_of_signed (t : BitVec 32) (h0 : IntOp.cmpi .sge t 0#32 = 1#1) (h1 : IntOp.cmpi .slt t 1000#32 = 1#1) :
    t.toNat < 1000 := by
  -- the two comparisons, as inequalities between the signed readings
  have a : (0#32).toInt ≤ t.toInt := by
    have : BitVec.ofBool ((0#32).sle t) = 1#1 := h0
    rw [StableHlo.Predicate.ofBool_eq_one_iff] at this
    simpa [BitVec.sle] using this
  have b : t.toInt < (1000#32).toInt := by
    have : BitVec.ofBool (t.slt 1000#32) = 1#1 := h1
    rw [StableHlo.Predicate.ofBool_eq_one_iff] at this
    simpa [BitVec.slt] using this
  -- the signed readings of the two constants, and of t in terms of its unsigned reading
  have c0 : (0#32).toInt = 0 := by decide
  have c1 : (1000#32).toInt = 1000 := by decide
  rw [c0] at a
  rw [c1] at b
  rw [BitVec.toInt_eq_toNat_cond] at a b
  have hlt := t.isLt
  -- were the top bit set the signed reading would be negative; otherwise it is the unsigned reading
  by_cases hc : 2 * t.toNat < 2 ^ 32
  · rw [if_pos hc] at a b
    omega
  · rw [if_neg hc] at a b
    omega

/-- The printed precondition, all ones, gives: every entry of the logits is a real number (its absolute value is
    below +∞), and every label read signed lies in [0, 1000), so that read unsigned it is below 1000. -/
theorem of_pre [Cert.Pre_finite_inputs.Facts]
    (X : FVec Ideal Cert.Pre_finite_inputs.S32768x1000 .f32) (T : IVec Cert.Pre_finite_inputs.S32768 32)
    (h : Cert.Pre_finite_inputs.fn (F := Ideal) X T = fun _ => 1#1) :
    AllReal (n := 32768) X ∧ InRange (n := 32768) T := by
  -- the one entry of the result, as the conjunction of three all-reductions
  have e := congrFun h ValueIdx.ix0
  dsimp only [Cert.Pre_finite_inputs.fn] at e
  simp only [andi, IntOp.andi_eq_one] at e
  obtain ⟨⟨e1, e2⟩, e3⟩ := e
  refine ⟨fun r j => ?_, fun r => ?_⟩
  · -- the first mask at (r, j): |X r j| < +∞
    have m := Host.reduce_andi_all _ _ _ _ _ e1 (ix2 r j)
    exact real_of_abs_lt_top _ m
  · -- the second and third masks at r: 0 ≤ T r and T r < 1000, signed
    have a := Host.reduce_andi_all _ _ _ _ _ e2 (ix1 r)
    have b := Host.reduce_andi_all _ _ _ _ _ e3 (ix1 r)
    exact toNat_lt_of_signed _ a b

end Cert.Mdca

end
-- ==== Proof.KPieces.lean ====
/-
  What one run of the kernel body leaves in each accumulator and, at a core's last block, in each output block, as a
  value: the body's arithmetic applied to the block of logits, the block of labels and what the accumulators held.
  Three kinds of grid point: a core's first block (the accumulators are zeroed, then updated), a middle block (updated),
  a core's last block (updated, then copied into the output blocks).
-/
import proofs.«407091_j17901423690504_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a core's first block the probability accumulator is reset and then updated: it ends at the update of zero. -/
theorem scratch_A_0 (c : Dev nD) (i : grid0.Coords) (a2 : Memref sig .tc .vmem S1024x1000 .f32) (h2 : a2.IsWhole) (a3 : Memref sig .tc .vmem S1024x1 .i32) (h3 : a3.IsWhole) (a4 : Memref sig .tc .vmem S1x8x1000 .f32) (h4 : a4.IsWhole) (a5 : Memref sig .tc .vmem S1x8x1000 .f32) (h5 : a5.IsWhole) (a6 : Memref sig .tc .vmem S1x8x1 .f32) (h6 : a6.IsWhole) (a7 : Memref sig .tc .vmem S1x1000 .f32) (h7 : a7.IsWhole) (a8 : Memref sig .tc .vmem S1x1000 .f32) (h8 : a8.IsWhole) (a9 : Memref sig .tc .vmem S1x1 .f32) (h9 : a9.IsWhole) (hc0 : cond0_0 i) (hc1 : ¬cond0_1 i)
    (x0 : Vec F S1024x1000 .f32) (x1 : Vec F S1024x1 .i32) :
    sout0_A_0 c i a2 h2 a3 h3 a4 h4 a5 h5 a6 h6 a7 h7 a8 h8 a9 h9 hc0 hc1 x0 x1 = k0_pay2 (k0_pay10 x0) k0_pay7 := by
  unfold sout0_A_0
  rw [View.read_writes_eq_canon _ _ _ (scover0_A_0 c i a2 h2 a3 h3 a4 h4 a5 h5 a6 h6 a7 h7 a8 h8 a9 h9 hc0 hc1 x0 x1)]
  unfold kernelRun0_A
  dsimp only
  sl_unfold_words
  rw [View.canon_cons_unit_zero (S := _) hz2, View.readCov_unit_zero (S := _) _ hz2]
  simp only [View.readAt_eq_ld, h2.read_unread, h3.read_unread, h7.read_unread, h8.read_unread, h9.read_unread, View.ld_unit_zero (S := S1024x1000) hz2, View.ld_unit_zero (S := S1024x1) hz2, View.ld_unit_zero (S := S1x1000) hz2, View.ld_unit_zero (S := S1x1) hz2, View.readCov_unit_zero (S := S1x1000) _ hz2, View.readCov_unit_zero (S := S1x1) _ hz2]

/-- At a core's first block the label counter is reset and then updated. -/
theorem scratch_A_1 (c : Dev nD) (i : grid0.Coords) (a2 : Memref sig .tc .vmem S1024x1000 .f32) (h2 : a2.IsWhole) (a3 : Memref sig .tc .vmem S1024x1 .i32) (h3 : a3.IsWhole) (a4 : Memref sig .tc .vmem S1x8x1000 .f32) (h4 : a4.IsWhole) (a5 : Memref sig .tc .vmem S1x8x1000 .f32) (h5 : a5.IsWhole) (a6 : Memref sig .tc .vmem S1x8x1 .f32) (h6 : a6.IsWhole) (a7 : Memref sig .tc .vmem S1x1000 .f32) (h7 : a7.IsWhole) (a8 : Memref sig .tc .vmem S1x1000 .f32) (h8 : a8.IsWhole) (a9 : Memref sig .tc .vmem S1x1 .f32) (h9 : a9.IsWhole) (hc0 : cond0_0 i) (hc1 : ¬cond0_1 i)
    (x0 : Vec F S1024x1000 .f32) (x1 : Vec F S1024x1 .i32) :
    sout0_A_1 c i a2 h2 a3 h3 a4 h4 a5 h5 a6 h6 a7 h7 a8 h8 a9 h9 hc0 hc1 x0 x1 = k0_pay3 (k0_pay12 x1) k0_pay8 := by
  unfold sout0_A_1
  rw [View.read_writes_eq_canon _ _ _ (scover0_A_1 c i a2 h2 a3 h3 a4 h4 a5 h5 a6 h6 a7 h7 a8 h8 a9 h9 hc0 hc1 x0 x1)]
  unfold kernelRun0_A
  dsimp only
  sl_unfold_words
  rw [View.canon_cons_unit_zero (S := _) hz2, View.readCov_unit_zero (S := _) _ hz2]
  simp only [View.readAt_eq_ld, h2.read_unread, h3.read_unread, h7.read_unread, h8.read_unread, h9.read_unread, View.ld_unit_zero (S := S1024x1000) hz2, View.ld_unit_zero (S := S1024x1) hz2, View.ld_unit_zero (S := S1x1000) hz2, View.ld_unit_zero (S := S1x1) hz2, View.readCov_unit_zero (S := S1x1000) _ hz2, View.readCov_unit_zero (S := S1x1) _ hz2]

/-- At a core's first block the loss accumulator is reset and then updated. -/
theorem scratch_A_2 (c : Dev nD) (i : grid0.Coords) (a2 : Memref sig .tc .vmem S1024x1000 .f32) (h2 : a2.IsWhole) (a3 : Memref sig .tc .vmem S1024x1 .i32) (h3 : a3.IsWhole) (a4 : Memref sig .tc .vmem S1x8x1000 .f32) (h4 : a4.IsWhole) (a5 : Memref sig .tc .vmem S1x8x1000 .f32) (h5 : a5.IsWhole) (a6 : Memref sig .tc .vmem S1x8x1 .f32) (h6 : a6.IsWhole) (a7 : Memref sig .tc .vmem S1x1000 .f32) (h7 : a7.IsWhole) (a8 : Memref sig .tc .vmem S1x1000 .f32) (h8 : a8.IsWhole) (a9 : Memref sig .tc .vmem S1x1 .f32) (h9 : a9.IsWhole) (hc0 : cond0_0 i) (hc1 : ¬cond0_1 i)
    (x0 : Vec F S1024x1000 .f32) (x1 : Vec F S1024x1 .i32) :
    sout0_A_2 c i a2 h2 a3 h3 a4 h4 a5 h5 a6 h6 a7 h7 a8 h8 a9 h9 hc0 hc1 x0 x1 = k0_pay1 (k0_pay13 x0) (k0_pay14 x0 x1) k0_pay9 := by
  unfold sout0_A_2
  rw [View.read_writes_eq_canon _ _ _ (scover0_A_2 c i a2 h2 a3 h3 a4 h4 a5 h5 a6 h6 a7 h7 a8 h8 a9 h9 hc0 hc1 x0 x1)]
  unfold kernelRun0_A
  dsimp only
  sl_unfold_words
  rw [View.canon_cons_unit_zero (S := _) hz2, View.readCov_unit_zero (S := _) _ hz2]
  simp only [View.readAt_eq_ld, h2.read_unread, h3.read_unread, h7.read_unread, h8.read_unread, h9.read_unread, View.ld_unit_zero (S := S1024x1000) hz2, View.ld_unit_zero (S := S1024x1) hz2, View.ld_unit_zero (S := S1x1000) hz2, View.ld_unit_zero (S := S1x1) hz2, View.readCov_unit_zero (S := S1x1000) _ hz2, View.readCov_unit_zero (S := S1x1) _ hz2]

/-- At a middle block the probability accumulator is updated from what the block before left. -/
theorem scratch_B_0 (c : Dev nD) (i : grid0.Coords) (a2 : Memref sig .tc .vmem S1024x1000 .f32) (h2 : a2.IsWhole) (a3 : Memref sig .tc .vmem S1024x1 .i32) (h3 : a3.IsWhole) (a4 : Memref sig .tc .vmem S1x8x1000 .f32) (h4 : a4.IsWhole) (a5 : Memref sig .tc .vmem S1x8x1000 .f32) (h5 : a5.IsWhole) (a6 : Memref sig .tc .vmem S1x8x1 .f32) (h6 : a6.IsWhole) (a7 : Memref sig .tc .vmem S1x1000 .f32) (h7 : a7.IsWhole) (a8 : Memref sig .tc .vmem S1x1000 .f32) (h8 : a8.IsWhole) (a9 : Memref sig .tc .vmem S1x1 .f32) (h9 : a9.IsWhole) (hc0 : ¬cond0_0 i) (hc1 : ¬cond0_1 i)
    (x0 : Vec F S1024x1000 .f32) (x1 : Vec F S1024x1 .i32) (s0 : Vec F S1x1000 .f32) (s1 : Vec F S1x1000 .f32) (s2 : Vec F S1x1 .f32) :
    sout0_B_0 c i a2 h2 a3 h3 a4 h4 a5 h5 a6 h6 a7 h7 a8 h8 a9 h9 hc0 hc1 x0 x1 s0 s1 s2 = k0_pay2 (k0_pay10 x0) s0 := by
  unfold sout0_B_0
  rw [View.read_writes_eq_canon _ _ _ (scover0_B_0 c i a2 h2 a3 h3 a4 h4 a5 h5 a6 h6 a7 h7 a8 h8 a9 h9 hc0 hc1 x0 x1 s0 s1 s2)]
  unfold kernelRun0_B
  dsimp only
  sl_unfold_words
  rw [View.canon_unit_zero hz2]
  simp only [View.readAt_eq_ld, h2.read_unread, h3.read_unread, h7.read_unread, h8.read_unread, h9.read_unread, View.ld_unit_zero (S := S1024x1000) hz2, View.ld_unit_zero (S := S1024x1) hz2, View.ld_unit_zero (S := S1x1000) hz2, View.ld_unit_zero (S := S1x1) hz2, View.readCov_unit_zero (S := S1x1000) _ hz2, View.readCov_unit_zero (S := S1x1) _ hz2]

/-- At a middle block the label counter is updated from what the block before left. -/
theorem scratch_B_1 (c : Dev nD) (i : grid0.Coords) (a2 : Memref sig .tc .vmem S1024x1000 .f32) (h2 : a2.IsWhole) (a3 : Memref sig .tc .vmem S1024x1 .i32) (h3 : a3.IsWhole) (a4 : Memref sig .tc .vmem S1x8x1000 .f32) (h4 : a4.IsWhole) (a5 : Memref sig .tc .vmem S1x8x1000 .f32) (h5 : a5.IsWhole) (a6 : Memref sig .tc .vmem S1x8x1 .f32) (h6 : a6.IsWhole) (a7 : Memref sig .tc .vmem S1x1000 .f32) (h7 : a7.IsWhole) (a8 : Memref sig .tc .vmem S1x1000 .f32) (h8 : a8.IsWhole) (a9 : Memref sig .tc .vmem S1x1 .f32) (h9 : a9.IsWhole) (hc0 : ¬cond0_0 i) (hc1 : ¬cond0_1 i)
    (x0 : Vec F S1024x1000 .f32) (x1 : Vec F S1024x1 .i32) (s0 : Vec F S1x1000 .f32) (s1 : Vec F S1x1000 .f32) (s2 : Vec F S1x1 .f32) :
    sout0_B_1 c i a2 h2 a3 h3 a4 h4 a5 h5 a6 h6 a7 h7 a8 h8 a9 h9 hc0 hc1 x0 x1 s0 s1 s2 = k0_pay3 (k0_pay12 x1) s1 := by
  unfold sout0_B_1
  rw [View.read_writes_eq_canon _ _ _ (scover0_B_1 c i a2 h2 a3 h3 a4 h4 a5 h5 a6 h6 a7 h7 a8 h8 a9 h9 hc0 hc1 x0 x1 s0 s1 s2)]
  unfold kernelRun0_B
  dsimp only
  sl_unfold_words
  rw [View.canon_unit_zero hz2]
  simp only [View.readAt_eq_ld, h2.read_unread, h3.read_unread, h7.read_unread, h8.read_unread, h9.read_unread, View.ld_unit_zero (S := S1024x1000) hz2, View.ld_unit_zero (S := S1024x1) hz2, View.ld_unit_zero (S := S1x1000) hz2, View.ld_unit_zero (S := S1x1) hz2, View.readCov_unit_zero (S := S1x1000) _ hz2, View.readCov_unit_zero (S := S1x1) _ hz2]

/-- At a middle block the loss accumulator is updated from what the block before left. -/
theorem scratch_B_2 (c : Dev nD) (i : grid0.Coords) (a2 : Memref sig .tc .vmem S1024x1000 .f32) (h2 : a2.IsWhole) (a3 : Memref sig .tc .vmem S1024x1 .i32) (h3 : a3.IsWhole) (a4 : Memref sig .tc .vmem S1x8x1000 .f32) (h4 : a4.IsWhole) (a5 : Memref sig .tc .vmem S1x8x1000 .f32) (h5 : a5.IsWhole) (a6 : Memref sig .tc .vmem S1x8x1 .f32) (h6 : a6.IsWhole) (a7 : Memref sig .tc .vmem S1x1000 .f32) (h7 : a7.IsWhole) (a8 : Memref sig .tc .vmem S1x1000 .f32) (h8 : a8.IsWhole) (a9 : Memref sig .tc .vmem S1x1 .f32) (h9 : a9.IsWhole) (hc0 : ¬cond0_0 i) (hc1 : ¬cond0_1 i)
    (x0 : Vec F S1024x1000 .f32) (x1 : Vec F S1024x1 .i32) (s0 : Vec F S1x1000 .f32) (s1 : Vec F S1x1000 .f32) (s2 : Vec F S1x1 .f32) :
    sout0_B_2 c i a2 h2 a3 h3 a4 h4 a5 h5 a6 h6 a7 h7 a8 h8 a9 h9 hc0 hc1 x0 x1 s0 s1 s2 = k0_pay1 (k0_pay13 x0) (k0_pay14 x0 x1) s2 := by
  unfold sout0_B_2
  rw [View.read_writes_eq_canon _ _ _ (scover0_B_2 c i a2 h2 a3 h3 a4 h4 a5 h5 a6 h6 a7 h7 a8 h8 a9 h9 hc0 hc1 x0 x1 s0 s1 s2)]
  unfold kernelRun0_B
  dsimp only
  sl_unfold_words
  rw [View.canon_unit_zero hz2]
  simp only [View.readAt_eq_ld, h2.read_unread, h3.read_unread, h7.read_unread, h8.read_unread, h9.read_unread, View.ld_unit_zero (S := S1024x1000) hz2, View.ld_unit_zero (S := S1024x1) hz2, View.ld_unit_zero (S := S1x1000) hz2, View.ld_unit_zero (S := S1x1) hz2, View.readCov_unit_zero (S := S1x1000) _ hz2, View.readCov_unit_zero (S := S1x1) _ hz2]

/-- At a core's last block the probability accumulator is updated as at a middle block. -/
theorem scratch_C_0 (c : Dev nD) (i : grid0.Coords) (a2 : Memref sig .tc .vmem S1024x1000 .f32) (h2 : a2.IsWhole) (a3 : Memref sig .tc .vmem S1024x1 .i32) (h3 : a3.IsWhole) (a4 : Memref sig .tc .vmem S1x8x1000 .f32) (h4 : a4.IsWhole) (a5 : Memref sig .tc .vmem S1x8x1000 .f32) (h5 : a5.IsWhole) (a6 : Memref sig .tc .vmem S1x8x1 .f32) (h6 : a6.IsWhole) (a7 : Memref sig .tc .vmem S1x1000 .f32) (h7 : a7.IsWhole) (a8 : Memref sig .tc .vmem S1x1000 .f32) (h8 : a8.IsWhole) (a9 : Memref sig .tc .vmem S1x1 .f32) (h9 : a9.IsWhole) (hc0 : ¬cond0_0 i) (hc1 : cond0_1 i)
    (x0 : Vec F S1024x1000 .f32) (x1 : Vec F S1024x1 .i32) (s0 : Vec F S1x1000 .f32) (s1 : Vec F S1x1000 .f32) (s2 : Vec F S1x1 .f32) :
    sout0_C_0 c i a2 h2 a3 h3 a4 h4 a5 h5 a6 h6 a7 h7 a8 h8 a9 h9 hc0 hc1 x0 x1 s0 s1 s2 = k0_pay2 (k0_pay10 x0) s0 := by
  unfold sout0_C_0
  rw [View.read_writes_eq_canon _ _ _ (scover0_C_0 c i a2 h2 a3 h3 a4 h4 a5 h5 a6 h6 a7 h7 a8 h8 a9 h9 hc0 hc1 x0 x1 s0 s1 s2)]
  unfold kernelRun0_C
  dsimp only
  sl_unfold_words
  rw [View.canon_unit_zero hz2]
  simp only [View.readAt_eq_ld, h2.read_unread, h3.read_unread, h7.read_unread, h8.read_unread, h9.read_unread, View.ld_unit_zero (S := S1024x1000) hz2, View.ld_unit_zero (S := S1024x1) hz2, View.ld_unit_zero (S := S1x1000) hz2, View.ld_unit_zero (S := S1x1) hz2, View.readCov_unit_zero (S := S1x1000) _ hz2, View.readCov_unit_zero (S := S1x1) _ hz2]

/-- At a core's last block the label counter is updated as at a middle block. -/
theorem scratch_C_1 (c : Dev nD) (i : grid0.Coords) (a2 : Memref sig .tc .vmem S1024x1000 .f32) (h2 : a2.IsWhole) (a3 : Memref sig .tc .vmem S1024x1 .i32) (h3 : a3.IsWhole) (a4 : Memref sig .tc .vmem S1x8x1000 .f32) (h4 : a4.IsWhole) (a5 : Memref sig .tc .vmem S1x8x1000 .f32) (h5 : a5.IsWhole) (a6 : Memref sig .tc .vmem S1x8x1 .f32) (h6 : a6.IsWhole) (a7 : Memref sig .tc .vmem S1x1000 .f32) (h7 : a7.IsWhole) (a8 : Memref sig .tc .vmem S1x1000 .f32) (h8 : a8.IsWhole) (a9 : Memref sig .tc .vmem S1x1 .f32) (h9 : a9.IsWhole) (hc0 : ¬cond0_0 i) (hc1 : cond0_1 i)
    (x0 : Vec F S1024x1000 .f32) (x1 : Vec F S1024x1 .i32) (s0 : Vec F S1x1000 .f32) (s1 : Vec F S1x1000 .f32) (s2 : Vec F S1x1 .f32) :
    sout0_C_1 c i a2 h2 a3 h3 a4 h4 a5 h5 a6 h6 a7 h7 a8 h8 a9 h9 hc0 hc1 x0 x1 s0 s1 s2 = k0_pay3 (k0_pay12 x1) s1 := by
  unfold sout0_C_1
  rw [View.read_writes_eq_canon _ _ _ (scover0_C_1 c i a2 h2 a3 h3 a4 h4 a5 h5 a6 h6 a7 h7 a8 h8 a9 h9 hc0 hc1 x0 x1 s0 s1 s2)]
  unfold kernelRun0_C
  dsimp only
  sl_unfold_words
  rw [View.canon_unit_zero hz2]
  simp only [View.readAt_eq_ld, h2.read_unread, h3.read_unread, h7.read_unread, h8.read_unread, h9.read_unread, View.ld_unit_zero (S := S1024x1000) hz2, View.ld_unit_zero (S := S1024x1) hz2, View.ld_unit_zero (S := S1x1000) hz2, View.ld_unit_zero (S := S1x1) hz2, View.readCov_unit_zero (S := S1x1000) _ hz2, View.readCov_unit_zero (S := S1x1) _ hz2]

/-- At a core's last block the loss accumulator is updated as at a middle block. -/
theorem scratch_C_2 (c : Dev nD) (i : grid0.Coords) (a2 : Memref sig .tc .vmem S1024x1000 .f32) (h2 : a2.IsWhole) (a3 : Memref sig .tc .vmem S1024x1 .i32) (h3 : a3.IsWhole) (a4 : Memref sig .tc .vmem S1x8x1000 .f32) (h4 : a4.IsWhole) (a5 : Memref sig .tc .vmem S1x8x1000 .f32) (h5 : a5.IsWhole) (a6 : Memref sig .tc .vmem S1x8x1 .f32) (h6 : a6.IsWhole) (a7 : Memref sig .tc .vmem S1x1000 .f32) (h7 : a7.IsWhole) (a8 : Memref sig .tc .vmem S1x1000 .f32) (h8 : a8.IsWhole) (a9 : Memref sig .tc .vmem S1x1 .f32) (h9 : a9.IsWhole) (hc0 : ¬cond0_0 i) (hc1 : cond0_1 i)
    (x0 : Vec F S1024x1000 .f32) (x1 : Vec F S1024x1 .i32) (s0 : Vec F S1x1000 .f32) (s1 : Vec F S1x1000 .f32) (s2 : Vec F S1x1 .f32) :
    sout0_C_2 c i a2 h2 a3 h3 a4 h4 a5 h5 a6 h6 a7 h7 a8 h8 a9 h9 hc0 hc1 x0 x1 s0 s1 s2 = k0_pay1 (k0_pay13 x0) (k0_pay14 x0 x1) s2 := by
  unfold sout0_C_2
  rw [View.read_writes_eq_canon _ _ _ (scover0_C_2 c i a2 h2 a3 h3 a4 h4 a5 h5 a6 h6 a7 h7 a8 h8 a9 h9 hc0 hc1 x0 x1 s0 s1 s2)]
  unfold kernelRun0_C
  dsimp only
  sl_unfold_words
  rw [View.canon_unit_zero hz2]
  simp only [View.readAt_eq_ld, h2.read_unread, h3.read_unread, h7.read_unread, h8.read_unread, h9.read_unread, View.ld_unit_zero (S := S1024x1000) hz2, View.ld_unit_zero (S := S1024x1) hz2, View.ld_unit_zero (S := S1x1000) hz2, View.ld_unit_zero (S := S1x1) hz2, View.readCov_unit_zero (S := S1x1000) _ hz2, View.readCov_unit_zero (S := S1x1) _ hz2]

/-- At a core's last block the first output block receives the updated probability accumulator in each of its eight rows. -/
theorem out_C_2 (c : Dev nD) (i : grid0.Coords) (a2 : Memref sig .tc .vmem S1024x1000 .f32) (h2 : a2.IsWhole) (a3 : Memref sig .tc .vmem S1024x1 .i32) (h3 : a3.IsWhole) (a4 : Memref sig .tc .vmem S1x8x1000 .f32) (h4 : a4.IsWhole) (a5 : Memref sig .tc .vmem S1x8x1000 .f32) (h5 : a5.IsWhole) (a6 : Memref sig .tc .vmem S1x8x1 .f32) (h6 : a6.IsWhole) (a7 : Memref sig .tc .vmem S1x1000 .f32) (h7 : a7.IsWhole) (a8 : Memref sig .tc .vmem S1x1000 .f32) (h8 : a8.IsWhole) (a9 : Memref sig .tc .vmem S1x1 .f32) (h9 : a9.IsWhole) (hc0 : ¬cond0_0 i) (hc1 : cond0_1 i)
    (x0 : Vec F S1024x1000 .f32) (x1 : Vec F S1024x1 .i32) (s0 : Vec F S1x1000 .f32) (s1 : Vec F S1x1000 .f32) (s2 : Vec F S1x1 .f32) :
    out0_C_2 c i a2 h2 a3 h3 a4 h4 a5 h5 a6 h6 a7 h7 a8 h8 a9 h9 hc0 hc1 x0 x1 s0 s1 s2 = k0_pay4 (k0_pay2 (k0_pay10 x0) s0) := by
  unfold out0_C_2
  rw [View.read_writes_eq_canon _ _ _ (cover0_C_2 c i a2 h2 a3 h3 a4 h4 a5 h5 a6 h6 a7 h7 a8 h8 a9 h9 hc0 hc1 x0 x1 s0 s1 s2)]
  unfold kernelRun0_C
  dsimp only
  sl_unfold_words
  rw [View.canon_unit_zero hz3]
  simp only [View.readAt_eq_ld, h2.read_unread, h3.read_unread, h7.read_unread, h8.read_unread, h9.read_unread, View.ld_unit_zero (S := S1024x1000) hz2, View.ld_unit_zero (S := S1024x1) hz2, View.ld_unit_zero (S := S1x1000) hz2, View.ld_unit_zero (S := S1x1) hz2, View.readCov_unit_zero (S := S1x1000) _ hz2, View.readCov_unit_zero (S := S1x1) _ hz2]

/-- At a core's last block the second output block receives the updated label counter in each of its eight rows. -/
theorem out_C_3 (c : Dev nD) (i : grid0.Coords) (a2 : Memref sig .tc .vmem S1024x1000 .f32) (h2 : a2.IsWhole) (a3 : Memref sig .tc .vmem S1024x1 .i32) (h3 : a3.IsWhole) (a4 : Memref sig .tc .vmem S1x8x1000 .f32) (h4 : a4.IsWhole) (a5 : Memref sig .tc .vmem S1x8x1000 .f32) (h5 : a5.IsWhole) (a6 : Memref sig .tc .vmem S1x8x1 .f32) (h6 : a6.IsWhole) (a7 : Memref sig .tc .vmem S1x1000 .f32) (h7 : a7.IsWhole) (a8 : Memref sig .tc .vmem S1x1000 .f32) (h8 : a8.IsWhole) (a9 : Memref sig .tc .vmem S1x1 .f32) (h9 : a9.IsWhole) (hc0 : ¬cond0_0 i) (hc1 : cond0_1 i)
    (x0 : Vec F S1024x1000 .f32) (x1 : Vec F S1024x1 .i32) (s0 : Vec F S1x1000 .f32) (s1 : Vec F S1x1000 .f32) (s2 : Vec F S1x1 .f32) :
    out0_C_3 c i a2 h2 a3 h3 a4 h4 a5 h5 a6 h6 a7 h7 a8 h8 a9 h9 hc0 hc1 x0 x1 s0 s1 s2 = k0_pay5 (k0_pay3 (k0_pay12 x1) s1) := by
  unfold out0_C_3
  rw [View.read_writes_eq_canon _ _ _ (cover0_C_3 c i a2 h2 a3 h3 a4 h4 a5 h5 a6 h6 a7 h7 a8 h8 a9 h9 hc0 hc1 x0 x1 s0 s1 s2)]
  unfold kernelRun0_C
  dsimp only
  sl_unfold_words
  rw [View.canon_unit_zero hz3]
  simp only [View.readAt_eq_ld, h2.read_unread, h3.read_unread, h7.read_unread, h8.read_unread, h9.read_unread, View.ld_unit_zero (S := S1024x1000) hz2, View.ld_unit_zero (S := S1024x1) hz2, View.ld_unit_zero (S := S1x1000) hz2, View.ld_unit_zero (S := S1x1) hz2, View.readCov_unit_zero (S := S1x1000) _ hz2, View.readCov_unit_zero (S := S1x1) _ hz2]

/-- At a core's last block the third output block receives the updated loss accumulator in each of its eight rows. -/
theorem out_C_4 (c : Dev nD) (i : grid0.Coords) (a2 : Memref sig .tc .vmem S1024x1000 .f32) (h2 : a2.IsWhole) (a3 : Memref sig .tc .vmem S1024x1 .i32) (h3 : a3.IsWhole) (a4 : Memref sig .tc .vmem S1x8x1000 .f32) (h4 : a4.IsWhole) (a5 : Memref sig .tc .vmem S1x8x1000 .f32) (h5 : a5.IsWhole) (a6 : Memref sig .tc .vmem S1x8x1 .f32) (h6 : a6.IsWhole) (a7 : Memref sig .tc .vmem S1x1000 .f32) (h7 : a7.IsWhole) (a8 : Memref sig .tc .vmem S1x1000 .f32) (h8 : a8.IsWhole) (a9 : Memref sig .tc .vmem S1x1 .f32) (h9 : a9.IsWhole) (hc0 : ¬cond0_0 i) (hc1 : cond0_1 i)
    (x0 : Vec F S1024x1000 .f32) (x1 : Vec F S1024x1 .i32) (s0 : Vec F S1x1000 .f32) (s1 : Vec F S1x1000 .f32) (s2 : Vec F S1x1 .f32) :
    out0_C_4 c i a2 h2 a3 h3 a4 h4 a5 h5 a6 h6 a7 h7 a8 h8 a9 h9 hc0 hc1 x0 x1 s0 s1 s2 = k0_pay6 (k0_pay1 (k0_pay13 x0) (k0_pay14 x0 x1) s2) := by
  unfold out0_C_4
  rw [View.read_writes_eq_canon _ _ _ (cover0_C_4 c i a2 h2 a3 h3 a4 h4 a5 h5 a6 h6 a7 h7 a8 h8 a9 h9 hc0 hc1 x0 x1 s0 s1 s2)]
  unfold kernelRun0_C
  dsimp only
  sl_unfold_words
  rw [View.canon_unit_zero hz3]
  simp only [View.readAt_eq_ld, h2.read_unread, h3.read_unread, h7.read_unread, h8.read_unread, h9.read_unread, View.ld_unit_zero (S := S1024x1000) hz2, View.ld_unit_zero (S := S1024x1) hz2, View.ld_unit_zero (S := S1x1000) hz2, View.ld_unit_zero (S := S1x1) hz2, View.readCov_unit_zero (S := S1x1000) _ hz2, View.readCov_unit_zero (S := S1x1) _ hz2]

end Cert.KernelIdeal.Pieces

end
-- ==== Proof.LibEReal.lean ====
/-
  Extended reals that are real numbers: sums, maxima and the corner-case operations (exponential, square root,
  quotient) of real numbers stay real, and the float patterns for −∞, 0 and 2 are what they say.
-/
import Idealize.ShloMosaic.PureOps.Ideal
import Idealize.ShloMosaic.PureOps.Ideal.Laws

noncomputable section

open scoped BigOperators

namespace Cert.LibEReal

open Idealize.ShloMosaic

/-- A finite sum of real numbers, taken among the extended reals, is the real sum. -/
theorem coe_sum {ι : Type} (s : Finset ι) (f : ι → ℝ) :
    (∑ i ∈ s, ((f i : ℝ) : EReal)) = ((∑ i ∈ s, f i : ℝ) : EReal) := by
  classical
  -- by induction on the index set: the embedding of ℝ respects 0 and binary sums
  induction s using Finset.induction_on with
  | empty => simp
  | insert a s ha ih => rw [Finset.sum_insert ha, Finset.sum_insert ha, ih, EReal.coe_add]

/-- The maximum of two real numbers among the extended reals is the real maximum. -/
theorem max_coe (a b : ℝ) : max ((a : ℝ) : EReal) ((b : ℝ) : EReal) = ((max a b : ℝ) : EReal) := by
  -- the embedding of ℝ is monotone, and a monotone map commutes with binary maxima
  exact (EReal.coe_strictMono.monotone.map_max (a := a) (b := b)).symm

/-- Folding `max` over a nonempty finite family of reals from a real start is the real maximum of the start and the
    family's largest member. -/
theorem fold_max_coe {ι : Type} [Fintype ι] [Nonempty ι] (a : ℝ) (f : ι → ℝ) :
    (Finset.univ : Finset ι).fold max ((a : ℝ) : EReal) (fun i => ((f i : ℝ) : EReal))
      = ((max a (Finset.univ.sup' Finset.univ_nonempty f) : ℝ) : EReal) := by
  -- two inequalities: the fold is the least upper bound of the start and the members
  apply le_antisymm
  · refine (Finset.fold_max_le _).2 ⟨?_, fun i hi => ?_⟩
    · exact EReal.coe_le_coe_iff.2 (le_max_left _ _)
    · exact EReal.coe_le_coe_iff.2 (le_max_of_le_right (Finset.le_sup' f hi))
  · -- the real maximum is attained, either at the start or at some member
    rcases max_choice a (Finset.univ.sup' Finset.univ_nonempty f) with h | h
    · rw [h]; exact (Finset.le_fold_max _).2 (Or.inl le_rfl)
    · rw [h]
      obtain ⟨i, hi, hsup⟩ := Finset.exists_mem_eq_sup' Finset.univ_nonempty f
      rw [hsup]
      exact (Finset.le_fold_max _).2 (Or.inr ⟨i, hi, le_rfl⟩)

/-- Folding `max` over a nonempty finite family of reals from −∞ is the family's largest member. -/
theorem fold_max_bot_coe {ι : Type} [Fintype ι] [Nonempty ι] (f : ι → ℝ) :
    (Finset.univ : Finset ι).fold max (⊥ : EReal) (fun i => ((f i : ℝ) : EReal))
      = ((Finset.univ.sup' Finset.univ_nonempty f : ℝ) : EReal) := by
  -- two inequalities again; −∞ is below everything, and the largest member is attained
  apply le_antisymm
  · refine (Finset.fold_max_le _).2 ⟨bot_le, fun i hi => ?_⟩
    exact EReal.coe_le_coe_iff.2 (Finset.le_sup' f hi)
  · obtain ⟨i, hi, hsup⟩ := Finset.exists_mem_eq_sup' Finset.univ_nonempty f
    rw [hsup]
    exact (Finset.le_fold_max _).2 (Or.inr ⟨i, hi, le_rfl⟩)

/-- The f32 pattern `0xFF800000` is −∞. -/
theorem ofBits_neg_inf : Ideal.ofBits .f32 0xFF800000#32 = (⊥ : EReal) := by
  -- sign bit set, exponent field all ones, fraction field zero
  simp [Ideal.ofBits, Ideal.ieee]

/-- The f32 pattern `0x40000000` is 2. -/
theorem ofBits_two : Ideal.ofBits .f32 0x40000000#32 = ((2 : ℝ) : EReal) := by
  -- sign bit clear, exponent field 128, fraction field zero: 2^23 · 2^(128 − 127 − 23) = 2
  simp [Ideal.ofBits, Ideal.ieee]
  rw [← EReal.coe_mul, EReal.coe_eq_coe_iff]
  norm_num

/-- The exponential of a real number. -/
theorem exp_coe (r : ℝ) : Ideal.exp ((r : ℝ) : EReal) = ((Real.exp r : ℝ) : EReal) := by
  exact Ideal.exp_coe r

/-- The exponential of −∞ is 0. -/
theorem exp_bot : Ideal.exp (⊥ : EReal) = 0 := by
  exact Ideal.exp_bot

/-- The square root of a nonnegative real number. -/
theorem sqrt_coe {r : ℝ} (h : 0 ≤ r) : Ideal.sqrt ((r : ℝ) : EReal) = ((Real.sqrt r : ℝ) : EReal) := by
  -- the negative branch of the definition is excluded by the hypothesis
  rw [Ideal.sqrt_coe, if_neg (not_lt.2 h)]

/-- The quotient of a real number by a nonzero real number. -/
theorem div_coe_coe (a : ℝ) {b : ℝ} (h : b ≠ 0) :
    Ideal.div ((a : ℝ) : EReal) ((b : ℝ) : EReal) = ((a / b : ℝ) : EReal) := by
  -- off zero the quotient is the product with the reciprocal, and a product of reals is real
  rw [Ideal.div_coe h, ← EReal.coe_mul, mul_one_div]

end Cert.LibEReal

end
-- ==== Proof.KBlock.lean ====
/-
  One block of 1024 rows: what the kernel body's arithmetic computes from the block of logits and the block of
  labels, index by index, over the extended reals, when every logit is real and every label is a class.
-/
import proofs.«407091_j17901423690504_3_alg».proof.Proof.Gen.KernelIdeal.Skeleton
import proofs.«407091_j17901423690504_3_alg».proof.Proof.Spec
import proofs.«407091_j17901423690504_3_alg».proof.Proof.LibEReal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Block

open Idealize.ShloMosaic Idealize.ShloMosaic.ValueIdx Cert.KernelIdeal Cert.KernelIdeal.Gen Cert.Mdca

/-- The labels of a block, as classes. -/
def lab (x1 : Vec Ideal S1024x1 .i32) (p : Fin 1024) : Fin 1000 :=
  ⟨(x1 (ix2 p 0)).toNat % 1000, Nat.mod_lt _ (by norm_num)⟩

/-- Every label of the block is a class. -/
def LabOk (x1 : Vec Ideal S1024x1 .i32) : Prop := ∀ p : Fin 1024, (x1 (ix2 p 0)).toNat < 1000

/-! ## Reading the layout steps at an index -/

section layout
variable {α : Type}

/-- A vector of length a viewed as a column [a, 1] reads, at (i, u), the vector at i: the row-major positions
    i and i · 1 + u agree because u = 0. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- the row coordinate is kept, unless there is a single row, and then it is 0 anyway
    show p.val = if a = 1 then 0 else p.val
    split
    · have := p.isLt; omega
    · rfl
  | ⟨1, _⟩ => rfl

end layout

/-- The index of the block over row p with class coordinate k inserted is (p, k). -/
theorem lift_row (p : Fin 1024) (k : Fin 1000) :
    reduces_S1024x1000_S1024.lift (ix1 p) k = ix2 p k := by
  funext c
  match c with
  | ⟨0, _⟩ => rfl
  | ⟨1, _⟩ => rfl

/-- An exponential at an index is the exponential of the element. -/
theorem exp_apply {s : Shape} {φ : FTy} (a : FVec Ideal s φ) (i : s.Idx) : exp a i = Ideal.exp (a i) := rfl
/-- A logarithm at an index is the logarithm of the element. -/
theorem log_apply {s : Shape} {φ : FTy} (a : FVec Ideal s φ) (i : s.Idx) : log a i = Ideal.log (a i) := rfl

/-- The single-precision pattern of 1.0 denotes the real number 1. -/
theorem ofBits_one : Ideal.ofBits .f32 0x3F800000#32 = ((1 : ℝ) : EReal) := by
  rw [EReal.coe_one]; exact IdealRules.sign_bit.ideal_onePat .f32

/-- Every row's sum of shifted exponentials is positive: each term is. -/
theorem Z_pos {n : Nat} (x : Fin n → Fin 1000 → ℝ) (r : Fin n) : 0 < Z x r :=
  Finset.sum_pos (fun j _ => Real.exp_pos _) Finset.univ_nonempty

variable (x0 : Vec Ideal S1024x1000 .f32) (x1 : Vec Ideal S1024x1 .i32)

/-! ## The softmax -/

/-- The block's row maxima, as the kernel takes them: the fold of max from −∞ along the class axis. -/
def kMax : FVec Ideal S1024 .f32 :=
  multiReduction (F := Ideal) .maximumf [1] S1024 x0 0xFF800000#32 reduces_S1024x1000_S1024 (.inl rfl) rfl

/-- The exponentials of the logits shifted by their row maximum. -/
def kEx : FVec Ideal S1024x1000 .f32 :=
  exp (subf x0 (broadcastTo S1024x1000 (shapeCast S1024x1 (kMax x0) shapeCasts_S1024_S1024x1) broadcasts_S1024x1_S1024x1000))

/-- Their row sums. -/
def kSum : FVec Ideal S1024 .f32 :=
  multiReduction (F := Ideal) .add [1] S1024 (kEx x0) 0x00000000#32 reduces_S1024x1000_S1024 (.inl rfl) rfl

/-- The softmax payload is the shifted exponentials times the repeated column of reciprocals 1 / (row sum). -/
theorem pay10_eq : k0_pay10 (F := Ideal) x0
    = mulf (kEx x0) (broadcastTo S1024x1000 (divf (broadcast S1024x1 (Scalar.ofBits (F := Ideal) .f32 0x3F800000#32))
        (shapeCast S1024x1 (kSum x0) shapeCasts_S1024_S1024x1)) broadcasts_S1024x1_S1024x1000) := rfl

/-- With real logits the maximum of row p is the real number rowMax: the fold from −∞ over coerced reals is the
    coercion of their largest member. -/
theorem kMax_apply (hx : AllReal (n := 1024) x0) (p : Fin 1024) :
    kMax x0 (ix1 p) = ((rowMax (realOf x0) p : ℝ) : EReal) := by
  refine (Ideal.multiReduction_maximumf_single (φ := .f32) x0 _ reduces_S1024x1000_S1024 _ _ (ix1 p)).trans ?_
  show Finset.fold max (Ideal.ofBits .f32 0xFF800000#32)
    (fun k : Fin 1000 => x0 (reduces_S1024x1000_S1024.lift (ix1 p) k)) (Finset.univ : Finset (Fin 1000)) = _
  have hf : (fun k : Fin 1000 => x0 (reduces_S1024x1000_S1024.lift (ix1 p) k))
      = fun k : Fin 1000 => ((realOf x0 p k : ℝ) : EReal) :=
    funext fun k => (congrArg x0 (lift_row p k)).trans (hx p k)
  rw [hf, Cert.LibEReal.ofBits_neg_inf]
  exact Cert.LibEReal.fold_max_bot_coe _

/-- The shifted exponential at (p, q) is the real number ex: a difference of two reals is real, and so is its
    exponential. -/
theorem kEx_apply (hx : AllReal (n := 1024) x0) (p : Fin 1024) (q : Fin 1000) :
    kEx x0 (ix2 p q) = ((ex (realOf x0) p q : ℝ) : EReal) := by
  unfold kEx
  refine (exp_apply _ _).trans ?_
  rw [subf_apply, broadcastTo_a1_ab_apply, shapeCast_a_a1_apply, kMax_apply x0 hx, hx p q, ← EReal.coe_sub,
    Cert.LibEReal.exp_coe]
  rfl

/-- The sum of row p is the real number Z: a finite sum of coerced reals is the coercion of their sum. -/
theorem kSum_apply (hx : AllReal (n := 1024) x0) (p : Fin 1024) :
    kSum x0 (ix1 p) = ((Z (realOf x0) p : ℝ) : EReal) := by
  refine (Ideal.multiReduction_add_single (φ := .f32) (kEx x0) _ reduces_S1024x1000_S1024 _ _ (ix1 p)).trans ?_
  show (∑ k : Fin 1000, kEx x0 (reduces_S1024x1000_S1024.lift (ix1 p) k)) = _
  have hf : ∀ k : Fin 1000, kEx x0 (reduces_S1024x1000_S1024.lift (ix1 p) k) = ((ex (realOf x0) p k : ℝ) : EReal) :=
    fun k => (congrArg (kEx x0) (lift_row p k)).trans (kEx_apply x0 hx p k)
  rw [Finset.sum_congr rfl fun k _ => hf k]
  exact Cert.LibEReal.coe_sum _ _

/-- The block's softmax. -/
theorem pay10_apply (hx : AllReal (n := 1024) x0) (p : Fin 1024) (q : Fin 1000) :
    k0_pay10 (F := Ideal) x0 (ix2 p q) = ((prob (realOf x0) p q : ℝ) : EReal) := by
  rw [pay10_eq, mulf_apply, broadcastTo_a1_ab_apply, divf_apply, broadcast_apply, shapeCast_a_a1_apply,
    kEx_apply x0 hx, kSum_apply x0 hx]
  show ((ex (realOf x0) p q : ℝ) : EReal) * Ideal.div (Ideal.ofBits .f32 0x3F800000#32) ((Z (realOf x0) p : ℝ) : EReal) = _
  -- Z ≠ 0, so 1 / Z is the real quotient, and ex · (1 / Z) = ex / Z
  rw [ofBits_one, Cert.LibEReal.div_coe_coe 1 (Z_pos _ _).ne', ← EReal.coe_mul, mul_one_div]
  rfl

/-! ## The log-softmax of the probabilities -/

/-- The row sums of the exponentials of the probabilities, as the kernel takes them. -/
def kSum2 : FVec Ideal S1024 .f32 :=
  multiReduction (F := Ideal) .add [1] S1024 (exp (k0_pay10 (F := Ideal) x0)) 0x00000000#32 reduces_S1024x1000_S1024 (.inl rfl) rfl

/-- The log-softmax payload is the probabilities minus the repeated column of logarithms of those row sums. -/
theorem pay11_eq : k0_pay11 (F := Ideal) x0
    = subf (k0_pay10 (F := Ideal) x0) (broadcastTo S1024x1000
        (log (shapeCast S1024x1 (kSum2 x0) shapeCasts_S1024_S1024x1)) broadcasts_S1024x1_S1024x1000) := rfl

/-- The sum of row p of the exponentials of the probabilities is the real number Σ exp prob. -/
theorem kSum2_apply (hx : AllReal (n := 1024) x0) (p : Fin 1024) :
    kSum2 x0 (ix1 p) = ((∑ j, Real.exp (prob (realOf x0) p j) : ℝ) : EReal) := by
  refine (Ideal.multiReduction_add_single (φ := .f32) (exp (k0_pay10 (F := Ideal) x0)) _ reduces_S1024x1000_S1024 _ _ (ix1 p)).trans ?_
  show (∑ k : Fin 1000, exp (k0_pay10 (F := Ideal) x0) (reduces_S1024x1000_S1024.lift (ix1 p) k)) = _
  have hf : ∀ k : Fin 1000, exp (k0_pay10 (F := Ideal) x0) (reduces_S1024x1000_S1024.lift (ix1 p) k)
      = ((Real.exp (prob (realOf x0) p k) : ℝ) : EReal) := fun k => by
    rw [lift_row, exp_apply, pay10_apply x0 hx, Cert.LibEReal.exp_coe]
  rw [Finset.sum_congr rfl fun k _ => hf k]
  exact Cert.LibEReal.coe_sum _ _

/-- The log-softmax of the block's probabilities. -/
theorem pay11_apply (hx : AllReal (n := 1024) x0) (p : Fin 1024) (q : Fin 1000) :
    k0_pay11 (F := Ideal) x0 (ix2 p q) = ((logp (realOf x0) p q : ℝ) : EReal) := by
  -- the sum of exponentials is positive, so its logarithm is the real logarithm
  have hpos : 0 < ∑ j, Real.exp (prob (realOf x0) p j) :=
    Finset.sum_pos (fun j _ => Real.exp_pos _) Finset.univ_nonempty
  rw [pay11_eq, subf_apply, broadcastTo_a1_ab_apply, log_apply, shapeCast_a_a1_apply, kSum2_apply x0 hx,
    pay10_apply x0 hx, Ideal.log_coe, if_neg (not_le.2 hpos), ← EReal.coe_sub]
  rfl

/-! ## The one-hot rows -/

/-- A Boolean's bit is set exactly when the Boolean holds. -/
theorem ofBool_eq_one (c : Bool) : BitVec.ofBool c = 1#1 ↔ c = true := by cases c <;> decide

/-- A bit widened to 32 bits, read as a signed integer and converted to a float, is 1 or 0. -/
theorem bit_to_float (b : BitVec 1) :
    FloatOps.sitofp (F := Ideal) .f32 (b.setWidth 32) = if b = 1#1 then (1 : EReal) else 0 := by
  rcases BitVec.eq_zero_or_eq_one b with rfl | rfl
  · show ((((0#1 : BitVec 1).setWidth 32).toInt : ℝ) : EReal) = _
    rw [if_neg (by decide), show ((0#1 : BitVec 1).setWidth 32).toInt = 0 from by decide]
    simp
  · show ((((1#1 : BitVec 1).setWidth 32).toInt : ℝ) : EReal) = _
    rw [if_pos rfl, show ((1#1 : BitVec 1).setWidth 32).toInt = 1 from by decide]
    simp

/-- The one-hot payload: the class coordinate compared with the row's label, widened, converted. -/
theorem pay12_eq : k0_pay12 (F := Ideal) x1
    = sitofp .f32 (extui 32 (cmpi .eq (iota .tc S1024x1000 32 [1] iota_S1024x1000_d1_w32)
        (broadcastTo S1024x1000 (shapeCast S1024x1 x1 shapeCasts_S1024x1_S1024x1) broadcasts_S1024x1_S1024x1000))
        natLt_1_32) := rfl

/-- The word of class q equals the label word of row p exactly when the label is q: both are below 1000, far below
    2^32, so the words are equal iff the numbers are. -/
theorem word_eq_iff (hl : LabOk x1) (p : Fin 1024) (q : Fin 1000) :
    BitVec.ofNat 32 q.val = x1 (ix2 p 0) ↔ lab x1 p = q := by
  have hq := q.isLt
  have hp := hl p
  constructor
  · intro h
    apply Fin.ext
    show (x1 (ix2 p 0)).toNat % 1000 = q.val
    rw [← h, BitVec.toNat_ofNat]
    omega
  · intro h
    have hv : (x1 (ix2 p 0)).toNat % 1000 = q.val := congrArg Fin.val h
    apply BitVec.eq_of_toNat_eq
    rw [BitVec.toNat_ofNat]
    omega

/-- The one-hot rows of the labels. -/
theorem pay12_apply (hl : LabOk x1) (p : Fin 1024) (q : Fin 1000) :
    k0_pay12 (F := Ideal) x1 (ix2 p q) = if lab x1 p = q then (1 : EReal) else 0 := by
  rw [pay12_eq, sitofp_apply, extui_apply, bit_to_float]
  show (if IntOp.cmpi .eq (iota .tc S1024x1000 32 [1] iota_S1024x1000_d1_w32 (ix2 p q))
      (broadcastTo S1024x1000 (shapeCast S1024x1 x1 shapeCasts_S1024x1_S1024x1) broadcasts_S1024x1_S1024x1000 (ix2 p q)) = 1#1
      then (1 : EReal) else 0) = _
  rw [iota_single_apply, broadcastTo_a1_ab_apply, shapeCast_self]
  have hiff : IntOp.cmpi .eq (BitVec.ofNat 32 q.val) (x1 (ix2 p 0)) = 1#1 ↔ lab x1 p = q := by
    rw [← word_eq_iff x1 hl p q]
    show BitVec.ofBool (BitVec.ofNat 32 q.val == x1 (ix2 p 0)) = 1#1 ↔ _
    rw [ofBool_eq_one, beq_iff_eq]
  exact if_congr hiff rfl rfl

end Cert.KernelIdeal.Block

end
-- ==== Proof.KBlockAcc.lean ====
/-
  One block of 1024 rows, continued: the row reductions of the block's log-probabilities, the three accumulator
  updates (each adds a sum over the block's rows to what the accumulator held), the copies of the accumulators into
  the eight rows of an output block, and the resets.
-/
import proofs.«407091_j17901423690504_3_alg».proof.Proof.KBlock

noncomputable section

open scoped BigOperators

namespace Cert.KernelIdeal.Block

open Idealize.ShloMosaic Idealize.ShloMosaic.ValueIdx Cert.KernelIdeal Cert.KernelIdeal.Gen Cert.Mdca

/-! ## The constants the block's arithmetic spells, as extended reals -/

/-- The all-zero pattern denotes 0. -/
theorem ofBits_zero : Ideal.ofBits .f32 0x00000000#32 = (0 : EReal) := by
  -- exponent field 0 and fraction field 0: the value is 0 · 2^(−149)
  simp [Ideal.ofBits, Ideal.ieee]

/-- The pattern of the class count denotes 1000. -/
theorem ofBits_thousand : Ideal.ofBits .f32 0x447A0000#32 = ((1000 : ℝ) : EReal) := by
  -- sign clear, exponent field 136, fraction field 7995392: (2^23 + 7995392) · 2^(136 − 127 − 23) = 1000
  simp [Ideal.ofBits, Ideal.ieee, -EReal.coe_mul]; norm_num

/-- The pattern of the label's weight denotes a real number, so it is the embedding of its real part. -/
theorem ofBits_wNll : Ideal.ofBits .f32 0x3F666666#32 = ((wNll : ℝ) : EReal) := by
  -- its exponent field is 126, neither all ones nor zero, so the pattern is a normal number: some real r
  obtain ⟨r, hr⟩ : ∃ r : ℝ, Ideal.ofBits .f32 0x3F666666#32 = ((r : ℝ) : EReal) := by
    simp [Ideal.ofBits, Ideal.ieee, -EReal.coe_mul]
  -- and the real part of an embedded real is that real
  rw [wNll, hr, EReal.toReal_coe]

/-- The pattern of the uniform term's weight likewise. -/
theorem ofBits_wSmooth : Ideal.ofBits .f32 0x3DCCCCCD#32 = ((wSmooth : ℝ) : EReal) := by
  -- exponent field 123: a normal number again
  obtain ⟨r, hr⟩ : ∃ r : ℝ, Ideal.ofBits .f32 0x3DCCCCCD#32 = ((r : ℝ) : EReal) := by
    simp [Ideal.ofBits, Ideal.ieee, -EReal.coe_mul]
  rw [wSmooth, hr, EReal.toReal_coe]

/-! ## A vector viewed as a one-column matrix, and the block's three sums over one axis -/

/-- A vector of length a viewed as an a × 1 matrix reads, at (i, u), the vector at i. -/
theorem shapeCast_vec_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  -- both indices sit at row-major position i: i · 1 + u with u = 0
  shapeCast_apply x h _ _ (by
    have hu : u.val = 0 := by omega
    rw [Shape.rowMajor_val_two, Shape.rowMajor_val_one]
    show i.val = i.val * 1 + u.val
    omega)

/-- Over row p, the index with column k inserted is (p, k). -/
theorem lift_along_row (p : Fin 1024) (k : Fin 1000) :
    reduces_S1024x1000_S1024.lift (ix1 p) k = ix2 p k := by
  funext c
  match c with
  | ⟨0, _⟩ => rfl
  | ⟨1, _⟩ => rfl

/-- Over the one column of a 1024 × 1 matrix, the index with row k inserted is (k, 0). -/
theorem lift_col1 (k : Fin 1024) : reduces_S1024x1_S1.lift (ix1 0) k = ix2 k 0 := by
  funext c
  match c with
  | ⟨0, _⟩ => rfl
  | ⟨1, _⟩ => rfl

/-- Over column q, the index with row k inserted is (k, q). -/
theorem lift_col (q : Fin 1000) (k : Fin 1024) : reduces_S1024x1000_S1000.lift (ix1 q) k = ix2 k q := by
  funext c
  match c with
  | ⟨0, _⟩ => rfl
  | ⟨1, _⟩ => rfl

/-- The sum along a row of the block: at row p, the sum over the 1000 columns. -/
theorem rowSum_apply (w : FVec Ideal S1024x1000 .f32) (p : Fin 1024) :
    multiReduction (F := Ideal) .add [1] S1024 w 0x00000000#32 reduces_S1024x1000_S1024 (.inl rfl) rfl (ix1 p)
      = ∑ k : Fin 1000, w (ix2 p k) := by
  refine (Ideal.multiReduction_add_single w _ reduces_S1024x1000_S1024 (.inl rfl) rfl (ix1 p)).trans ?_
  exact Finset.sum_congr rfl fun k _ => congrArg w (lift_along_row p k)

/-- The sum down the one column of a 1024 × 1 matrix: the sum over the 1024 rows. -/
theorem colSum1_apply (w : FVec Ideal S1024x1 .f32) :
    multiReduction (F := Ideal) .add [0] S1 w 0x00000000#32 reduces_S1024x1_S1 (.inl rfl) rfl (ix1 0)
      = ∑ k : Fin 1024, w (ix2 k 0) := by
  refine (Ideal.multiReduction_add_single w _ reduces_S1024x1_S1 (.inl rfl) rfl (ix1 0)).trans ?_
  exact Finset.sum_congr rfl fun k _ => congrArg w (lift_col1 k)

/-- The sum down a column of the block: at column q, the sum over the 1024 rows. -/
theorem colSum_apply (w : FVec Ideal S1024x1000 .f32) (q : Fin 1000) :
    multiReduction (F := Ideal) .add [0] S1000 w 0x00000000#32 reduces_S1024x1000_S1000 (.inl rfl) rfl (ix1 q)
      = ∑ k : Fin 1024, w (ix2 k q) := by
  refine (Ideal.multiReduction_add_single w _ reduces_S1024x1000_S1000 (.inl rfl) rfl (ix1 q)).trans ?_
  exact Finset.sum_congr rfl fun k _ => congrArg w (lift_col q k)

/-- A 1 × n row viewed as a 1 × 1 × n array and spread over m rows reads, at (0, k, q), the row at q. -/
theorem spread_apply {m n : ℕ} (v : (⟨2, ![1, n]⟩ : Shape).Idx → EReal)
    (h : (⟨2, ![1, n]⟩ : Shape).ShapeCasts ⟨3, ![1, 1, n]⟩)
    (h' : (⟨3, ![1, 1, n]⟩ : Shape).Broadcasts ⟨3, ![1, m, n]⟩) (k : Fin m) (q : Fin n) :
    broadcastTo ⟨3, ![1, m, n]⟩ (shapeCast ⟨3, ![1, 1, n]⟩ v h) h' (ix3 0 k q) = v (ix2 0 q) := by
  -- the spread reads the middle unit axis at 0 and keeps the last coordinate
  refine (broadcastTo_apply _ h' (ix3 0 k q) (ix3 0 0 q) ?_).trans ?_
  · intro a
    match a with
    | ⟨0, _⟩ => rfl
    | ⟨1, _⟩ => rfl
    | ⟨2, _⟩ =>
      show q.val = if n = 1 then 0 else q.val
      split
      · have := q.isLt; omega
      · rfl
  -- and the added leading unit axis is forgotten
  · exact shapeCast_ab_1ab_apply v h 0 0 q

variable (x0 : Vec Ideal S1024x1000 .f32) (x1 : Vec Ideal S1024x1 .i32)

/-- Minus the mean log-probability of a row. -/
theorem pay13_apply (hx : AllReal (n := 1024) x0) (p : Fin 1024) :
    k0_pay13 (F := Ideal) x0 (ix2 p 0) = ((-((∑ j, logp (realOf x0) p j) / 1000) : ℝ) : EReal) := by
  unfold k0_pay13
  -- at (p, 0): zero minus the quotient of the row sum by the class count
  simp only [subf_apply, divf_apply, broadcast_apply]
  rw [Ideal.ofBits_def, Ideal.ofBits_def, ofBits_zero, ofBits_thousand, shapeCast_vec_col_apply, rowSum_apply]
  -- every summand is an embedded real, so the sum is; the quotient of reals by 1000 ≠ 0 is real; 0 − ↑a = ↑(−a)
  simp only [pay11_apply x0 hx]
  rw [Cert.LibEReal.coe_sum, Cert.LibEReal.div_coe_coe _ (by norm_num), zero_sub, ← EReal.coe_neg]

/-- The weighted negative log-probability of a row's label. -/
theorem pay14_apply (hx : AllReal (n := 1024) x0) (hl : LabOk x1) (p : Fin 1024) :
    k0_pay14 (F := Ideal) x0 x1 (ix2 p 0) = ((wNll * (-(logp (realOf x0) p (lab x1 p))) : ℝ) : EReal) := by
  unfold k0_pay14
  -- at (p, 0): the weight times (zero minus the row sum of indicator · log-probability)
  simp only [subf_apply, mulf_apply, broadcast_apply]
  rw [Ideal.ofBits_def, Ideal.ofBits_def, ofBits_zero, ofBits_wNll, shapeCast_vec_col_apply, rowSum_apply]
  -- 1 · ↑a = ↑a and 0 · ↑a = 0, so the sum keeps the one term at the label
  simp only [mulf_apply, pay11_apply x0 hx, pay12_apply x1 hl, ite_mul, one_mul, zero_mul]
  rw [Finset.sum_ite_eq, if_pos (Finset.mem_univ _), zero_sub, ← EReal.coe_neg, ← EReal.coe_mul]

/-- The loss accumulator's update: what it held plus the sum of the block's row losses. -/
theorem pay1_apply (hx : AllReal (n := 1024) x0) (hl : LabOk x1) (v : Vec Ideal S1x1 .f32) :
    k0_pay1 (F := Ideal) (k0_pay13 x0) (k0_pay14 x0 x1) v (ix2 0 0)
      = v (ix2 0 0) + ((ceSum (realOf x0) (lab x1) : ℝ) : EReal) := by
  unfold k0_pay1
  rw [shapeCast_self]
  simp only [addf_apply]
  -- the added term is the sum over the rows of (label term + weight · uniform term)
  rw [shapeCast_a_1a_apply, colSum1_apply]
  simp only [addf_apply, mulf_apply, broadcast_apply, pay13_apply x0 hx, pay14_apply x0 x1 hx hl]
  rw [Ideal.ofBits_def, ofBits_wSmooth]
  -- each summand is the embedded row loss, and a sum of embedded reals is the embedded sum
  simp only [← EReal.coe_mul, ← EReal.coe_add]
  rw [Cert.LibEReal.coe_sum]
  rfl

/-- The probability accumulator's update: what it held plus the block's column sums of the probabilities. -/
theorem pay2_apply (hx : AllReal (n := 1024) x0) (v : Vec Ideal S1x1000 .f32) (q : Fin 1000) :
    k0_pay2 (F := Ideal) (k0_pay10 x0) v (ix2 0 q) = v (ix2 0 q) + ((sumProb (realOf x0) q : ℝ) : EReal) := by
  unfold k0_pay2
  rw [shapeCast_self]
  simp only [addf_apply]
  -- the added term is the sum down column q of the probabilities, each an embedded real
  rw [shapeCast_a_1a_apply, colSum_apply]
  simp only [pay10_apply x0 hx]
  rw [Cert.LibEReal.coe_sum]
  rfl

/-- The label counter's update: what it held plus the number of the block's rows labelled q. -/
theorem pay3_apply (hl : LabOk x1) (v : Vec Ideal S1x1000 .f32) (q : Fin 1000) :
    k0_pay3 (F := Ideal) (k0_pay12 x1) v (ix2 0 q) = v (ix2 0 q) + ((count (lab x1) q : ℝ) : EReal) := by
  unfold k0_pay3
  rw [shapeCast_self]
  simp only [addf_apply]
  -- the added term is the sum down column q of the indicators "row k is labelled q"
  rw [shapeCast_a_1a_apply, colSum_apply]
  simp only [pay12_apply x1 hl]
  -- an indicator of extended reals is the embedded indicator of reals; the sum of an indicator counts its support
  have e : ∀ k : Fin 1024, (if lab x1 k = q then (1 : EReal) else 0)
      = (((if lab x1 k = q then (1 : ℝ) else 0) : ℝ) : EReal) := by
    intro k
    split
    · exact EReal.coe_one.symm
    · exact EReal.coe_zero.symm
  simp only [e]
  rw [Cert.LibEReal.coe_sum, Finset.sum_boole]
  rfl

/-- The accumulators copied into the eight rows of an output block. -/
theorem pay4_apply (v : Vec Ideal S1x1000 .f32) (k : Fin 8) (q : Fin 1000) :
    k0_pay4 (F := Ideal) v (ix3 0 k q) = v (ix2 0 q) := by
  unfold k0_pay4
  rw [shapeCast_self]
  exact spread_apply v _ _ k q

theorem pay5_apply (v : Vec Ideal S1x1000 .f32) (k : Fin 8) (q : Fin 1000) :
    k0_pay5 (F := Ideal) v (ix3 0 k q) = v (ix2 0 q) := by
  unfold k0_pay5
  rw [shapeCast_self]
  exact spread_apply v _ _ k q

theorem pay6_apply (v : Vec Ideal S1x1 .f32) (k : Fin 8) :
    k0_pay6 (F := Ideal) v (ix3 0 k 0) = v (ix2 0 0) := by
  unfold k0_pay6
  rw [shapeCast_self]
  exact spread_apply v _ _ k 0

/-- The resets store zero. -/
theorem pay7_apply (q : Fin 1000) : k0_pay7 (F := Ideal) (ix2 0 q) = 0 := by
  unfold k0_pay7
  rw [shapeCast_self]
  exact ofBits_zero

theorem pay8_apply (q : Fin 1000) : k0_pay8 (F := Ideal) (ix2 0 q) = 0 := by
  unfold k0_pay8
  rw [shapeCast_self]
  exact ofBits_zero

theorem pay9_apply : k0_pay9 (F := Ideal) (ix2 0 0) = 0 := by
  unfold k0_pay9
  rw [shapeCast_self]
  exact ofBits_zero

end Cert.KernelIdeal.Block

end
-- ==== Proof.KBlockRead.lean ====
/-
  The two input blocks of a grid point, read off the argument arrays: point t's block of logits is rows
  1024·t … 1024·t + 1023 of the logits, and its block of labels the same rows of the labels laid out as a column.
-/
import proofs.«407091_j17901423690504_3_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.BlockRead

open Cert.KernelIdeal Cert.KernelIdeal.Gen

variable {F : FTy → Type} [FloatOps F]
variable (m : (ℓ : Loc nD τ sig) → Buf (Elt F) ℓ)

/-- The grid has 32 points. -/
theorem N32 : cfg0.N = 32 := N_0

/-- Point t fetches block (t, 0) of the logits and block (t, 0) of the label column. -/
theorem idx_in : ∀ t : Fin grid0.N, (win0_0.index t 0 = t.val ∧ win0_0.index t 1 = 0) ∧ (win0_1.index t 0 = t.val ∧ win0_1.index t 1 = 0) := by
  decide +kernel

/-- Row p of point t's block, as a row of the batch. -/
def rowOf (t : Fin cfg0.N) (p : Fin 1024) : Fin 32768 :=
  ⟨1024 * t.val + p.val, by have ht : t.val < 32 := lt_of_lt_of_eq t.isLt N32; have := p.isLt; omega⟩

/-- The logits as the region finds them. -/
abbrev xarr (c : Dev nD) : Vec F S32768x1000 .f32 := V m c main_arg0
/-- The label column as the region finds it. -/
abbrev larr (c : Dev nD) : Vec F S32768x1 .i32 := V m c main_v0
/-- Point t's block of logits. -/
abbrev xblk (c : Dev nD) (t : Fin cfg0.N) : Vec F S1024x1000 .f32 := iblk m c 0 t
/-- Point t's block of labels. -/
abbrev lblk (c : Dev nD) (t : Fin cfg0.N) : Vec F S1024x1 .i32 := iblk m c 1 t

/-- The block of logits read at (p, q) is the logits at (1024·t + p, q). -/
theorem xblk_apply (c : Dev nD) (t : Fin cfg0.N) (p : Fin 1024) (q : Fin 1000) :
    xblk m c t (ix2 p q) = xarr m c (ix2 (rowOf t p) q) := by
  unfold xblk iblk
  rw [View.read_apply]
  show V m c main_arg0 _ = V m c main_arg0 _
  congr 1
  funext a
  apply Fin.ext
  have hi := (idx_in t).1
  match a with
  | ⟨0, _⟩ => show win0_0.index t 0 * 1024 + 1 * p.val = 1024 * t.val + p.val; rw [hi.1]; omega
  | ⟨1, _⟩ => show win0_0.index t 1 * 1000 + 1 * q.val = q.val; rw [hi.2]; omega

/-- The block of labels read at (p, 0) is the label column at (1024·t + p, 0). -/
theorem lblk_apply (c : Dev nD) (t : Fin cfg0.N) (p : Fin 1024) :
    lblk m c t (ix2 p 0) = larr m c (ix2 (rowOf t p) 0) := by
  unfold lblk iblk
  rw [View.read_apply]
  show V m c main_v0 _ = V m c main_v0 _
  congr 1
  funext a
  apply Fin.ext
  have hi := (idx_in t).2
  match a with
  | ⟨0, _⟩ => show win0_1.index t 0 * 1024 + 1 * p.val = 1024 * t.val + p.val; rw [hi.1]; omega
  | ⟨1, _⟩ => show win0_1.index t 1 * 1 + 1 * (0 : Fin 1).val = (0 : Fin 1).val; rw [hi.2]; simp

/-- The logits as the region finds them are the argument. -/
theorem xarr_eq (c : Dev nD) : xarr m c = m ((c : Thread nD τ).loc main_arg0) := V_main_arg0 m c

/-- The label column is the argument's labels, one per row. -/
theorem larr_apply (c : Dev nD) (r : Fin 32768) :
    larr m c (ix2 r 0) = (m ((c : Thread nD τ).loc main_arg1) : Vec F S32768 .i32) (ix1 r) := by
  have e : (V m c main_v0 : S32768x1.Idx → BitVec 32)
      = shapeCast S32768x1 (m ((c : Thread nD τ).loc main_arg1) : S32768.Idx → BitVec 32) shapeCasts_S32768_S32768x1 := by
    dsimp only [V, V0]
    simp only [hostOps0, List.flatten_cons, List.flatten_nil, List.append_nil]
    after_results
    rfl
  show (V m c main_v0 : S32768x1.Idx → BitVec 32) (ix2 r 0) = _
  rw [e]
  refine shapeCast_apply _ _ (ix2 r 0) (ix1 r) ?_
  rw [Shape.rowMajor_val_one, Shape.rowMajor_val_two]
  show r.val = r.val * 1 + (0 : Fin 1).val
  simp

end Cert.KernelIdeal.BlockRead

end
-- ==== Proof.BlockSums.lean ====
/-
  Sums over consecutive blocks of rows. A real function on the 32768 rows is extended by zero to the natural
  numbers; the sum over one block of 1024 rows is then a sum over an interval, a sum over all rows the sum over
  [0, 32768), and an accumulator that is zeroed at every sixteenth block and otherwise adds the block's sum to what
  it held is, after block n, the sum over the interval from the start of n's group of sixteen through block n.
-/
import Mathlib.Algebra.BigOperators.Intervals
import Mathlib.Algebra.BigOperators.Fin
import Mathlib.Data.EReal.Basic

noncomputable section

open scoped BigOperators

namespace Cert.BlockSums

/-- A function on the rows, extended by zero. -/
def ext {N : ℕ} (f : Fin N → ℝ) (k : ℕ) : ℝ := if h : k < N then f ⟨k, h⟩ else 0

theorem ext_of_lt {N : ℕ} (f : Fin N → ℝ) {k : ℕ} (h : k < N) : ext f k = f ⟨k, h⟩ := dif_pos h

/-- The sum over all rows is the sum of the extension over [0, N). -/
theorem sum_univ_eq {N : ℕ} (f : Fin N → ℝ) : ∑ r, f r = ∑ k ∈ Finset.range N, ext f k := by
  rw [Finset.sum_range]
  exact Finset.sum_congr rfl fun r _ => (ext_of_lt f r.isLt).symm

/-- The sum over block t's rows, row p of the block being row B·t + p, is the sum of the extension over
    [B·t, B·(t+1)). -/
theorem sum_block {N B : ℕ} (f : Fin N → ℝ) (t : ℕ) (row : Fin B → Fin N) (hrow : ∀ p, (row p).val = B * t + p.val) :
    ∑ p : Fin B, f (row p) = ∑ k ∈ Finset.Ico (B * t) (B * (t + 1)), ext f k := by
  have e1 : ∀ p : Fin B, f (row p) = ext f (p.val + B * t) := fun p => by
    have hlt : p.val + B * t < N := by have := (row p).isLt; have := hrow p; omega
    rw [ext_of_lt f hlt]
    exact congrArg f (Fin.ext (by rw [hrow p]; exact Nat.add_comm _ _))
  calc ∑ p : Fin B, f (row p) = ∑ p : Fin B, ext f (p.val + B * t) := Finset.sum_congr rfl fun p _ => e1 p
    _ = ∑ x ∈ Finset.range B, ext f (x + B * t) := (Finset.sum_range fun x => ext f (x + B * t)).symm
    _ = ∑ x ∈ Finset.Ico 0 B, ext f (x + B * t) := by rw [Finset.range_eq_Ico]
    _ = ∑ k ∈ Finset.Ico (0 + B * t) (B + B * t), ext f k := Finset.sum_Ico_add' (fun k => ext f k) 0 B (B * t)
    _ = ∑ k ∈ Finset.Ico (B * t) (B * (t + 1)), ext f k := by
        rw [Nat.zero_add, show B + B * t = B * (t + 1) by ring]

/-- The accumulator's recurrence solved: zeroed before every sixteenth block, otherwise adding to what it held. -/
theorem accum (g : ℕ → ℝ) (acc : (n : ℕ) → n < 32 → EReal)
    (h0 : ∀ (n : ℕ) (h : n < 32), n % 16 = 0 →
      acc n h = 0 + ((∑ k ∈ Finset.Ico (1024 * n) (1024 * (n + 1)), g k : ℝ) : EReal))
    (hs : ∀ (n : ℕ) (h : n + 1 < 32), ¬(n + 1) % 16 = 0 →
      acc (n + 1) h = acc n (Nat.lt_of_succ_lt h) + ((∑ k ∈ Finset.Ico (1024 * (n + 1)) (1024 * (n + 1 + 1)), g k : ℝ) : EReal)) :
    ∀ (n : ℕ) (h : n < 32), acc n h = ((∑ k ∈ Finset.Ico (16384 * (n / 16)) (1024 * (n + 1)), g k : ℝ) : EReal) := by
  intro n
  induction n with
  | zero =>
    intro h
    rw [h0 0 h rfl, zero_add]
  | succ n ih =>
    intro h
    by_cases hm : (n + 1) % 16 = 0
    · rw [h0 (n + 1) h hm, zero_add, show 16384 * ((n + 1) / 16) = 1024 * (n + 1) by omega]
    · rw [hs n h hm, ih (Nat.lt_of_succ_lt h), ← EReal.coe_add, show 16384 * ((n + 1) / 16) = 16384 * (n / 16) by omega]
      exact congrArg _ (Finset.sum_Ico_consecutive g (by omega) (by omega))

/-- A core's sixteen blocks, then both cores: the two final accumulators add up to the sum over all rows. -/
theorem two_cores (g : ℕ → ℝ) :
    (∑ k ∈ Finset.Ico (16384 * (15 / 16)) (1024 * (15 + 1)), g k) + (∑ k ∈ Finset.Ico (16384 * (31 / 16)) (1024 * (31 + 1)), g k)
      = ∑ k ∈ Finset.range 32768, g k := by
  rw [Finset.range_eq_Ico]
  exact Finset.sum_Ico_consecutive g (by norm_num) (by norm_num)

end Cert.BlockSums

end
-- ==== Proof.SpecRows.lean ====
/-
  A row's quantities depend on that row alone: if a row of one matrix is a row of another, their probabilities,
  log-probabilities and, with equal labels, losses agree. This is what lets one block of rows stand for its rows
  of the batch. The count of a class is the sum of its indicator.
-/
import proofs.«407091_j17901423690504_3_alg».proof.Proof.Spec

noncomputable section

open scoped BigOperators

namespace Cert.Mdca

variable {n n' : Nat} (x : Fin n → Fin 1000 → ℝ) (x' : Fin n' → Fin 1000 → ℝ) (r : Fin n) (r' : Fin n')

theorem prob_congr (h : x r = x' r') (j : Fin 1000) : prob x r j = prob x' r' j := by
  unfold prob Z ex rowMax
  rw [h]

theorem logp_congr (h : x r = x' r') (j : Fin 1000) : logp x r j = logp x' r' j := by
  unfold logp lse
  simp only [prob_congr x x' r r' h]

theorem rowLoss_congr (tg : Fin n → Fin 1000) (tg' : Fin n' → Fin 1000) (h : x r = x' r') (ht : tg r = tg' r') :
    rowLoss x tg r = rowLoss x' tg' r' := by
  unfold rowLoss
  rw [ht]
  simp only [logp_congr x x' r r' h]

/-- The number of rows labelled i is the sum over the rows of the indicator of "labelled i". -/
theorem count_eq_sum {k : Nat} (tg : Fin k → Fin 1000) (i : Fin 1000) :
    count tg i = ∑ r, (if tg r = i then (1 : ℝ) else 0) := by
  unfold count
  rw [Finset.sum_boole]

end Cert.Mdca

end
-- ==== Proof.KAccum.lean ====
/-
  What the three accumulators hold after each grid point. Point t = 16·core + j handles rows 1024·t … 1024·t + 1023;
  the accumulators are zeroed at j = 0 and otherwise carried, so after point t each holds the sum, over the rows from
  the start of t's core through block t, of a per-row real function: the probability of class q, the indicator
  "labelled q", the row's loss.
-/
import proofs.«407091_j17901423690504_3_alg».proof.Proof.KPieces
import proofs.«407091_j17901423690504_3_alg».proof.Proof.KBlockAcc
import proofs.«407091_j17901423690504_3_alg».proof.Proof.KBlockRead
import proofs.«407091_j17901423690504_3_alg».proof.Proof.BlockSums
import proofs.«407091_j17901423690504_3_alg».proof.Proof.SpecRows

noncomputable section

open scoped BigOperators

open Idealize.ShloMosaic Idealize.ShloMosaic.TcCoe Idealize.SL.Sem Idealize.ShloMosaic.ValueIdx

namespace Cert.KernelIdeal.Accum

open Cert.KernelIdeal Cert.KernelIdeal.Gen Cert.KernelIdeal.Pieces Cert.KernelIdeal.Block Cert.KernelIdeal.BlockRead
open Cert.Mdca Cert.BlockSums

variable (m : (ℓ : Loc nD τ sig) → Buf (Elt Ideal) ℓ)

/-- The logits argument. -/
abbrev X (c : Dev nD) : FVec Ideal S32768x1000 .f32 := m ((c.tc : Thread nD τ).loc main_arg0)
/-- The labels argument. -/
abbrev T (c : Dev nD) : IVec S32768 32 := m ((c.tc : Thread nD τ).loc main_arg1)

/-- The probability of class q in row r. -/
def fP (c : Dev nD) (q : Fin 1000) (r : Fin 32768) : ℝ := prob (realOf (X m c)) r q
/-- 1 if row r is labelled q, else 0. -/
def fC (c : Dev nD) (q : Fin 1000) (r : Fin 32768) : ℝ := if labelOf (T m c) r = q then 1 else 0
/-- Row r's loss. -/
def fL (c : Dev nD) (r : Fin 32768) : ℝ := rowLoss (realOf (X m c)) (labelOf (T m c)) r

/-! ## A block is its rows of the batch -/

theorem xblk_allReal (c : Dev nD) (t : Fin cfg0.N) (hx : AllReal (n := 32768) (X m c)) : AllReal (n := 1024) (xblk m c t) := by
  intro p q
  unfold realOf
  rw [xblk_apply, xarr_eq]
  exact hx (rowOf t p) q

theorem realOf_xblk (c : Dev nD) (t : Fin cfg0.N) (p : Fin 1024) : realOf (xblk m c t) p = realOf (X m c) (rowOf t p) := by
  funext j
  unfold realOf
  rw [xblk_apply, xarr_eq]

theorem lblk_word (c : Dev nD) (t : Fin cfg0.N) (p : Fin 1024) : lblk m c t (ix2 p 0) = T m c (ix1 (rowOf t p)) := by
  rw [lblk_apply, larr_apply]

theorem lblk_labOk (c : Dev nD) (t : Fin cfg0.N) (hl : InRange (n := 32768) (T m c)) : LabOk (lblk m c t) := fun p => by
  rw [lblk_word]
  exact hl (rowOf t p)

theorem lab_lblk (c : Dev nD) (t : Fin cfg0.N) (p : Fin 1024) : lab (lblk m c t) p = labelOf (T m c) (rowOf t p) := by
  unfold lab labelOf
  apply Fin.ext
  show (lblk m c t (ix2 p 0)).toNat % 1000 = (T m c (ix1 (rowOf t p))).toNat % 1000
  rw [lblk_word]

/-! ## A block's sums as interval sums -/

theorem blk_prob (c : Dev nD) (t : Fin cfg0.N) (q : Fin 1000) :
    sumProb (realOf (xblk m c t)) q = ∑ k ∈ Finset.Ico (1024 * t.val) (1024 * (t.val + 1)), ext (fP m c q) k := by
  unfold sumProb
  rw [← sum_block (fP m c q) t.val (rowOf t) (fun p => rfl)]
  exact Finset.sum_congr rfl fun p _ => prob_congr _ _ p (rowOf t p) (realOf_xblk m c t p) q

theorem blk_count (c : Dev nD) (t : Fin cfg0.N) (q : Fin 1000) :
    count (lab (lblk m c t)) q = ∑ k ∈ Finset.Ico (1024 * t.val) (1024 * (t.val + 1)), ext (fC m c q) k := by
  rw [count_eq_sum, ← sum_block (fC m c q) t.val (rowOf t) (fun p => rfl)]
  refine Finset.sum_congr rfl fun p _ => ?_
  rw [lab_lblk]
  rfl

theorem blk_loss (c : Dev nD) (t : Fin cfg0.N) :
    ceSum (realOf (xblk m c t)) (lab (lblk m c t)) = ∑ k ∈ Finset.Ico (1024 * t.val) (1024 * (t.val + 1)), ext (fL m c) k := by
  unfold ceSum
  rw [← sum_block (fL m c) t.val (rowOf t) (fun p => rfl)]
  exact Finset.sum_congr rfl fun p _ =>
    rowLoss_congr _ _ p (rowOf t p) _ _ (realOf_xblk m c t p) (lab_lblk m c t p)

/-! ## The accumulators point by point -/

/-- The probability accumulator after point n. -/
def S0 (c : Dev nD) (n : ℕ) (h : n < cfg0.N) : Vec Ideal S1x1000 .f32 := (outsAt0 m c n h).2.2.2.1
/-- The label counter after point n. -/
def S1 (c : Dev nD) (n : ℕ) (h : n < cfg0.N) : Vec Ideal S1x1000 .f32 := (outsAt0 m c n h).2.2.2.2.1
/-- The loss accumulator after point n. -/
def S2 (c : Dev nD) (n : ℕ) (h : n < cfg0.N) : Vec Ideal S1x1 .f32 := (outsAt0 m c n h).2.2.2.2.2

/-- After a core's first block. -/
theorem S0_first (c : Dev nD) (t : Fin cfg0.N) (h0 : t.val % 16 = 0) :
    S0 m c t.val t.isLt = k0_pay2 (k0_pay10 (xblk m c t)) (k0_pay7 (F := Ideal)) := by
  have h1 : ¬t.val % 16 = 15 := by omega
  unfold S0
  rw [outsAt0_A m c t h0 h1]
  dsimp only
  exact scratch_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- After any other block: the update of what the block before left. -/
theorem S0_next (c : Dev nD) (t : Fin cfg0.N) (h0 : ¬t.val % 16 = 0) :
    S0 m c t.val t.isLt = k0_pay2 (k0_pay10 (xblk m c t)) (S0 m c (t.val - 1) (Nat.lt_of_le_of_lt (Nat.sub_le _ _) t.isLt)) := by
  unfold S0
  by_cases h1 : t.val % 16 = 15
  · rw [outsAt0_C m c t h0 h1]
    dsimp only
    exact scratch_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact scratch_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- After a core's first block. -/
theorem S1_first (c : Dev nD) (t : Fin cfg0.N) (h0 : t.val % 16 = 0) :
    S1 m c t.val t.isLt = k0_pay3 (k0_pay12 (lblk m c t)) (k0_pay8 (F := Ideal)) := by
  have h1 : ¬t.val % 16 = 15 := by omega
  unfold S1
  rw [outsAt0_A m c t h0 h1]
  dsimp only
  exact scratch_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- After any other block: the update of what the block before left. -/
theorem S1_next (c : Dev nD) (t : Fin cfg0.N) (h0 : ¬t.val % 16 = 0) :
    S1 m c t.val t.isLt = k0_pay3 (k0_pay12 (lblk m c t)) (S1 m c (t.val - 1) (Nat.lt_of_le_of_lt (Nat.sub_le _ _) t.isLt)) := by
  unfold S1
  by_cases h1 : t.val % 16 = 15
  · rw [outsAt0_C m c t h0 h1]
    dsimp only
    exact scratch_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact scratch_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- After a core's first block. -/
theorem S2_first (c : Dev nD) (t : Fin cfg0.N) (h0 : t.val % 16 = 0) :
    S2 m c t.val t.isLt = k0_pay1 (k0_pay13 (xblk m c t)) (k0_pay14 (xblk m c t) (lblk m c t)) (k0_pay9 (F := Ideal)) := by
  have h1 : ¬t.val % 16 = 15 := by omega
  unfold S2
  rw [outsAt0_A m c t h0 h1]
  dsimp only
  exact scratch_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- After any other block: the update of what the block before left. -/
theorem S2_next (c : Dev nD) (t : Fin cfg0.N) (h0 : ¬t.val % 16 = 0) :
    S2 m c t.val t.isLt = k0_pay1 (k0_pay13 (xblk m c t)) (k0_pay14 (xblk m c t) (lblk m c t)) (S2 m c (t.val - 1) (Nat.lt_of_le_of_lt (Nat.sub_le _ _) t.isLt)) := by
  unfold S2
  by_cases h1 : t.val % 16 = 15
  · rw [outsAt0_C m c t h0 h1]
    dsimp only
    exact scratch_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact scratch_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-! ## The accumulators as interval sums -/

theorem lt32 {n : ℕ} (h : n < 32) : n < cfg0.N := lt_of_lt_of_eq h N32.symm

/-- After point n the probability accumulator holds, at class q, the sum of that class's probabilities over the
    rows from the start of n's core through block n. -/
theorem S0_val (c : Dev nD) (hx : AllReal (n := 32768) (X m c)) (q : Fin 1000) (n : ℕ) (h : n < 32) :
    S0 m c n (lt32 h) (ix2 0 q)
      = ((∑ k ∈ Finset.Ico (16384 * (n / 16)) (1024 * (n + 1)), ext (fP m c q) k : ℝ) : EReal) := by
  refine accum (ext (fP m c q)) (fun n h => S0 m c n (lt32 h) (ix2 0 q)) ?_ ?_ n h
  · intro n h h0
    show S0 m c (⟨n, lt32 h⟩ : Fin cfg0.N).val _ (ix2 0 q) = _
    rw [S0_first m c ⟨n, lt32 h⟩ h0, pay2_apply _ (xblk_allReal m c _ hx), pay7_apply, blk_prob]
  · intro n h hm
    show S0 m c (⟨n + 1, lt32 h⟩ : Fin cfg0.N).val _ (ix2 0 q) = _
    rw [S0_next m c ⟨n + 1, lt32 h⟩ hm, pay2_apply _ (xblk_allReal m c _ hx), blk_prob]
    rfl

/-- After point n the label counter holds, at class q, the number of rows labelled q from the start of n's core
    through block n. -/
theorem S1_val (c : Dev nD) (hl : InRange (n := 32768) (T m c)) (q : Fin 1000) (n : ℕ) (h : n < 32) :
    S1 m c n (lt32 h) (ix2 0 q)
      = ((∑ k ∈ Finset.Ico (16384 * (n / 16)) (1024 * (n + 1)), ext (fC m c q) k : ℝ) : EReal) := by
  refine accum (ext (fC m c q)) (fun n h => S1 m c n (lt32 h) (ix2 0 q)) ?_ ?_ n h
  · intro n h h0
    show S1 m c (⟨n, lt32 h⟩ : Fin cfg0.N).val _ (ix2 0 q) = _
    rw [S1_first m c ⟨n, lt32 h⟩ h0, pay3_apply _ (lblk_labOk m c _ hl), pay8_apply, blk_count]
  · intro n h hm
    show S1 m c (⟨n + 1, lt32 h⟩ : Fin cfg0.N).val _ (ix2 0 q) = _
    rw [S1_next m c ⟨n + 1, lt32 h⟩ hm, pay3_apply _ (lblk_labOk m c _ hl), blk_count]
    rfl

/-- After point n the loss accumulator holds the sum of the rows' losses from the start of n's core through
    block n. -/
theorem S2_val (c : Dev nD) (hx : AllReal (n := 32768) (X m c)) (hl : InRange (n := 32768) (T m c)) (n : ℕ) (h : n < 32) :
    S2 m c n (lt32 h) (ix2 0 0)
      = ((∑ k ∈ Finset.Ico (16384 * (n / 16)) (1024 * (n + 1)), ext (fL m c) k : ℝ) : EReal) := by
  refine accum (ext (fL m c)) (fun n h => S2 m c n (lt32 h) (ix2 0 0)) ?_ ?_ n h
  · intro n h h0
    show S2 m c (⟨n, lt32 h⟩ : Fin cfg0.N).val _ (ix2 0 0) = _
    rw [S2_first m c ⟨n, lt32 h⟩ h0, pay1_apply _ _ (xblk_allReal m c _ hx) (lblk_labOk m c _ hl), pay9_apply, blk_loss]
  · intro n h hm
    show S2 m c (⟨n + 1, lt32 h⟩ : Fin cfg0.N).val _ (ix2 0 0) = _
    rw [S2_next m c ⟨n + 1, lt32 h⟩ hm, pay1_apply _ _ (xblk_allReal m c _ hx) (lblk_labOk m c _ hl), blk_loss]
    rfl

end Cert.KernelIdeal.Accum

end
-- ==== Proof.KArrays.lean ====
/-
  The three output arrays after the run. Each core writes back once, after its last point, one block [1, 8, ·] of
  each output array: the copy, into eight rows, of an accumulator as that point leaves it. The two blocks tile the
  array, so at (core, row, class) the array ends holding the core's final accumulator at that class.
-/
import proofs.«407091_j17901423690504_3_alg».proof.Proof.KAccum

noncomputable section

open scoped BigOperators

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Pieces Cert.KernelIdeal.Block Cert.KernelIdeal.BlockRead
open Cert.KernelIdeal.Accum

variable (m : (ℓ : Loc nD τ sig) → Buf (Elt Ideal) ℓ)

/-- A core's last point is a point of the grid. -/
theorem lastLt (a : ℕ) (h : a < 2) : 16 * a + 15 < cfg0.N := lt_of_lt_of_eq (by omega) N32.symm

/-- Point t writes back block (t / 16, 0, 0) of each output array. -/
theorem idx_out : ∀ t : Fin grid0.N,
    (win0_2.index t 0 = t.val / 16 ∧ win0_2.index t 1 = 0 ∧ win0_2.index t 2 = 0)
    ∧ (win0_3.index t 0 = t.val / 16 ∧ win0_3.index t 1 = 0 ∧ win0_3.index t 2 = 0)
    ∧ (win0_4.index t 0 = t.val / 16 ∧ win0_4.index t 1 = 0 ∧ win0_4.index t 2 = 0) := by
  decide +kernel

theorem S0_congr (c : Dev nD) {n n' : ℕ} (e : n = n') (h : n < cfg0.N) (h' : n' < cfg0.N) : Accum.S0 m c n h = Accum.S0 m c n' h' := by
  subst e; rfl
theorem S1_congr (c : Dev nD) {n n' : ℕ} (e : n = n') (h : n < cfg0.N) (h' : n' < cfg0.N) : Accum.S1 m c n h = Accum.S1 m c n' h' := by
  subst e; rfl
theorem S2_congr (c : Dev nD) {n n' : ℕ} (e : n = n') (h : n < cfg0.N) (h' : n' < cfg0.N) : Accum.S2 m c n h = Accum.S2 m c n' h' := by
  subst e; rfl

/-! ## Output window 2 -/

/-- At a core's last point the block written back is the copy, into eight rows, of the accumulator as just updated. -/
theorem O2_last (c : Dev nD) (t : Fin cfg0.N) (h1 : t.val % 16 = 15) :
    (outsAt0 m c t.val t.isLt).1 = k0_pay4 (Accum.S0 m c t.val t.isLt) := by
  have h0 : ¬t.val % 16 = 0 := by omega
  unfold Accum.S0
  rw [outsAt0_C m c t h0 h1]
  dsimp only
  exact (out_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
    (congrArg k0_pay4 (scratch_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)

/-- What the array ends holding: at (core, row, class) the core's accumulator after the core's last point. -/
def G2 (c : Dev nD) : Vec Ideal S2x8x1000 .f32 := fun i =>
  Accum.S0 m c (16 * (i 0).val + 15) (lastLt (i 0).val (i 0).isLt) (ix2 0 ⟨(i 2).val, (i 2).isLt⟩)

theorem G2_apply (c : Dev nD) (cc : Fin 2) (k : Fin 8) (q : Fin 1000) :
    G2 m c (ix3 cc k q) = Accum.S0 m c (16 * cc.val + 15) (lastLt cc.val cc.isLt) (ix2 0 q) := rfl

/-- The point that writes back writes block (t / 16) of that array. -/
theorem flushed2_eq (c : Dev nD) (t : Fin cfg0.N) (hf : (cfg0.win 2).flush t = true) :
    (dats m 0 c).flushed 2 t = ((cfg0.win 2).blk t).view.read (Elt Ideal) (G2 m c) := by
  have h15 : t.val % 16 = 15 := (flush0_2 t).mp hf
  have ht : t.val < 32 := lt_of_lt_of_eq t.isLt N32
  show (cfg0.win 2).cut (grid0.coords t) ((dats m 0 c).after 2 t) = _
  rw [after0_2, O2_last m c t h15]
  funext y
  obtain ⟨a, k, q, rfl⟩ : ∃ (a : Fin 1) (k : Fin 8) (q : Fin 1000), y = ix3 a k q := ⟨y 0, y 1, y 2, eq_ix3 y⟩
  obtain rfl : a = 0 := Subsingleton.elim _ _
  have hi := (idx_out t).1
  have e : ((cfg0.win 2).blk t).view.emb (ix3 (0 : Fin 1) k q) = ix3 (⟨t.val / 16, by omega⟩ : Fin 2) k q := by
    funext b
    apply Fin.ext
    match b with
    | ⟨0, _⟩ => show win0_2.index t 0 * 1 + 1 * (0 : Fin 1).val = t.val / 16; rw [hi.1]; simp
    | ⟨1, _⟩ => show win0_2.index t 1 * 8 + 1 * k.val = k.val; rw [hi.2.1]; omega
    | ⟨2, _⟩ => show win0_2.index t 2 * 1000 + 1 * q.val = q.val; rw [hi.2.2]; omega
  show k0_pay4 (Accum.S0 m c t.val t.isLt) (ix3 0 k q) = G2 m c (((cfg0.win 2).blk t).view.emb (ix3 (0 : Fin 1) k q))
  rw [e, G2_apply, pay4_apply]
  exact congrFun (S0_congr m c (by show t.val = 16 * (t.val / 16) + 15; omega) _ _) _

/-- Every entry of the array is in the block some core's last point writes back. -/
theorem cover2 (i : S2x8x1000.Idx) : ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 1000 := (i 2).isLt
  let t : Fin cfg0.N := ⟨16 * (i 0).val + 15, lastLt (i 0).val h0⟩
  have hi := (idx_out t).1
  have htv : t.val = 16 * (i 0).val + 15 := rfl
  refine ⟨t, (flush0_2 t).mpr (by rw [htv]; omega), ?_⟩
  show i ∈ ((View.whole main_v1_0).slice (win0_2.rect t)).set
  rw [View.set_slice_whole, Rect.mem_set_unit]
  intro b
  match b with
  | ⟨0, _⟩ => show win0_2.index t 0 * 1 ≤ (i 0).val ∧ (i 0).val < win0_2.index t 0 * 1 + 1; rw [hi.1, htv]; omega
  | ⟨1, _⟩ => show win0_2.index t 1 * 8 ≤ (i 1).val ∧ (i 1).val < win0_2.index t 1 * 8 + 8; rw [hi.2.1]; omega
  | ⟨2, _⟩ => show win0_2.index t 2 * 1000 ≤ (i 2).val ∧ (i 2).val < win0_2.index t 2 * 1000 + 1000; rw [hi.2.2]; omega

/-- So the array after the run is that function. -/
theorem final2 (c : Dev nD) : (dats m 0 c).arrAt 2 cfg0.N = G2 m c :=
  (dats m 0 c).arrAt_eq_of_cover 2 (G2 m c) (flushed2_eq m c) cover2

/-! ## Output window 3 -/

/-- At a core's last point the block written back is the copy, into eight rows, of the accumulator as just updated. -/
theorem O3_last (c : Dev nD) (t : Fin cfg0.N) (h1 : t.val % 16 = 15) :
    (outsAt0 m c t.val t.isLt).2.1 = k0_pay5 (Accum.S1 m c t.val t.isLt) := by
  have h0 : ¬t.val % 16 = 0 := by omega
  unfold Accum.S1
  rw [outsAt0_C m c t h0 h1]
  dsimp only
  exact (out_C_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
    (congrArg k0_pay5 (scratch_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)

/-- What the array ends holding: at (core, row, class) the core's accumulator after the core's last point. -/
def G3 (c : Dev nD) : Vec Ideal S2x8x1000 .f32 := fun i =>
  Accum.S1 m c (16 * (i 0).val + 15) (lastLt (i 0).val (i 0).isLt) (ix2 0 ⟨(i 2).val, (i 2).isLt⟩)

theorem G3_apply (c : Dev nD) (cc : Fin 2) (k : Fin 8) (q : Fin 1000) :
    G3 m c (ix3 cc k q) = Accum.S1 m c (16 * cc.val + 15) (lastLt cc.val cc.isLt) (ix2 0 q) := rfl

/-- The point that writes back writes block (t / 16) of that array. -/
theorem flushed3_eq (c : Dev nD) (t : Fin cfg0.N) (hf : (cfg0.win 3).flush t = true) :
    (dats m 0 c).flushed 3 t = ((cfg0.win 3).blk t).view.read (Elt Ideal) (G3 m c) := by
  have h15 : t.val % 16 = 15 := (flush0_3 t).mp hf
  have ht : t.val < 32 := lt_of_lt_of_eq t.isLt N32
  show (cfg0.win 3).cut (grid0.coords t) ((dats m 0 c).after 3 t) = _
  rw [after0_3, O3_last m c t h15]
  funext y
  obtain ⟨a, k, q, rfl⟩ : ∃ (a : Fin 1) (k : Fin 8) (q : Fin 1000), y = ix3 a k q := ⟨y 0, y 1, y 2, eq_ix3 y⟩
  obtain rfl : a = 0 := Subsingleton.elim _ _
  have hi := (idx_out t).2.1
  have e : ((cfg0.win 3).blk t).view.emb (ix3 (0 : Fin 1) k q) = ix3 (⟨t.val / 16, by omega⟩ : Fin 2) k q := by
    funext b
    apply Fin.ext
    match b with
    | ⟨0, _⟩ => show win0_3.index t 0 * 1 + 1 * (0 : Fin 1).val = t.val / 16; rw [hi.1]; simp
    | ⟨1, _⟩ => show win0_3.index t 1 * 8 + 1 * k.val = k.val; rw [hi.2.1]; omega
    | ⟨2, _⟩ => show win0_3.index t 2 * 1000 + 1 * q.val = q.val; rw [hi.2.2]; omega
  show k0_pay5 (Accum.S1 m c t.val t.isLt) (ix3 0 k q) = G3 m c (((cfg0.win 3).blk t).view.emb (ix3 (0 : Fin 1) k q))
  rw [e, G3_apply, pay5_apply]
  exact congrFun (S1_congr m c (by show t.val = 16 * (t.val / 16) + 15; omega) _ _) _

/-- Every entry of the array is in the block some core's last point writes back. -/
theorem cover3 (i : S2x8x1000.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 1000 := (i 2).isLt
  let t : Fin cfg0.N := ⟨16 * (i 0).val + 15, lastLt (i 0).val h0⟩
  have hi := (idx_out t).2.1
  have htv : t.val = 16 * (i 0).val + 15 := rfl
  refine ⟨t, (flush0_3 t).mpr (by rw [htv]; omega), ?_⟩
  show i ∈ ((View.whole main_v1_1).slice (win0_3.rect t)).set
  rw [View.set_slice_whole, Rect.mem_set_unit]
  intro b
  match b with
  | ⟨0, _⟩ => show win0_3.index t 0 * 1 ≤ (i 0).val ∧ (i 0).val < win0_3.index t 0 * 1 + 1; rw [hi.1, htv]; omega
  | ⟨1, _⟩ => show win0_3.index t 1 * 8 ≤ (i 1).val ∧ (i 1).val < win0_3.index t 1 * 8 + 8; rw [hi.2.1]; omega
  | ⟨2, _⟩ => show win0_3.index t 2 * 1000 ≤ (i 2).val ∧ (i 2).val < win0_3.index t 2 * 1000 + 1000; rw [hi.2.2]; omega

/-- So the array after the run is that function. -/
theorem final3 (c : Dev nD) : (dats m 0 c).arrAt 3 cfg0.N = G3 m c :=
  (dats m 0 c).arrAt_eq_of_cover 3 (G3 m c) (flushed3_eq m c) cover3

/-! ## Output window 4 -/

/-- At a core's last point the block written back is the copy, into eight rows, of the accumulator as just updated. -/
theorem O4_last (c : Dev nD) (t : Fin cfg0.N) (h1 : t.val % 16 = 15) :
    (outsAt0 m c t.val t.isLt).2.2.1 = k0_pay6 (Accum.S2 m c t.val t.isLt) := by
  have h0 : ¬t.val % 16 = 0 := by omega
  unfold Accum.S2
  rw [outsAt0_C m c t h0 h1]
  dsimp only
  exact (out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
    (congrArg k0_pay6 (scratch_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)

/-- What the array ends holding: at (core, row, class) the core's accumulator after the core's last point. -/
def G4 (c : Dev nD) : Vec Ideal S2x8x1 .f32 := fun i =>
  Accum.S2 m c (16 * (i 0).val + 15) (lastLt (i 0).val (i 0).isLt) (ix2 0 ⟨(i 2).val, (i 2).isLt⟩)

theorem G4_apply (c : Dev nD) (cc : Fin 2) (k : Fin 8) (q : Fin 1) :
    G4 m c (ix3 cc k q) = Accum.S2 m c (16 * cc.val + 15) (lastLt cc.val cc.isLt) (ix2 0 q) := rfl

/-- The point that writes back writes block (t / 16) of that array. -/
theorem flushed4_eq (c : Dev nD) (t : Fin cfg0.N) (hf : (cfg0.win 4).flush t = true) :
    (dats m 0 c).flushed 4 t = ((cfg0.win 4).blk t).view.read (Elt Ideal) (G4 m c) := by
  have h15 : t.val % 16 = 15 := (flush0_4 t).mp hf
  have ht : t.val < 32 := lt_of_lt_of_eq t.isLt N32
  show (cfg0.win 4).cut (grid0.coords t) ((dats m 0 c).after 4 t) = _
  rw [after0_4, O4_last m c t h15]
  funext y
  obtain ⟨a, k, q, rfl⟩ : ∃ (a : Fin 1) (k : Fin 8) (q : Fin 1), y = ix3 a k q := ⟨y 0, y 1, y 2, eq_ix3 y⟩
  obtain rfl : a = 0 := Subsingleton.elim _ _
  have hi := (idx_out t).2.2
  have e : ((cfg0.win 4).blk t).view.emb (ix3 (0 : Fin 1) k q) = ix3 (⟨t.val / 16, by omega⟩ : Fin 2) k q := by
    funext b
    apply Fin.ext
    match b with
    | ⟨0, _⟩ => show win0_4.index t 0 * 1 + 1 * (0 : Fin 1).val = t.val / 16; rw [hi.1]; simp
    | ⟨1, _⟩ => show win0_4.index t 1 * 8 + 1 * k.val = k.val; rw [hi.2.1]; omega
    | ⟨2, _⟩ => show win0_4.index t 2 * 1 + 1 * q.val = q.val; rw [hi.2.2]; omega
  show k0_pay6 (Accum.S2 m c t.val t.isLt) (ix3 0 k q) = G4 m c (((cfg0.win 4).blk t).view.emb (ix3 (0 : Fin 1) k q))
  rw [e, G4_apply]
  obtain rfl : q = 0 := Subsingleton.elim _ _
  rw [pay6_apply]
  exact congrFun (S2_congr m c (by show t.val = 16 * (t.val / 16) + 15; omega) _ _) _

/-- Every entry of the array is in the block some core's last point writes back. -/
theorem cover4 (i : S2x8x1.Idx) : ∃ t : Fin cfg0.N, (cfg0.win 4).flush t = true ∧ i ∈ ((cfg0.win 4).blk t).view.set := by
  have h0 : (i 0).val < 2 := (i 0).isLt
  have h1 : (i 1).val < 8 := (i 1).isLt
  have h2 : (i 2).val < 1 := (i 2).isLt
  let t : Fin cfg0.N := ⟨16 * (i 0).val + 15, lastLt (i 0).val h0⟩
  have hi := (idx_out t).2.2
  have htv : t.val = 16 * (i 0).val + 15 := rfl
  refine ⟨t, (flush0_4 t).mpr (by rw [htv]; omega), ?_⟩
  show i ∈ ((View.whole main_v1_2).slice (win0_4.rect t)).set
  rw [View.set_slice_whole, Rect.mem_set_unit]
  intro b
  match b with
  | ⟨0, _⟩ => show win0_4.index t 0 * 1 ≤ (i 0).val ∧ (i 0).val < win0_4.index t 0 * 1 + 1; rw [hi.1, htv]; omega
  | ⟨1, _⟩ => show win0_4.index t 1 * 8 ≤ (i 1).val ∧ (i 1).val < win0_4.index t 1 * 8 + 8; rw [hi.2.1]; omega
  | ⟨2, _⟩ => show win0_4.index t 2 * 1 ≤ (i 2).val ∧ (i 2).val < win0_4.index t 2 * 1 + 1; rw [hi.2.2]; omega

/-- So the array after the run is that function. -/
theorem final4 (c : Dev nD) : (dats m 0 c).arrAt 4 cfg0.N = G4 m c :=
  (dats m 0 c).arrAt_eq_of_cover 4 (G4 m c) (flushed4_eq m c) cover4

end Cert.KernelIdeal.Arrays

end
-- ==== Proof.KTail.lean ====
/-
  The host operations after the kernel launch: from three output arrays that hold, for each of the two cores, an
  accumulator copied into eight rows, they take the mean over the eight rows (which gives the accumulator back),
  add the two cores, and finish the loss: the cross-entropy sum over 32768, the calibration term from the class
  sums and class counts, and their sum.
-/
import proofs.«407091_j17901423690504_3_alg».proof.Proof.Gen.KernelIdeal.Frame
import proofs.«407091_j17901423690504_3_alg».proof.Proof.LibEReal
import Idealize.ShloMosaic.Lib.Pipeline.Value
import Idealize.ShloMosaic.Lib.StableHlo.Run
import Idealize.ShloMosaic.Lib.ValueIdx
import Idealize.ShloMosaic.Lib.IdealHost
import Idealize.ShloMosaic.PureOps.Ideal.Laws

noncomputable section

open scoped BigOperators

open Idealize.ShloMosaic Idealize.ShloMosaic.TcCoe Idealize.SL.Sem Idealize.ShloMosaic.ValueIdx

namespace Cert.KernelIdeal.Tail

open Cert.KernelIdeal Cert.KernelIdeal.Gen

/-! ## The constants -/

/-- The single-precision pattern 0x41000000 denotes 8: exponent field 130, fraction field zero. -/
theorem ofBits_eight : Ideal.ofBits .f32 0x41000000#32 = ((8 : ℝ) : EReal) := by
  simp [Ideal.ofBits, Ideal.ieee, -EReal.coe_mul]; norm_num

/-- The single-precision pattern 0x47000000 denotes 32768 = 2^15: exponent field 142, fraction field zero. -/
theorem ofBits_32768 : Ideal.ofBits .f32 0x47000000#32 = ((32768 : ℝ) : EReal) := by
  simp [Ideal.ofBits, Ideal.ieee, -EReal.coe_mul]; norm_num

/-- The single-precision pattern 0x447A0000 denotes 1000 = 1.953125 · 2^9. -/
theorem ofBits_1000 : Ideal.ofBits .f32 0x447A0000#32 = ((1000 : ℝ) : EReal) := by
  simp [Ideal.ofBits, Ideal.ieee, -EReal.coe_mul]; norm_num

/-! ## The reduced axes, and the index over a reduced index with the dropped coordinate put back -/

/-- Dropping the row axis of [2, 8, 1000] leaves [2, 1000]. -/
theorem red1 : S2x8x1000.Reduces [1] S2x1000 := by decide
/-- Dropping the core axis of [2, 1000] leaves [1000]. -/
theorem red2 : S2x1000.Reduces [0] S1000 := by decide
/-- Dropping the row axis of [2, 8, 1] leaves [2, 1]. -/
theorem red3 : S2x8x1.Reduces [1] S2x1 := by decide
/-- Dropping the core axis of [2, 1] leaves [1]. -/
theorem red4 : S2x1.Reduces [0] S1 := by decide

/-- Row k put back into (core, class) is (core, k, class). -/
theorem lift1 (cc : Fin 2) (q : Fin 1000) (k : Fin 8) : red1.lift (ix2 cc q) k = ix3 cc k q := by
  funext c
  match c with
  | ⟨0, _⟩ => rfl
  | ⟨1, _⟩ => rfl
  | ⟨2, _⟩ => rfl

/-- Core cc put back into a class index is (cc, class). -/
theorem lift2 (q : Fin 1000) (cc : Fin 2) : red2.lift (ix1 q) cc = ix2 cc q := by
  funext c
  match c with
  | ⟨0, _⟩ => rfl
  | ⟨1, _⟩ => rfl

/-- Row k put back into (core, u) is (core, k, u). -/
theorem lift3 (cc : Fin 2) (u : Fin 1) (k : Fin 8) : red3.lift (ix2 cc u) k = ix3 cc k u := by
  funext c
  match c with
  | ⟨0, _⟩ => rfl
  | ⟨1, _⟩ => rfl
  | ⟨2, _⟩ => rfl

/-- Core cc put back into the index u is (cc, u). -/
theorem lift4 (u : Fin 1) (cc : Fin 2) : red4.lift (ix1 u) cc = ix2 cc u := by
  funext c
  match c with
  | ⟨0, _⟩ => rfl
  | ⟨1, _⟩ => rfl

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Eight copies of a real number, summed and divided by 8, give the number back. -/
theorem eight_mul_div (r : ℝ) : (∑ _k : Fin 8, r) / 8 = r := by
  rw [Finset.sum_const, Finset.card_univ, Fintype.card_fin, nsmul_eq_mul]
  norm_num

/-- The larger of a real number and its negative, taken among the extended reals, is its absolute value. -/
theorem absf_coe (r : ℝ) : FloatOps.hostAbsf (F := Ideal) (φ := .f32) ((r : ℝ) : EReal) = ((|r| : ℝ) : EReal) := by
  show max ((r : ℝ) : EReal) (-((r : ℝ) : EReal)) = _
  rw [← EReal.coe_neg, Cert.LibEReal.max_coe, abs_eq_max_neg]

/-- A one-element vector viewed as a scalar reads its one element: both row-major positions are 0. -/
theorem shapeCast_one_scalar_apply {α : Type} (v : (⟨1, ![1]⟩ : Shape).Idx → α)
    (h : (⟨1, ![1]⟩ : Shape).ShapeCasts ⟨0, ![]⟩) (j : (⟨0, ![]⟩ : Shape).Idx) :
    shapeCast ⟨0, ![]⟩ v h j = v (ix1 0) :=
  shapeCast_apply v h j (ix1 0) (by
    have h1 : (⟨0, ![]⟩ : Shape).numel = 1 := by decide
    have h2 := ((⟨0, ![]⟩ : Shape).rowMajor j).isLt
    rw [Shape.rowMajor_val_one]
    show 0 = _
    omega)

/-! ## The stages as terms -/

/-- The mean over the eight rows of a [2, 8, 1000] array. -/
def mean8 (X : Vec Ideal S2x8x1000 .f32) : FVec Ideal S2x1000 .f32 :=
  Host.divf (Host.reduceAdd X (constant S_ .f32 0x00000000#32) reducesTo_S2x8x1000_S2x1000_d1 h_S_)
    (broadcastInDim S2x1000 ![] bcast_S_S2x1000 (constant S_ .f32 0x41000000#32))

/-- The sum of the two cores' means, per class. -/
def coreSum (X : Vec Ideal S2x8x1000 .f32) : FVec Ideal S1000 .f32 :=
  Host.reduceAdd (mean8 X) (constant S_ .f32 0x00000000#32) reducesTo_S2x1000_S1000_d0 h_S_

/-- That sum over the batch size. -/
def perBatch (X : Vec Ideal S2x8x1000 .f32) : FVec Ideal S1000 .f32 :=
  Host.divf (coreSum X) (broadcastInDim S1000 ![] bcast_S_S1000 (constant S_ .f32 0x47000000#32))

/-- The calibration term: the mean over the classes of the absolute differences. -/
def calib (X Y : Vec Ideal S2x8x1000 .f32) : FVec Ideal S_ .f32 :=
  Host.divf (Host.reduceAdd (Host.absf (subf (perBatch X) (perBatch Y))) (constant S_ .f32 0x00000000#32)
    reducesTo_S1000_S_d0 h_S_) (constant S_ .f32 0x447A0000#32)

/-- The mean over the eight rows of a [2, 8, 1] array. -/
def mean8' (X : Vec Ideal S2x8x1 .f32) : FVec Ideal S2x1 .f32 :=
  Host.divf (Host.reduceAdd X (constant S_ .f32 0x00000000#32) reducesTo_S2x8x1_S2x1_d1 h_S_)
    (broadcastInDim S2x1 ![] bcast_S_S2x1 (constant S_ .f32 0x41000000#32))

/-- The sum of the two cores' means. -/
def coreSum' (X : Vec Ideal S2x8x1 .f32) : FVec Ideal S1 .f32 :=
  Host.reduceAdd (mean8' X) (constant S_ .f32 0x00000000#32) reducesTo_S2x1_S1_d0 h_S_

/-- The cross-entropy term: that sum, as a scalar, over the batch size. -/
def ceMean (X : Vec Ideal S2x8x1 .f32) : FVec Ideal S_ .f32 :=
  Host.divf (fun i => shapeCast S_ (coreSum' X) shapeCasts_S1_S_ i) (constant S_ .f32 0x47000000#32)

/-! ## The stages at an index -/

/-- The mean over eight rows that all hold the real number a is a: 0 + 8 · a, divided by 8. -/
theorem mean8_apply (X : Vec Ideal S2x8x1000 .f32) (a : Fin 2 → Fin 1000 → ℝ)
    (hX : ∀ (cc : Fin 2) (k : Fin 8) (q : Fin 1000), X (ix3 cc k q) = ((a cc q : ℝ) : EReal))
    (cc : Fin 2) (q : Fin 1000) : mean8 X (ix2 cc q) = ((a cc q : ℝ) : EReal) := by
  unfold mean8
  rw [hostDivf_apply, hostReduceAdd_apply, Ideal.hostReduceAdd_single _ red1, broadcastInDim_scalar_apply,
    constant_apply, constant_apply, Ideal.ofBits_zero_f32, zero_add, ofBits_eight]
  have hs : (∑ k : Fin 8, X (red1.lift (ix2 cc q) k)) = ((∑ _k : Fin 8, a cc q : ℝ) : EReal) := by
    rw [← Cert.LibEReal.coe_sum]
    exact Finset.sum_congr rfl fun k _ => (congrArg X (lift1 cc q k)).trans (hX cc k q)
  refine (congrArg (fun z => Ideal.div z ((8 : ℝ) : EReal)) hs).trans ?_
  rw [Cert.LibEReal.div_coe_coe _ (by norm_num : (8 : ℝ) ≠ 0), eight_mul_div]

/-- The two cores' means summed: a 0 + a 1. -/
theorem coreSum_apply (X : Vec Ideal S2x8x1000 .f32) (a : Fin 2 → Fin 1000 → ℝ)
    (hX : ∀ (cc : Fin 2) (k : Fin 8) (q : Fin 1000), X (ix3 cc k q) = ((a cc q : ℝ) : EReal))
    (q : Fin 1000) : coreSum X (ix1 q) = ((a 0 q + a 1 q : ℝ) : EReal) := by
  unfold coreSum
  rw [hostReduceAdd_apply, Ideal.hostReduceAdd_single _ red2, constant_apply, Ideal.ofBits_zero_f32, zero_add]
  have hs : (∑ cc : Fin 2, mean8 X (red2.lift (ix1 q) cc)) = ((a 0 q + a 1 q : ℝ) : EReal) := by
    rw [Fin.sum_univ_two, lift2, lift2, mean8_apply X a hX, mean8_apply X a hX, ← EReal.coe_add]
  exact hs

/-- That sum over 32768, a divisor that is not zero. -/
theorem perBatch_apply (X : Vec Ideal S2x8x1000 .f32) (a : Fin 2 → Fin 1000 → ℝ)
    (hX : ∀ (cc : Fin 2) (k : Fin 8) (q : Fin 1000), X (ix3 cc k q) = ((a cc q : ℝ) : EReal))
    (q : Fin 1000) : perBatch X (ix1 q) = (((a 0 q + a 1 q) / 32768 : ℝ) : EReal) := by
  unfold perBatch
  rw [hostDivf_apply, coreSum_apply X a hX, broadcastInDim_scalar_apply, constant_apply, ofBits_32768,
    Cert.LibEReal.div_coe_coe _ (by norm_num : (32768 : ℝ) ≠ 0)]

/-- The calibration term is the real mean over the classes of |a-term − b-term|: every difference is real, so is its
    absolute value, so is their sum from 0, so is its quotient by 1000. -/
theorem calib_apply (X Y : Vec Ideal S2x8x1000 .f32) (a b : Fin 2 → Fin 1000 → ℝ)
    (hX : ∀ (cc : Fin 2) (k : Fin 8) (q : Fin 1000), X (ix3 cc k q) = ((a cc q : ℝ) : EReal))
    (hY : ∀ (cc : Fin 2) (k : Fin 8) (q : Fin 1000), Y (ix3 cc k q) = ((b cc q : ℝ) : EReal)) :
    calib X Y = fun _ => (((∑ q, |(a 0 q + a 1 q) / 32768 - (b 0 q + b 1 q) / 32768|) / 1000 : ℝ) : EReal) := by
  funext j
  unfold calib
  rw [hostDivf_apply, hostReduceAdd_apply, Ideal.hostReduceAdd_total _ (fun b => b.elim0), constant_apply,
    constant_apply, Ideal.ofBits_zero_f32, zero_add, ofBits_1000, sum_idx1]
  have hs : (∑ q : Fin 1000, Host.absf (subf (perBatch X) (perBatch Y)) (ix1 q))
      = ((∑ q, |(a 0 q + a 1 q) / 32768 - (b 0 q + b 1 q) / 32768| : ℝ) : EReal) := by
    rw [← Cert.LibEReal.coe_sum]
    refine Finset.sum_congr rfl fun q _ => ?_
    show FloatOps.hostAbsf (perBatch X (ix1 q) - perBatch Y (ix1 q)) = _
    rw [perBatch_apply X a hX, perBatch_apply Y b hY, ← EReal.coe_sub, absf_coe]
  rw [hs, Cert.LibEReal.div_coe_coe _ (by norm_num : (1000 : ℝ) ≠ 0)]

/-- The mean over eight rows that all hold the real number a is a, for the one-column array. -/
theorem mean8'_apply (X : Vec Ideal S2x8x1 .f32) (a : Fin 2 → ℝ)
    (hX : ∀ (cc : Fin 2) (k : Fin 8), X (ix3 cc k 0) = ((a cc : ℝ) : EReal))
    (cc : Fin 2) (u : Fin 1) : mean8' X (ix2 cc u) = ((a cc : ℝ) : EReal) := by
  obtain rfl : u = 0 := Subsingleton.elim _ _
  unfold mean8'
  rw [hostDivf_apply, hostReduceAdd_apply, Ideal.hostReduceAdd_single _ red3, broadcastInDim_scalar_apply,
    constant_apply, constant_apply, Ideal.ofBits_zero_f32, zero_add, ofBits_eight]
  have hs : (∑ k : Fin 8, X (red3.lift (ix2 cc 0) k)) = ((∑ _k : Fin 8, a cc : ℝ) : EReal) := by
    rw [← Cert.LibEReal.coe_sum]
    exact Finset.sum_congr rfl fun k _ => (congrArg X (lift3 cc 0 k)).trans (hX cc k)
  refine (congrArg (fun z => Ideal.div z ((8 : ℝ) : EReal)) hs).trans ?_
  rw [Cert.LibEReal.div_coe_coe _ (by norm_num : (8 : ℝ) ≠ 0), eight_mul_div]

/-- The two cores' means summed: a 0 + a 1. -/
theorem coreSum'_apply (X : Vec Ideal S2x8x1 .f32) (a : Fin 2 → ℝ)
    (hX : ∀ (cc : Fin 2) (k : Fin 8), X (ix3 cc k 0) = ((a cc : ℝ) : EReal))
    (u : Fin 1) : coreSum' X (ix1 u) = ((a 0 + a 1 : ℝ) : EReal) := by
  unfold coreSum'
  rw [hostReduceAdd_apply, Ideal.hostReduceAdd_single _ red4, constant_apply, Ideal.ofBits_zero_f32, zero_add]
  have hs : (∑ cc : Fin 2, mean8' X (red4.lift (ix1 u) cc)) = ((a 0 + a 1 : ℝ) : EReal) := by
    rw [Fin.sum_univ_two, lift4, lift4, mean8'_apply X a hX, mean8'_apply X a hX, ← EReal.coe_add]
  exact hs

/-- The cross-entropy term is the real number (a 0 + a 1) / 32768. -/
theorem ceMean_apply (X : Vec Ideal S2x8x1 .f32) (a : Fin 2 → ℝ)
    (hX : ∀ (cc : Fin 2) (k : Fin 8), X (ix3 cc k 0) = ((a cc : ℝ) : EReal)) :
    ceMean X = fun _ => (((a 0 + a 1) / 32768 : ℝ) : EReal) := by
  funext j
  unfold ceMean
  rw [hostDivf_apply, shapeCast_one_scalar_apply, coreSum'_apply X a hX, constant_apply, ofBits_32768,
    Cert.LibEReal.div_coe_coe _ (by norm_num : (32768 : ℝ) ≠ 0)]

/-- From any contents of the buffers in which the three output arrays hold per-core real numbers in each of their
    eight rows, the operations after the launch leave the three results at: the two cores' loss sums over 32768; the
    mean over the classes of |class sum / 32768 − class count / 32768|; and the sum of the two. -/
theorem results (W : Valuation τ sig (Elt Ideal)) (a2 a3 : Fin 2 → Fin 1000 → ℝ) (a4 : Fin 2 → ℝ)
    (h2 : ∀ (cc : Fin 2) (k : Fin 8) (q : Fin 1000),
      (W (Proc.devRef .tc main_v1_0) : Vec Ideal S2x8x1000 .f32) (ix3 cc k q) = ((a2 cc q : ℝ) : EReal))
    (h3 : ∀ (cc : Fin 2) (k : Fin 8) (q : Fin 1000),
      (W (Proc.devRef .tc main_v1_1) : Vec Ideal S2x8x1000 .f32) (ix3 cc k q) = ((a3 cc q : ℝ) : EReal))
    (h4 : ∀ (cc : Fin 2) (k : Fin 8),
      (W (Proc.devRef .tc main_v1_2) : Vec Ideal S2x8x1 .f32) (ix3 cc k 0) = ((a4 cc : ℝ) : EReal)) :
    (StableHlo.after (hostOps1 (F := Ideal)) W (Proc.devRef .tc main_v24) : Vec Ideal S_ .f32)
        = (fun _ => (((a4 0 + a4 1) / 32768
            + (∑ q, |(a2 0 q + a2 1 q) / 32768 - (a3 0 q + a3 1 q) / 32768|) / 1000 : ℝ) : EReal))
    ∧ (StableHlo.after (hostOps1 (F := Ideal)) W (Proc.devRef .tc main_v23) : Vec Ideal S_ .f32)
        = (fun _ => (((a4 0 + a4 1) / 32768 : ℝ) : EReal))
    ∧ (StableHlo.after (hostOps1 (F := Ideal)) W (Proc.devRef .tc main_v22) : Vec Ideal S_ .f32)
        = (fun _ => (((∑ q, |(a2 0 q + a2 1 q) / 32768 - (a3 0 q + a3 1 q) / 32768|) / 1000 : ℝ) : EReal)) := by
  -- each result buffer holds the composition of the operations that feed it, applied to the three output arrays
  have e22 : (StableHlo.after (hostOps1 (F := Ideal)) W (Proc.devRef .tc main_v22) : Vec Ideal S_ .f32)
      = calib (W (Proc.devRef .tc main_v1_0)) (W (Proc.devRef .tc main_v1_1)) := by
    after_results_simp
    rfl
  have e23 : (StableHlo.after (hostOps1 (F := Ideal)) W (Proc.devRef .tc main_v23) : Vec Ideal S_ .f32)
      = ceMean (W (Proc.devRef .tc main_v1_2)) := by
    after_results_simp
    rfl
  have e24 : (StableHlo.after (hostOps1 (F := Ideal)) W (Proc.devRef .tc main_v24) : Vec Ideal S_ .f32)
      = addf (ceMean (W (Proc.devRef .tc main_v1_2)))
          (calib (W (Proc.devRef .tc main_v1_0)) (W (Proc.devRef .tc main_v1_1))) := by
    after_results_simp
    rfl
  have c22 := calib_apply _ _ a2 a3 h2 h3
  have c23 := ceMean_apply _ a4 h4
  refine ⟨?_, e23.trans c23, e22.trans c22⟩
  -- the sum of two coerced reals is the coerced sum
  rw [e24, c22, c23]
  funext j
  rw [addf_apply, ← EReal.coe_add]

end Cert.KernelIdeal.Tail

end
-- ==== Proof.KRun.lean ====
/-
  The kernel program read down to the three numbers it returns. The frame run leaves every result at the operations
  after the launch applied to the three output arrays; those arrays hold, per core, the final accumulators; the
  final accumulators are the sums of the per-row functions over the core's rows; two cores make the batch. So the
  results are the loss, the mean label-smoothed cross entropy and the calibration term of Spec.lean.
-/
import proofs.«407091_j17901423690504_3_alg».proof.Proof.KArrays
import proofs.«407091_j17901423690504_3_alg».proof.Proof.KTail

noncomputable section

open scoped BigOperators

open Idealize.ShloMosaic Idealize.ShloMosaic.TcCoe Idealize.SL.Sem Idealize.ShloMosaic.ValueIdx

namespace Cert.KernelIdeal.KValue

open Cert.KernelIdeal Cert.KernelIdeal.Gen Cert.KernelIdeal.BlockRead Cert.KernelIdeal.Accum Cert.KernelIdeal.Arrays
open Cert.Mdca Cert.BlockSums

variable (m : (ℓ : Loc nD τ sig) → Buf (Elt Ideal) ℓ)

/-- Core cc's sum of a per-row function: over its sixteen blocks. -/
def coreSum (g : ℕ → ℝ) (cc : Fin 2) : ℝ :=
  ∑ k ∈ Finset.Ico (16384 * ((16 * cc.val + 15) / 16)) (1024 * (16 * cc.val + 15 + 1)), g k

/-- The two cores' sums add up to the sum over all rows. -/
theorem coreSum_add {N : ℕ} (hN : N = 32768) (f : Fin N → ℝ) : coreSum (ext f) 0 + coreSum (ext f) 1 = ∑ r, f r := by
  subst hN
  rw [sum_univ_eq]
  exact two_cores (ext f)

/-- The contents the operations after the launch start from: the output arrays as the run leaves them. -/
abbrev W (c : Dev nD) : Valuation τ sig (Elt Ideal) :=
  Pipeline.withArrays (cfgs 0).spec c (V0 m c) fun w => (dats m 0 c).arrAt w (cfgs 0).N

theorem W_out2 (c : Dev nD) (hx : AllReal (n := 32768) (X m c)) (cc : Fin 2) (k : Fin 8) (q : Fin 1000) :
    (W m c (Proc.devRef .tc main_v1_0) : Vec Ideal S2x8x1000 .f32) (ix3 cc k q) = ((coreSum (ext (fP m c q)) cc : ℝ) : EReal) := by
  have e : W m c (Proc.devRef .tc main_v1_0) = (dats m 0 c).arrAt 2 cfg0.N :=
    Pipeline.withArrays_arr spec0 launch0.win.arr_inj c _ _ 2
  rw [e, final2, G2_apply]
  exact S0_val m c hx q (16 * cc.val + 15) (by have := cc.isLt; omega)

theorem W_out3 (c : Dev nD) (hl : InRange (n := 32768) (T m c)) (cc : Fin 2) (k : Fin 8) (q : Fin 1000) :
    (W m c (Proc.devRef .tc main_v1_1) : Vec Ideal S2x8x1000 .f32) (ix3 cc k q) = ((coreSum (ext (fC m c q)) cc : ℝ) : EReal) := by
  have e : W m c (Proc.devRef .tc main_v1_1) = (dats m 0 c).arrAt 3 cfg0.N :=
    Pipeline.withArrays_arr spec0 launch0.win.arr_inj c _ _ 3
  rw [e, final3, G3_apply]
  exact S1_val m c hl q (16 * cc.val + 15) (by have := cc.isLt; omega)

theorem W_out4 (c : Dev nD) (hx : AllReal (n := 32768) (X m c)) (hl : InRange (n := 32768) (T m c)) (cc : Fin 2) (k : Fin 8) :
    (W m c (Proc.devRef .tc main_v1_2) : Vec Ideal S2x8x1 .f32) (ix3 cc k 0) = ((coreSum (ext (fL m c)) cc : ℝ) : EReal) := by
  have e : W m c (Proc.devRef .tc main_v1_2) = (dats m 0 c).arrAt 4 cfg0.N :=
    Pipeline.withArrays_arr spec0 launch0.win.arr_inj c _ _ 4
  rw [e, final4, G4_apply]
  exact S2_val m c hx hl (16 * cc.val + 15) (by have := cc.isLt; omega)

/-- The two cores' sums are the batch's: the class sums of the probabilities, the class counts, the loss sum. -/
theorem sums_prob (c : Dev nD) (q : Fin 1000) :
    coreSum (ext (fP m c q)) 0 + coreSum (ext (fP m c q)) 1 = sumProb (realOf (X m c)) q :=
  coreSum_add rfl (fP m c q)

theorem sums_count (c : Dev nD) (q : Fin 1000) :
    coreSum (ext (fC m c q)) 0 + coreSum (ext (fC m c q)) 1 = count (labelOf (T m c)) q := by
  rw [coreSum_add rfl (fC m c q), count_eq_sum]
  rfl

theorem sums_loss (c : Dev nD) :
    coreSum (ext (fL m c)) 0 + coreSum (ext (fL m c)) 1 = ceSum (realOf (X m c)) (labelOf (T m c)) :=
  coreSum_add rfl (fL m c)

/-- The three results after the tail, as the specification's numbers. -/
theorem tail_results (c : Dev nD) (hx : AllReal (n := 32768) (X m c)) (hl : InRange (n := 32768) (T m c)) :
    (Pipeline.afterTail₀ cfgs (dats m) 0 (V0 m) [hostOps1] c main_v24 : Vec Ideal S_ .f32)
        = (fun _ => ((loss (realOf (X m c)) (labelOf (T m c)) : ℝ) : EReal))
    ∧ (Pipeline.afterTail₀ cfgs (dats m) 0 (V0 m) [hostOps1] c main_v23 : Vec Ideal S_ .f32)
        = (fun _ => ((lossCe (realOf (X m c)) (labelOf (T m c)) : ℝ) : EReal))
    ∧ (Pipeline.afterTail₀ cfgs (dats m) 0 (V0 m) [hostOps1] c main_v22 : Vec Ideal S_ .f32)
        = (fun _ => ((lossMdca (realOf (X m c)) (labelOf (T m c)) : ℝ) : EReal)) := by
  have h := Tail.results (W m c) (fun cc q => coreSum (ext (fP m c q)) cc) (fun cc q => coreSum (ext (fC m c q)) cc)
    (fun cc => coreSum (ext (fL m c)) cc) (W_out2 m c hx) (W_out3 m c hl) (W_out4 m c hx hl)
  simp only [sums_prob, sums_count, sums_loss] at h
  unfold Pipeline.afterTail₀
  simp only [List.flatten_cons, List.flatten_nil, List.append_nil]
  exact h

/-- The kernel program's run with its three results named, as the reference's are; the arguments end unchanged. -/
theorem run (ρ : Dev nD → PrngReg)
    (hx : ∀ c : Dev nD, AllReal (n := 32768) (m ((c.tc : Thread nD τ).loc main_arg0)))
    (hl : ∀ c : Dev nD, InRange (n := 32768) (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v24)
          = (fun _ => ((loss (realOf (m ((c.tc : Thread nD τ).loc main_arg0))) (labelOf (m ((c.tc : Thread nD τ).loc main_arg1))) : ℝ) : EReal))
      ∧ r.2.mem ((c.tc : Thread nD τ).loc main_v23)
          = (fun _ => ((lossCe (realOf (m ((c.tc : Thread nD τ).loc main_arg0))) (labelOf (m ((c.tc : Thread nD τ).loc main_arg1))) : ℝ) : EReal))
      ∧ r.2.mem ((c.tc : Thread nD τ).loc main_v22)
          = (fun _ => ((lossMdca (realOf (m ((c.tc : Thread nD τ).loc main_arg0))) (labelOf (m ((c.tc : Thread nD τ).loc main_arg1))) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v24 (Pipeline.mem_restRefs_of main_v24 (by decide) (by decide))).trans (tail_results m c (hx c) (hl c)).1,
     ((h c).2 main_v23 (Pipeline.mem_restRefs_of main_v23 (by decide) (by decide))).trans (tail_results m c (hx c) (hl c)).2.1,
     ((h c).2 main_v22 (Pipeline.mem_restRefs_of main_v22 (by decide) (by decide))).trans (tail_results m c (hx c) (hl c)).2.2,
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KValue

end
-- ==== Proof.LibTypedRef.lean ====
/-
  Typed references: contents carried to a typed reference's buffer and read back at the value's type are the
  contents. The two transports are casts along one equation of buffer types and its inverse, so they cancel for any
  typed reference, whatever the equation's proof. Simplifying with this lemma removes every such pair from the
  composed term of a called function's operations without opening a single cast.
-/
import Idealize.ShloMosaic.Lib.StableHlo

namespace Idealize.ShloMosaic.StableHlo.TRef

/-- Contents carried to a typed reference's buffer and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents read off a typed reference's buffer and carried back are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Idealize.ShloMosaic.StableHlo.TRef
-- ==== Proof.RefRun.lean ====
/-
  The reference program's run, read stage by stage. Its 99 host operations are cut into six stretches where little
  is live: the softmax of the logits; the normalised label counts; the calibration term; the log-softmax of the
  probabilities; the entry of each row at its label; the two loss results. Run from ANY buffer contents, a stretch
  leaves its result at the corresponding stage of the program applied to what the contents held in the stretch's
  inputs, and leaves alone the buffers it does not write. Chained from the launch contents, the three results are
  the stages' last terms of the two arguments, and the arguments end unchanged.
-/
import proofs.«407091_j17901423690504_3_alg».proof.Proof.RefRunP
import proofs.«407091_j17901423690504_3_alg».proof.Proof.RefReadP
import proofs.«407091_j17901423690504_3_alg».proof.Proof.LibTypedRef
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem
open Idealize.ShloMosaic.StableHlo

variable {F : FTy → Type} [FloatOps F]

/-! ## The six stretches -/

abbrev rA : List (HloOp τ sig (Elt F)) := (ValueP.ops (F := F)).drop 14
abbrev rB : List (HloOp τ sig (Elt F)) := (rA (F := F)).drop 16
abbrev rC : List (HloOp τ sig (Elt F)) := (rB (F := F)).drop 11
abbrev rD : List (HloOp τ sig (Elt F)) := (rC (F := F)).drop 15
abbrev rE : List (HloOp τ sig (Elt F)) := (rD (F := F)).drop 23
/-- The softmax of the logits. -/
abbrev sA : List (HloOp τ sig (Elt F)) := (ValueP.ops (F := F)).take 14
/-- The label counts over the batch size. -/
abbrev sB : List (HloOp τ sig (Elt F)) := (rA (F := F)).take 16
/-- The calibration term. -/
abbrev sC : List (HloOp τ sig (Elt F)) := (rB (F := F)).take 11
/-- The log-softmax of the probabilities. -/
abbrev sD : List (HloOp τ sig (Elt F)) := (rC (F := F)).take 15
/-- Each row's log-probability at its label. -/
abbrev sE : List (HloOp τ sig (Elt F)) := (rD (F := F)).take 23
/-- The two loss results. -/
abbrev sF : List (HloOp τ sig (Elt F)) := rE (F := F)

theorem ops_split : (ValueP.ops (F := F)) = sA ++ (sB ++ (sC ++ (sD ++ (sE ++ sF)))) := by
  show _ = List.take 14 ValueP.ops ++ (List.take 16 rA ++ (List.take 11 rB ++ (List.take 15 rC ++ (List.take 23 rD ++ List.drop 23 rD))))
  rw [List.take_append_drop 23, show (rD (F := F)) = List.drop 15 rC from rfl, List.take_append_drop 15,
    show (rC (F := F)) = List.drop 11 rB from rfl, List.take_append_drop 11, show (rB (F := F)) = List.drop 16 rA from rfl,
    List.take_append_drop 16, show (rA (F := F)) = List.drop 14 ValueP.ops from rfl, List.take_append_drop 14]

/-! ## What each stretch leaves -/

theorem stretchA (W : Valuation τ sig (Elt F)) :
    after (sA (F := F)) W (Proc.devRef .tc main_v10) = ReadP.val_main_v10 (F := F) (W (Proc.devRef .tc main_arg0)) := by
  simp only [sA, sB, sC, sD, sE, sF, rA, rB, rC, rD, rE, ValueP.ops, List.drop_succ_cons, List.drop_zero, List.take_succ_cons, List.take_zero]
  after_results_simp
  rfl

theorem stretchB (W : Valuation τ sig (Elt F)) :
    after (sB (F := F)) W (Proc.devRef .tc main_v21) = ReadP.val_main_v21 (F := F) (W (Proc.devRef .tc main_arg1)) := by
  simp only [sA, sB, sC, sD, sE, sF, rA, rB, rC, rD, rE, ValueP.ops, List.drop_succ_cons, List.drop_zero, List.take_succ_cons, List.take_zero]
  after_results_simp
  rfl

theorem stretchC (W : Valuation τ sig (Elt F)) (x0 : (⟨S32768x1000, .f32⟩ : BufTy).Contents (Elt F)) (x1 : (⟨S32768, .i32⟩ : BufTy).Contents (Elt F))
    (h10 : W (Proc.devRef .tc main_v10) = ReadP.val_main_v10 (F := F) x0)
    (h21 : W (Proc.devRef .tc main_v21) = ReadP.val_main_v21 (F := F) x1) :
    after (sC (F := F)) W (Proc.devRef .tc main_v28) = ReadP.val_main_v28 (F := F) x0 x1 := by
  simp only [sA, sB, sC, sD, sE, sF, rA, rB, rC, rD, rE, ValueP.ops, List.drop_succ_cons, List.drop_zero, List.take_succ_cons, List.take_zero]
  after_results_simp
  rw [h10, h21]
  rfl

theorem stretchD (W : Valuation τ sig (Elt F)) (x0 : (⟨S32768x1000, .f32⟩ : BufTy).Contents (Elt F))
    (h10 : W (Proc.devRef .tc main_v10) = ReadP.val_main_v10 (F := F) x0) :
    after (sD (F := F)) W (Proc.devRef .tc main_v29) = ReadP.val_main_v29 (F := F) x0 := by
  simp only [sA, sB, sC, sD, sE, sF, rA, rB, rC, rD, rE, ValueP.ops, List.drop_succ_cons, List.drop_zero, List.take_succ_cons, List.take_zero]
  after_results_simp
  rw [h10]
  simp only [TRef.ofBuf_toBuf]
  rfl

set_option maxRecDepth 100000 in
theorem stretchE (W : Valuation τ sig (Elt F)) (x0 : (⟨S32768x1000, .f32⟩ : BufTy).Contents (Elt F)) (x1 : (⟨S32768, .i32⟩ : BufTy).Contents (Elt F))
    (h29 : W (Proc.devRef .tc main_v29) = ReadP.val_main_v29 (F := F) x0)
    (h1 : W (Proc.devRef .tc main_arg1) = x1) :
    after (sE (F := F)) W (Proc.devRef .tc main_v31) = ReadP.val_main_v31 (F := F) x0 x1 := by
  simp only [sA, sB, sC, sD, sE, sF, rA, rB, rC, rD, rE, ValueP.ops, List.drop_succ_cons, List.drop_zero, List.take_succ_cons, List.take_zero]
  after_results_simp
  rw [h29, h1]
  simp only [TRef.ofBuf_toBuf]
  rfl

theorem stretchF44 (W : Valuation τ sig (Elt F)) (x0 : (⟨S32768x1000, .f32⟩ : BufTy).Contents (Elt F)) (x1 : (⟨S32768, .i32⟩ : BufTy).Contents (Elt F))
    (h31 : W (Proc.devRef .tc main_v31) = ReadP.val_main_v31 (F := F) x0 x1)
    (h29 : W (Proc.devRef .tc main_v29) = ReadP.val_main_v29 (F := F) x0) :
    after (sF (F := F)) W (Proc.devRef .tc main_v44) = ReadP.val_main_v44 (F := F) x0 x1 := by
  simp only [sA, sB, sC, sD, sE, sF, rA, rB, rC, rD, rE, ValueP.ops, List.drop_succ_cons, List.drop_zero, List.take_succ_cons, List.take_zero]
  after_results_simp
  rw [h31, h29]
  rfl

theorem stretchF45 (W : Valuation τ sig (Elt F)) (x0 : (⟨S32768x1000, .f32⟩ : BufTy).Contents (Elt F)) (x1 : (⟨S32768, .i32⟩ : BufTy).Contents (Elt F))
    (h31 : W (Proc.devRef .tc main_v31) = ReadP.val_main_v31 (F := F) x0 x1)
    (h29 : W (Proc.devRef .tc main_v29) = ReadP.val_main_v29 (F := F) x0)
    (h28 : W (Proc.devRef .tc main_v28) = ReadP.val_main_v28 (F := F) x0 x1) :
    after (sF (F := F)) W (Proc.devRef .tc main_v45) = ReadP.val_main_v45 (F := F) x0 x1 := by
  simp only [sA, sB, sC, sD, sE, sF, rA, rB, rC, rD, rE, ValueP.ops, List.drop_succ_cons, List.drop_zero, List.take_succ_cons, List.take_zero]
  after_results_simp
  rw [h31, h29, h28]
  rfl

/-! ## What each stretch leaves alone -/

theorem keepA_arg1 (W : Valuation τ sig (Elt F)) :
    after (sA (F := F)) W (Proc.devRef .tc main_arg1) = W (Proc.devRef .tc main_arg1) := by
  simp only [sA, sB, sC, sD, sE, sF, rA, rB, rC, rD, rE, ValueP.ops, List.drop_succ_cons, List.drop_zero, List.take_succ_cons, List.take_zero]
  after_results_simp

theorem keepB_v10 (W : Valuation τ sig (Elt F)) :
    after (sB (F := F)) W (Proc.devRef .tc main_v10) = W (Proc.devRef .tc main_v10) := by
  simp only [sA, sB, sC, sD, sE, sF, rA, rB, rC, rD, rE, ValueP.ops, List.drop_succ_cons, List.drop_zero, List.take_succ_cons, List.take_zero]
  after_results_simp

theorem keepB_arg1 (W : Valuation τ sig (Elt F)) :
    after (sB (F := F)) W (Proc.devRef .tc main_arg1) = W (Proc.devRef .tc main_arg1) := by
  simp only [sA, sB, sC, sD, sE, sF, rA, rB, rC, rD, rE, ValueP.ops, List.drop_succ_cons, List.drop_zero, List.take_succ_cons, List.take_zero]
  after_results_simp

theorem keepC_v10 (W : Valuation τ sig (Elt F)) :
    after (sC (F := F)) W (Proc.devRef .tc main_v10) = W (Proc.devRef .tc main_v10) := by
  simp only [sA, sB, sC, sD, sE, sF, rA, rB, rC, rD, rE, ValueP.ops, List.drop_succ_cons, List.drop_zero, List.take_succ_cons, List.take_zero]
  after_results_simp

theorem keepC_arg1 (W : Valuation τ sig (Elt F)) :
    after (sC (F := F)) W (Proc.devRef .tc main_arg1) = W (Proc.devRef .tc main_arg1) := by
  simp only [sA, sB, sC, sD, sE, sF, rA, rB, rC, rD, rE, ValueP.ops, List.drop_succ_cons, List.drop_zero, List.take_succ_cons, List.take_zero]
  after_results_simp

theorem keepD_v28 (W : Valuation τ sig (Elt F)) :
    after (sD (F := F)) W (Proc.devRef .tc main_v28) = W (Proc.devRef .tc main_v28) := by
  simp only [sA, sB, sC, sD, sE, sF, rA, rB, rC, rD, rE, ValueP.ops, List.drop_succ_cons, List.drop_zero, List.take_succ_cons, List.take_zero]
  after_results_simp

theorem keepD_arg1 (W : Valuation τ sig (Elt F)) :
    after (sD (F := F)) W (Proc.devRef .tc main_arg1) = W (Proc.devRef .tc main_arg1) := by
  simp only [sA, sB, sC, sD, sE, sF, rA, rB, rC, rD, rE, ValueP.ops, List.drop_succ_cons, List.drop_zero, List.take_succ_cons, List.take_zero]
  after_results_simp

theorem keepE_v28 (W : Valuation τ sig (Elt F)) :
    after (sE (F := F)) W (Proc.devRef .tc main_v28) = W (Proc.devRef .tc main_v28) := by
  simp only [sA, sB, sC, sD, sE, sF, rA, rB, rC, rD, rE, ValueP.ops, List.drop_succ_cons, List.drop_zero, List.take_succ_cons, List.take_zero]
  after_results_simp

theorem keepE_v29 (W : Valuation τ sig (Elt F)) :
    after (sE (F := F)) W (Proc.devRef .tc main_v29) = W (Proc.devRef .tc main_v29) := by
  simp only [sA, sB, sC, sD, sE, sF, rA, rB, rC, rD, rE, ValueP.ops, List.drop_succ_cons, List.drop_zero, List.take_succ_cons, List.take_zero]
  after_results_simp

theorem keepF_v28 (W : Valuation τ sig (Elt F)) :
    after (sF (F := F)) W (Proc.devRef .tc main_v28) = W (Proc.devRef .tc main_v28) := by
  simp only [sA, sB, sC, sD, sE, sF, rA, rB, rC, rD, rE, ValueP.ops, List.drop_succ_cons, List.drop_zero, List.take_succ_cons, List.take_zero]
  after_results_simp

/-! ## The whole line -/

/-- The three results after all 99 operations, from any contents, as the stages' last terms of the two arguments'
    contents. -/
theorem after_ops (V : Valuation τ sig (Elt F)) :
    after (ValueP.ops (F := F)) V (Proc.devRef .tc main_v45)
        = ReadP.val_main_v45 (F := F) (V (Proc.devRef .tc main_arg0)) (V (Proc.devRef .tc main_arg1))
    ∧ after (ValueP.ops (F := F)) V (Proc.devRef .tc main_v44)
        = ReadP.val_main_v44 (F := F) (V (Proc.devRef .tc main_arg0)) (V (Proc.devRef .tc main_arg1))
    ∧ after (ValueP.ops (F := F)) V (Proc.devRef .tc main_v28)
        = ReadP.val_main_v28 (F := F) (V (Proc.devRef .tc main_arg0)) (V (Proc.devRef .tc main_arg1)) := by
  rw [ops_split, StableHlo.after_append, StableHlo.after_append, StableHlo.after_append, StableHlo.after_append, StableHlo.after_append]
  generalize hx0 : V (Proc.devRef .tc main_arg0) = x0
  generalize hx1 : V (Proc.devRef .tc main_arg1) = x1
  -- the contents after each stretch
  generalize h1 : after (sA (F := F)) V = W1
  have a10 : W1 (Proc.devRef .tc main_v10) = ReadP.val_main_v10 (F := F) x0 := by rw [← h1, stretchA, hx0]
  have a1 : W1 (Proc.devRef .tc main_arg1) = x1 := by rw [← h1, keepA_arg1, hx1]
  generalize h2 : after (sB (F := F)) W1 = W2
  have b21 : W2 (Proc.devRef .tc main_v21) = ReadP.val_main_v21 (F := F) x1 := by rw [← h2, stretchB, a1]
  have b10 : W2 (Proc.devRef .tc main_v10) = ReadP.val_main_v10 (F := F) x0 := by rw [← h2, keepB_v10, a10]
  have b1 : W2 (Proc.devRef .tc main_arg1) = x1 := by rw [← h2, keepB_arg1, a1]
  generalize h3 : after (sC (F := F)) W2 = W3
  have c28 : W3 (Proc.devRef .tc main_v28) = ReadP.val_main_v28 (F := F) x0 x1 := by rw [← h3]; exact stretchC W2 x0 x1 b10 b21
  have c10 : W3 (Proc.devRef .tc main_v10) = ReadP.val_main_v10 (F := F) x0 := by rw [← h3, keepC_v10, b10]
  have c1 : W3 (Proc.devRef .tc main_arg1) = x1 := by rw [← h3, keepC_arg1, b1]
  generalize h4 : after (sD (F := F)) W3 = W4
  have d29 : W4 (Proc.devRef .tc main_v29) = ReadP.val_main_v29 (F := F) x0 := by rw [← h4]; exact stretchD W3 x0 c10
  have d28 : W4 (Proc.devRef .tc main_v28) = ReadP.val_main_v28 (F := F) x0 x1 := by rw [← h4, keepD_v28, c28]
  have d1 : W4 (Proc.devRef .tc main_arg1) = x1 := by rw [← h4, keepD_arg1, c1]
  generalize h5 : after (sE (F := F)) W4 = W5
  have e31 : W5 (Proc.devRef .tc main_v31) = ReadP.val_main_v31 (F := F) x0 x1 := by rw [← h5]; exact stretchE W4 x0 x1 d29 d1
  have e29 : W5 (Proc.devRef .tc main_v29) = ReadP.val_main_v29 (F := F) x0 := by rw [← h5, keepE_v29, d29]
  have e28 : W5 (Proc.devRef .tc main_v28) = ReadP.val_main_v28 (F := F) x0 x1 := by rw [← h5, keepE_v28, d28]
  exact ⟨stretchF45 W5 x0 x1 e31 e29 e28, stretchF44 W5 x0 x1 e31 e29, (keepF_v28 W5).trans e28⟩

/-- The arguments are written by no operation. -/
theorem after_ops_args (V : Valuation τ sig (Elt F)) :
    after (ValueP.ops (F := F)) V (Proc.devRef .tc main_arg0) = V (Proc.devRef .tc main_arg0)
    ∧ after (ValueP.ops (F := F)) V (Proc.devRef .tc main_arg1) = V (Proc.devRef .tc main_arg1) := by
  constructor
  · simp only [ValueP.ops]; after_results_simp
  · simp only [ValueP.ops]; after_results_simp

/-- On every device, for any float values, from any memory with zero counters: every weakly fair execution of the
    reference terminates with its three results at the stages' last terms of the arguments, the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = ReadP.val_main_v45 (F := F) (m ((c.tc : Thread nD τ).loc main_arg0)) (m ((c.tc : Thread nD τ).loc main_arg1))
      ∧ r.2.mem ((c.tc : Thread nD τ).loc main_v44) = ReadP.val_main_v44 (F := F) (m ((c.tc : Thread nD τ).loc main_arg0)) (m ((c.tc : Thread nD τ).loc main_arg1))
      ∧ r.2.mem ((c.tc : Thread nD τ).loc main_v28) = ReadP.val_main_v28 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v45).trans (after_ops (launchContents m c)).1,
     (h c main_v44).trans (after_ops (launchContents m c)).2.1,
     (h c main_v28).trans (after_ops (launchContents m c)).2.2,
     (h c main_arg0).trans (after_ops_args (launchContents m c)).1,
     (h c main_arg1).trans (after_ops_args (launchContents m c)).2⟩)
    (run_seq ValueP.scopedRefs_eq ValueP.scopedSems_eq defs main (fun _ => ValueP.ops) ValueP.main_eq (fun _ => ValueP.ops_sub) m ρ)

end Cert.ReferenceIdeal.RefValue

end
-- ==== Proof.RefSoft.lean ====
/-
  The reference's two softmax stages at an index: the softmax of the logits, and the log-softmax the reference
  applies to those probabilities (shifted by their row maximum, which cancels).
-/
import proofs.«407091_j17901423690504_3_alg».proof.Proof.RefReadP
import proofs.«407091_j17901423690504_3_alg».proof.Proof.Spec
import proofs.«407091_j17901423690504_3_alg».proof.Proof.LibEReal

noncomputable section

open scoped BigOperators

namespace Cert.ReferenceIdeal.RefValue

open Cert.ReferenceIdeal Cert.ReferenceIdeal.Gen Idealize.ShloMosaic Idealize.ShloMosaic.TcCoe
open Idealize.ShloMosaic.ValueIdx Cert.Mdca

namespace Soft

/-! ## The mathematics over the reals -/

/-- A log-softmax does not see a common shift of its arguments:
    (p − M) − log Σ exp(pₖ − M) = p − log Σ exp pₖ. -/
theorem logSoftmax_shift {ι : Type} [Fintype ι] [Nonempty ι] (p : ι → ℝ) (M : ℝ) (j : ι) :
    (p j - M) - Real.log (∑ k, Real.exp (p k - M)) = p j - Real.log (∑ k, Real.exp (p k)) := by
  -- exp(pₖ − M) = exp pₖ · exp(−M), and the common factor leaves the sum
  have h1 : ∑ k, Real.exp (p k - M) = (∑ k, Real.exp (p k)) * Real.exp (-M) := by
    rw [Finset.sum_mul]
    exact Finset.sum_congr rfl fun k _ => by rw [sub_eq_add_neg, Real.exp_add]
  -- both factors are positive, so the logarithm splits, and log(exp(−M)) = −M
  have hpos : 0 < ∑ k, Real.exp (p k) := Finset.sum_pos (fun k _ => Real.exp_pos _) Finset.univ_nonempty
  rw [h1, Real.log_mul hpos.ne' (Real.exp_pos _).ne', Real.log_exp]
  ring

/-- A sum of exponentials over the classes is positive. -/
theorem sum_exp_pos (f : Fin 1000 → ℝ) : 0 < ∑ k, Real.exp (f k) :=
  Finset.sum_pos (fun k _ => Real.exp_pos _) Finset.univ_nonempty

/-- The sum of a row's shifted exponentials is positive. -/
theorem Z_pos {n : Nat} (x : Fin n → Fin 1000 → ℝ) (r : Fin n) : 0 < Z x r :=
  Finset.sum_pos (fun k _ => Real.exp_pos _) Finset.univ_nonempty

/-- The all-zero pattern denotes 0. -/
theorem ofBits_zero : Ideal.ofBits .f32 0x00000000#32 = (0 : EReal) := by
  -- exponent field 0 and fraction field 0: the value is 0 · 2^(−149)
  simp [Ideal.ofBits, Ideal.ieee]

/-! ## A row maximum of the reference, at a row -/

/-- The reference's maximum along the rows of an array of embedded reals, started from −∞: the row's largest entry. -/
theorem rowMaxFold (Y : S32768x1000.Idx → EReal) (y : Fin 32768 → Fin 1000 → ℝ)
    (hy : ∀ r j, Y (ix2 r j) = ((y r j : ℝ) : EReal)) (init : S_.Idx → EReal)
    (hinit : init (Shape.Idx.first h_S_) = ⊥) (r : Fin 32768) :
    Host.reduce (FloatOps.maximumf (F := Ideal) (φ := .f32)) Y init reducesTo_S32768x1000_S32768_d1 h_S_ (ix1 r)
      = ((rowMax y r : ℝ) : EReal) := by
  -- a reduction over the one axis 1 is the fold of max, from the initial value, over that axis's coordinates
  have h : S32768x1000.Reduces [1] S32768 := by decide
  rw [Host.reduce_eq_fold_single _ Y init _ h h_S_ (ix1 r), hinit]
  -- the entries folded are those of row r
  have e : (Y ∘ h.lift (ix1 r)) = fun k : Fin 1000 => ((y r k : ℝ) : EReal) := by
    funext k
    show Y (h.lift (ix1 r) k) = _
    rw [← hy r k]
    exact congrArg Y (funext fun c => Fin.ext (by match c with | ⟨0, _⟩ => rfl | ⟨1, _⟩ => rfl))
  rw [e]
  -- and the fold of max from −∞ over embedded reals is the embedded largest of them
  exact Cert.LibEReal.fold_max_bot_coe (y r)

/-! ## The softmax of the logits, stage by stage -/

section stages
variable (X : FVec Ideal S32768x1000 .f32)

/-- The row maximum of the logits. -/
theorem v0_apply (hx : AllReal (n := 32768) X) (r : Fin 32768) :
    ReadP.val_main_v0 (F := Ideal) X (ix1 r) = ((rowMax (realOf X) r : ℝ) : EReal) := by
  unfold ReadP.val_main_v0
  exact rowMaxFold X (realOf X) hx _ Cert.LibEReal.ofBits_neg_inf r

/-- Its maximum with −∞ is itself. -/
theorem v2_apply (hx : AllReal (n := 32768) X) (r : Fin 32768) :
    ReadP.val_main_v2 (F := Ideal) X (ix1 r) = ((rowMax (realOf X) r : ℝ) : EReal) := by
  rw [ReadP.val_main_v2_apply, ReadP.val_main_v1_apply, ReadP.val_main_cst_0_apply, v0_apply X hx,
    Ideal.ofBits_def, Cert.LibEReal.ofBits_neg_inf]
  exact max_bot_left _

/-- The row maximum spread along the row. -/
theorem v4_apply (hx : AllReal (n := 32768) X) (r : Fin 32768) (j : Fin 1000) :
    ReadP.val_main_v4 (F := Ideal) X (ix2 r j) = ((rowMax (realOf X) r : ℝ) : EReal) := by
  -- two spreads, each reading the row coordinate
  rw [ReadP.val_main_v4_apply, ReadP.val_main_v3_apply, ← v2_apply X hx r]
  exact congrArg _ (funext fun a => Fin.ext (by match a with | ⟨0, _⟩ => rfl))

/-- The shifted exponential. -/
theorem v6_apply (hx : AllReal (n := 32768) X) (r : Fin 32768) (j : Fin 1000) :
    ReadP.val_main_v6 (F := Ideal) X (ix2 r j) = ((ex (realOf X) r j : ℝ) : EReal) := by
  -- a difference of embedded reals is the embedded difference, and its exponential the embedded exponential
  rw [ReadP.val_main_v6_apply, ReadP.val_main_v5_apply, v4_apply X hx, hx r j, Ideal.subf_def,
    Ideal.hostUnary_exp_def, ← EReal.coe_sub, Cert.LibEReal.exp_coe]
  rfl

/-- The row sum of the shifted exponentials. -/
theorem v7_apply (hx : AllReal (n := 32768) X) (r : Fin 32768) :
    ReadP.val_main_v7 (F := Ideal) X (ix1 r) = ((Z (realOf X) r : ℝ) : EReal) := by
  rw [ReadP.val_main_v7_apply, ReadP.val_main_cst_1_apply, Ideal.ofBits_def]
  -- the summands are row r's shifted exponentials
  have e : ∀ k : Fin 1000, ReadP.val_main_v6 (F := Ideal) X (ReadP.idx_main_v7 (ix1 r) k)
      = ((ex (realOf X) r k : ℝ) : EReal) := by
    intro k
    rw [← v6_apply X hx r k]
    exact congrArg _ (funext fun a => Fin.ext (by match a with | ⟨0, _⟩ => rfl | ⟨1, _⟩ => rfl))
  simp only [e]
  -- zero plus a sum of embedded reals is the embedded sum
  rw [Cert.LibEReal.coe_sum, ofBits_zero, zero_add]
  rfl

/-- The row sum spread along the row. -/
theorem v9_apply (hx : AllReal (n := 32768) X) (r : Fin 32768) (j : Fin 1000) :
    ReadP.val_main_v9 (F := Ideal) X (ix2 r j) = ((Z (realOf X) r : ℝ) : EReal) := by
  rw [ReadP.val_main_v9_apply, ReadP.val_main_v8_apply, ← v7_apply X hx r]
  exact congrArg _ (funext fun a => Fin.ext (by match a with | ⟨0, _⟩ => rfl))

end stages

end Soft

open Soft

/-- The reference's softmax of the logits, at row r and class j. -/
theorem prob_apply (X : FVec Ideal S32768x1000 .f32) (hx : AllReal (n := 32768) X) (r : Fin 32768) (j : Fin 1000) :
    ReadP.val_main_v10 (F := Ideal) X (ix2 r j) = ((prob (realOf X) r j : ℝ) : EReal) := by
  -- the quotient of the shifted exponential by the row sum, which is positive
  rw [ReadP.val_main_v10_apply, v6_apply X hx, v9_apply X hx, Ideal.hostDivf_def,
    Cert.LibEReal.div_coe_coe _ (Z_pos _ r).ne']
  rfl

namespace Soft

/-! ## The log-softmax of the probabilities, stage by stage -/

section stages
variable (X : FVec Ideal S32768x1000 .f32)

/-- The largest probability of a row. -/
theorem c0_apply (hx : AllReal (n := 32768) X) (r : Fin 32768) :
    ReadP.val_main_call0_v0 (F := Ideal) X (ix1 r) = ((rowMax (prob (realOf X)) r : ℝ) : EReal) := by
  unfold ReadP.val_main_call0_v0
  exact rowMaxFold _ (prob (realOf X)) (prob_apply X hx) _ Cert.LibEReal.ofBits_neg_inf r

/-- Its maximum with −∞ is itself. -/
theorem c2_apply (hx : AllReal (n := 32768) X) (r : Fin 32768) :
    ReadP.val_main_call0_v2 (F := Ideal) X (ix1 r) = ((rowMax (prob (realOf X)) r : ℝ) : EReal) := by
  rw [ReadP.val_main_call0_v2_apply, ReadP.val_main_call0_v1_apply, ReadP.val_main_call0_cst_0_apply,
    c0_apply X hx, Ideal.ofBits_def, Cert.LibEReal.ofBits_neg_inf]
  exact max_bot_left _

/-- The probability less the row's largest. -/
theorem c5_apply (hx : AllReal (n := 32768) X) (r : Fin 32768) (j : Fin 1000) :
    ReadP.val_main_call0_v5 (F := Ideal) X (ix2 r j)
      = ((prob (realOf X) r j - rowMax (prob (realOf X)) r : ℝ) : EReal) := by
  -- the largest probability spread along the row
  have e4 : ReadP.val_main_call0_v4 (F := Ideal) X (ix2 r j) = ((rowMax (prob (realOf X)) r : ℝ) : EReal) := by
    rw [ReadP.val_main_call0_v4_apply, ReadP.val_main_call0_v3_apply, ← c2_apply X hx r]
    exact congrArg _ (funext fun a => Fin.ext (by match a with | ⟨0, _⟩ => rfl))
  rw [ReadP.val_main_call0_v5_apply, e4, prob_apply X hx, Ideal.subf_def, ← EReal.coe_sub]

/-- The row sum of the exponentials of those differences. -/
theorem c7_apply (hx : AllReal (n := 32768) X) (r : Fin 32768) :
    ReadP.val_main_call0_v7 (F := Ideal) X (ix1 r)
      = ((∑ k, Real.exp (prob (realOf X) r k - rowMax (prob (realOf X)) r) : ℝ) : EReal) := by
  rw [ReadP.val_main_call0_v7_apply, ReadP.val_main_call0_cst_1_apply, Ideal.ofBits_def]
  have e : ∀ k : Fin 1000, ReadP.val_main_call0_v6 (F := Ideal) X (ReadP.idx_main_call0_v7 (ix1 r) k)
      = ((Real.exp (prob (realOf X) r k - rowMax (prob (realOf X)) r) : ℝ) : EReal) := by
    intro k
    have ei : ReadP.idx_main_call0_v7 (ix1 r) k = ix2 r k :=
      funext fun a => Fin.ext (by match a with | ⟨0, _⟩ => rfl | ⟨1, _⟩ => rfl)
    rw [ei, ReadP.val_main_call0_v6_apply, c5_apply X hx, Ideal.hostUnary_exp_def, Cert.LibEReal.exp_coe]
  simp only [e]
  rw [Cert.LibEReal.coe_sum, ofBits_zero, zero_add]

/-- The logarithm of that sum, spread along the row. -/
theorem c10_apply (hx : AllReal (n := 32768) X) (r : Fin 32768) (j : Fin 1000) :
    ReadP.val_main_call0_v10 (F := Ideal) X (ix2 r j)
      = ((Real.log (∑ k, Real.exp (prob (realOf X) r k - rowMax (prob (realOf X)) r)) : ℝ) : EReal) := by
  have e8 : ReadP.val_main_call0_v8 (F := Ideal) X (ReadP.idx_main_call0_v10 (ix2 r j))
      = ReadP.val_main_call0_v7 (F := Ideal) X (ix1 r) := by
    rw [ReadP.val_main_call0_v8_apply]
    exact congrArg _ (funext fun a => Fin.ext (by match a with | ⟨0, _⟩ => rfl))
  -- the sum is positive, so its logarithm is the embedded real logarithm
  rw [ReadP.val_main_call0_v10_apply, ReadP.val_main_call0_v9_apply, e8, c7_apply X hx,
    Ideal.hostUnary_log_def, Ideal.log_coe, if_neg (not_le.2 (sum_exp_pos _))]

end stages

end Soft

/-- The reference's log-softmax of those probabilities, at row r and class j: subtracting the row's largest
    probability before the exponentials and adding it back through the logarithm changes nothing. -/
theorem logp_apply (X : FVec Ideal S32768x1000 .f32) (hx : AllReal (n := 32768) X) (r : Fin 32768) (j : Fin 1000) :
    ReadP.val_main_v29 (F := Ideal) X (ix2 r j) = ((logp (realOf X) r j : ℝ) : EReal) := by
  -- (p − M) − log Σ exp(pₖ − M), a difference of embedded reals; the shift M cancels
  rw [ReadP.val_main_v29_apply, c5_apply X hx, c10_apply X hx, Ideal.subf_def, ← EReal.coe_sub,
    logSoftmax_shift (prob (realOf X) r) (rowMax (prob (realOf X)) r) j]
  rfl

end Cert.ReferenceIdeal.RefValue

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.LibTakeAlong.lean ====
/-
  THE TAKE ALONG THE LAST AXIS. A host `stablehlo.gather` of an [N × D] operand whose start indices are an [N × 1 × 1]
  array, one per row: operand axis 0 a batching axis paired with the start indices' axis 0, operand axis 1 collapsed and
  start-indexed, no offset axes, slice sizes [1, 1], the index vector on axis 2. Result element (r, 0) is the operand's
  element (r, c), c the start index of row r read signed and clamped into [0, D − 1] (`gather_take_along`); a start
  index that read signed is already a column is not moved by the clamp (`gather_take_along_of_lt`).
-/
import Idealize.ShloMosaic.Lib.StableHlo.Predicate
import Idealize.ShloMosaic.Lib.ValueIdx

namespace Cert.LibTakeAlong

open Idealize.ShloMosaic Idealize.ShloMosaic.ValueIdx

/-- The column the start index of row r names: the word read signed, clamped into [0, D − 1]. -/
def clampCol {N w : Nat} (D : Nat) (hD : 0 < D) (idx : IVec ⟨3, ![N, 1, 1]⟩ w) (r : Fin N) : Fin D :=
  ⟨min (idx (ix3 r 0 0)).toInt.toNat (D - 1), by omega⟩

/-- Equal lists have equal entries at equal positions. -/
theorem getElem_of_eq {β : Type} {l l' : List β} (h : l = l') {k k' : Nat} (hk : k < l.length) (hk' : k' < l'.length)
    (hkk : k = k') : l[k] = l'[k'] := by
  subst h; subst hkk; rfl

/-- In the list of the first two of three axes, an axis stands at its own number. -/
theorem idxOf_pair : ∀ b : Fin 3, b.val < 2 → List.idxOf b ([0, 1] : List (Fin 3)) = b.val := by decide

/-- The list of both of two axes holds each axis at its own number. -/
theorem pair_getElem : ∀ k : Fin 2, ([0, 1] : List (Fin 2))[k.val]'(by have := k.isLt; simpa using this) = k := by decide

section
variable {α : Type} {N D w : Nat} (d : GatherDims ⟨2, ![N, D]⟩ ⟨3, ![N, 1, 1]⟩ ⟨2, ![N, 1]⟩)

/-- THE TAKE ALONG THE LAST AXIS: result element (r, 0) is the operand's element (r, c), c the start index of row r read
    signed and clamped into [0, D − 1]. -/
theorem gather_take_along (hoff : d.offsetDims = []) (hcoll : d.collapsedSliceDims = [1]) (hob : d.operandBatchingDims = [0])
    (hsb : d.startIndicesBatchingDims = [0]) (hsim : d.startIndexMap = [1]) (hivd : d.indexVectorDim = 2)
    (hss : d.sliceSizes = ![1, 1])
    (x : (⟨2, ![N, D]⟩ : Shape).Idx → α) (idx : IVec ⟨3, ![N, 1, 1]⟩ w) (r : Fin N) (hD : 0 < D) :
    Host.gather d x idx (ix2 r 0) = x (ix2 r (clampCol D hD idx r)) := by
  -- with no offset axes both result axes are batch axes
  have hbd : d.batchDims = [0, 1] := by
    show Shape.kept _ d.offsetDims = [0, 1]
    rw [hoff]
    show (List.finRange 2).filter (fun a : Fin 2 => decide (a ∉ ([] : List (Fin 2)))) = [0, 1]
    decide
  -- the start indices' axes but the index vector's
  have hsk : d.siKept = [0, 1] := by
    show (List.finRange 3).filter (fun b : Fin 3 => decide (b.val ≠ d.indexVectorDim)) = [0, 1]
    rw [hivd]; decide
  -- every operand axis is collapsed or batching: there are no offset coordinates
  have hnk : ∀ a : Fin 2, a ∉ d.sKept := fun a => by
    rw [GatherDims.mem_sKept, hcoll, hob]
    match a with
    | ⟨0, _⟩ => simp
    | ⟨1, _⟩ => simp
  -- the start-indices coordinate a result index gives on a kept axis: its own coordinate of the same number
  have hsc : ∀ (j : (⟨2, ![N, 1]⟩ : Shape).Idx) (b : Fin 3) (hb : b ∈ d.siKept) (k : Fin 2), b.val = k.val →
      (d.siCoord j b hb).val = (j k).val := by
    intro j b hb k hbk
    have hpos : d.siKept.idxOf b = k.val := by
      rw [hsk, idxOf_pair b (by have := k.isLt; omega)]; exact hbk
    unfold GatherDims.siCoord
    simp only [Fin.val_cast]
    have key : ∀ X : Fin 2, X = k → (j X).val = (j k).val := fun X hX => by subst hX; rfl
    refine key _ ((getElem_of_eq hbd _ (by have := k.isLt; simpa using this) hpos).trans (pair_getElem k))
  -- the start index of result row r is read at (r, 0, 0), whichever of its components (there is one) is asked for
  have hlen : d.startIndexMap.length = 1 := by rw [hsim]; rfl
  have hsi : ∀ c : Fin d.startIndexMap.length, d.siIdx (ix2 r 0) c = ix3 r 0 0 := by
    intro c
    funext b
    match b with
    | ⟨0, _⟩ =>
      unfold GatherDims.siIdx
      rw [dif_neg (by rw [hivd]; simp)]
      apply Fin.ext
      exact hsc (ix2 r 0) _ _ 0 rfl
    | ⟨1, _⟩ =>
      unfold GatherDims.siIdx
      rw [dif_neg (by rw [hivd]; simp)]
      apply Fin.ext
      exact hsc (ix2 r 0) _ _ 1 rfl
    | ⟨2, _⟩ =>
      unfold GatherDims.siIdx
      rw [dif_pos (by rw [hivd])]
      apply Fin.ext
      show c.val = 0
      have := c.isLt
      omega
  -- axis 0, a batching axis: no start, no offset, the batching coordinate is the result's row
  have h0 : (d.operandIdx (ix2 r 0) idx (0 : Fin 2)).val = r.val := by
    have hb : (0 : Fin 2) ∈ d.operandBatchingDims := by rw [hob]; exact List.mem_singleton.mpr rfl
    show d.start (ix2 r 0) idx 0 + d.batchCoord (ix2 r 0) 0 + d.offCoord (ix2 r 0) 0 = r.val
    rw [GatherDims.offCoord_eq_zero _ _ _ (hnk 0), Nat.add_zero, GatherDims.start_batching _ _ _ _ hb, Nat.zero_add]
    unfold GatherDims.batchCoord
    rw [dif_pos hb]
    refine hsc (ix2 r 0) _ _ 0 ?_
    -- the start indices' batching axis paired with operand axis 0 is their axis 0
    have hp : d.operandBatchingDims.idxOf (0 : Fin 2) = 0 := by rw [hob]; simp
    exact congrArg Fin.val (getElem_of_eq hsb _ (by decide : 0 < ([0] : List (Fin 3)).length) hp)
  -- axis 1, collapsed and start-indexed: the clamped start alone
  have h1 : (d.operandIdx (ix2 r 0) idx (1 : Fin 2)).val = (clampCol D hD idx r).val := by
    have hm : (1 : Fin 2) ∈ d.startIndexMap := by rw [hsim]; exact List.mem_singleton.mpr rfl
    have hb : (1 : Fin 2) ∉ d.operandBatchingDims := by rw [hob]; simp
    have hsl : d.sliceSizes 1 = 1 := by rw [hss]; rfl
    show d.start (ix2 r 0) idx 1 + d.batchCoord (ix2 r 0) 1 + d.offCoord (ix2 r 0) 1 = min (idx (ix3 r 0 0)).toInt.toNat (D - 1)
    rw [GatherDims.batchCoord_eq_zero _ _ _ hb, GatherDims.offCoord_eq_zero _ _ _ (hnk 1), Nat.add_zero]
    unfold GatherDims.start
    rw [dif_pos hm, hsi]
    show min (idx (ix3 r 0 0)).toInt.toNat (D - d.sliceSizes 1) = _
    rw [hsl]
  unfold Host.gather
  congr 1
  funext a
  apply Fin.ext
  match a with
  | ⟨0, _⟩ => exact h0
  | ⟨1, _⟩ => exact h1

/-- A 32-bit start index that read unsigned is a column below 2³¹ is not negative and is not clamped: the take reads
    the operand's row r at that column. -/
theorem gather_take_along_of_lt (hoff : d.offsetDims = []) (hcoll : d.collapsedSliceDims = [1])
    (hob : d.operandBatchingDims = [0]) (hsb : d.startIndicesBatchingDims = [0]) (hsim : d.startIndexMap = [1])
    (hivd : d.indexVectorDim = 2) (hss : d.sliceSizes = ![1, 1])
    (x : (⟨2, ![N, D]⟩ : Shape).Idx → α) (idx : IVec ⟨3, ![N, 1, 1]⟩ 32) (r : Fin N)
    (hlt : (idx (ix3 r 0 0)).toNat < D) (hpos : (idx (ix3 r 0 0)).toNat < 2 ^ 31) :
    Host.gather d x idx (ix2 r 0) = x (ix2 r ⟨(idx (ix3 r 0 0)).toNat, hlt⟩) := by
  have hD : 0 < D := by omega
  rw [gather_take_along d hoff hcoll hob hsb hsim hivd hss x idx r hD]
  congr 2
  apply Fin.ext
  show min (idx (ix3 r 0 0)).toInt.toNat (D - 1) = (idx (ix3 r 0 0)).toNat
  rw [StableHlo.Predicate.toInt_eq_toNat_of_lt hpos, Int.toNat_natCast]
  omega

end

end Cert.LibTakeAlong
-- ==== Proof.RefIndex.lean ====
/-
  The reference's two indexed stages: the scatter-add of ones at the labels is the count of each class's rows, and
  the take along the class axis reads each row's entry at its label.
-/
import proofs.«407091_j17901423690504_3_alg».proof.Proof.RefReadP
import proofs.«407091_j17901423690504_3_alg».proof.Proof.Spec
import proofs.«407091_j17901423690504_3_alg».proof.Proof.LibEReal
import proofs.«407091_j17901423690504_3_alg».proof.Proof.LibGatherScatter
import proofs.«407091_j17901423690504_3_alg».proof.Proof.LibTakeAlong

noncomputable section

open scoped BigOperators

namespace Cert.ReferenceIdeal.RefValue

open Cert.ReferenceIdeal Cert.ReferenceIdeal.Gen Idealize.ShloMosaic Idealize.ShloMosaic.TcCoe
open Idealize.ShloMosaic.ValueIdx Cert.Mdca

/-! ## Words -/

/-- A word below 1000 is not negative read signed, so the wrap of negative labels (add 1000) leaves it. -/
theorem wrap_of_lt (t : BitVec 32) (h : t.toNat < 1000) :
    Scalar.select (IntOp.cmpi .slt t 0#32) (IntOp.addi t 1000#32) t = t := by
  have hn : ¬ IntOp.cmpi .slt t 0#32 = 1#1 := by
    rw [StableHlo.Predicate.slt_iff_toNat (by omega) (by decide)]
    simp
  exact if_neg hn

/-- A word below 1000 passes the range test 0 ≤ · ≤ 999, read signed. -/
theorem inRange_of_lt (t : BitVec 32) (h : t.toNat < 1000) :
    IntOp.andi (IntOp.cmpi .sge t 0#32) (IntOp.cmpi .sle t 999#32) = 1#1 := by
  have h999 : (999#32 : BitVec 32).toNat = 999 := rfl
  have h0 : (0#32 : BitVec 32).toNat = 0 := rfl
  refine IntOp.andi_eq_one.2 ⟨?_, ?_⟩
  · rw [StableHlo.Predicate.sge_iff_toNat (by omega) (by omega)]; omega
  · rw [StableHlo.Predicate.sle_iff_toNat (by omega) (by omega)]; omega

/-- The single-precision pattern of zero denotes 0. -/
theorem ofBits_zero : Ideal.ofBits .f32 0x00000000#32 = (0 : EReal) := by
  simp [Ideal.ofBits, Ideal.ieee]

/-- The single-precision pattern with exponent field 127 and fraction zero denotes 1. -/
theorem ofBits_one : Ideal.ofBits .f32 0x3F800000#32 = ((1 : ℝ) : EReal) := by
  simp [Ideal.ofBits, Ideal.ieee]
  rw [← EReal.coe_mul, EReal.coe_eq_one]
  norm_num

/-- A fold by and from 1 over words that are all 1 is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_all_one f hf l

/-! ## The scatter-add -/

/-- Every label, at whatever index of the vector it is read, is a class. -/
theorem lt_of_inRange (T : IVec S32768 32) (hl : InRange (n := 32768) T) (j : S32768.Idx) : (T j).toNat < 1000 := by
  rw [eq_ix1 j]
  exact hl (j 0)

/-- The column of scatter positions at row e is the label of row e: a label in range is not wrapped. -/
theorem v17_apply (T : IVec S32768 32) (hl : InRange (n := 32768) T) (e : Fin 32768) :
    ReadP.val_main_v17 (F := Ideal) T (StableHlo.Predicate.ixP e) = T (ix1 e) := by
  have hi : ReadP.idx_main_v17 (StableHlo.Predicate.ixP e) = ix1 e := eq_ix1 _
  rw [ReadP.val_main_v17_apply, hi, ReadP.val_main_v16_apply, ReadP.val_main_v13_apply, ReadP.val_main_v15_apply,
    ReadP.val_main_v12_apply, ReadP.val_main_v14_apply, ReadP.val_main_c_apply, ReadP.val_main_c_3_apply]
  exact wrap_of_lt _ (hl e)

/-- Ones added at the labels (negative ones wrapped, which no label in range is): entry i is the number of rows
    labelled i. -/
theorem count_apply (T : IVec S32768 32) (hl : InRange (n := 32768) T) (i : Fin 1000) :
    ReadP.val_main_v19 (F := Ideal) T (ix1 i) = ((count (labelOf T) i : ℝ) : EReal) := by
  -- the operand is zero, every update is one
  have hzero : ReadP.val_main_v11 (F := Ideal) (ix1 i) = (0 : EReal) := by
    rw [ReadP.val_main_v11_apply, ReadP.val_main_cst_2_apply]
    exact ofBits_zero
  have hone : ∀ e : Fin 32768, ReadP.val_main_v18 (F := Ideal) (ix1 e) = ((1 : ℝ) : EReal) := fun e => by
    rw [ReadP.val_main_v18_apply, ReadP.val_main_cst_4_apply]
    exact ofBits_one
  -- update row e lands on entry i exactly when row e is labelled i
  have hlands : ∀ e : Fin 32768,
      RowOps.lands (ReadP.val_main_v17 (F := Ideal) T) e i.val ↔ labelOf T e = i := fun e => by
    unfold RowOps.lands
    rw [v17_apply T hl e, StableHlo.Predicate.toInt_eq_toNat_of_lt (by have := hl e; omega)]
    have hm : (labelOf T e).val = (T (ix1 e)).toNat := Nat.mod_eq_of_lt (hl e)
    rw [Fin.ext_iff, hm]
    exact Int.ofNat_inj
  -- entry i of the scatter-add: the operand's entry plus the updates of the rows that land on it
  unfold ReadP.val_main_v19
  refine (RowOps.scatterAdd_row1 scatter_S1000_S32768x1_S32768_n_0_0_1 rfl rfl rfl rfl
    (ReadP.val_main_v11 (F := Ideal)) (ReadP.val_main_v17 (F := Ideal) T) (ReadP.val_main_v18 (F := Ideal)) i).trans ?_
  rw [hzero, zero_add, Finset.filter_congr (fun e _ => hlands e), Finset.sum_congr rfl (fun e _ => hone e),
    Cert.LibEReal.coe_sum, Finset.sum_const, nsmul_eq_mul, mul_one]
  rfl

/-! ## The take along the class axis -/

/-- An and-reduction from 1 of a mask that is 1 everywhere is 1. -/
theorem reduce_andi_of_all_one {s t u : Shape} {axes : List (Fin s.rank)} (x : s.Idx → BitVec 1) (init : u.Idx → BitVec 1)
    (h : s.ReducesTo axes t) (hu : 0 < u.numel) (j : t.Idx) (hx : ∀ i, x i = 1#1)
    (hinit : init (Shape.Idx.first hu) = 1#1) : Host.reduce IntOp.andi x init h hu j = 1#1 := by
  rw [Host.reduce_eq_foldl, hinit]
  exact foldl_andi_all_one x hx _

/-- The wrapped labels as an [n, 1] column: a label in range is not wrapped. -/
theorem call1_v4_apply (T : IVec S32768 32) (hl : InRange (n := 32768) T) (k : S32768x1.Idx) :
    ReadP.val_main_call1_v4 (F := Ideal) T k = T (ReadP.idx_main_v30 k) := by
  rw [ReadP.val_main_call1_v4_apply, ReadP.val_main_call1_v1_apply, ReadP.val_main_call1_v3_apply,
    ReadP.val_main_call1_v0_apply, ReadP.val_main_call1_v2_apply, ReadP.val_main_call1_c_apply,
    ReadP.val_main_call1_c_0_apply, ReadP.val_main_v30_apply]
  exact wrap_of_lt _ (lt_of_inRange T hl _)

/-- The same column reshaped to [n, 1, 1]. -/
theorem call1_v5_apply (T : IVec S32768 32) (hl : InRange (n := 32768) T) (i : S32768x1x1.Idx) :
    ReadP.val_main_call1_v5 (F := Ideal) T i = T (ReadP.idx_main_v30 (ReadP.idx_main_call1_v5 i)) := by
  rw [ReadP.val_main_call1_v5_apply, call1_v4_apply T hl]

/-- At (r, 0, 0) it is the label of row r. -/
theorem call1_v5_row (T : IVec S32768 32) (hl : InRange (n := 32768) T) (r : Fin 32768) :
    ReadP.val_main_call1_v5 (F := Ideal) T (ix3 r 0 0) = T (ix1 r) := by
  rw [call1_v5_apply T hl]
  congr 1
  refine (eq_ix1 _).trans (congrArg ix1 (Fin.ext ?_))
  show ((r.val * 1 + 0) * 1 + 0) / 1 = r.val
  omega

/-- Every label in range passes the range test. -/
theorem call1_v11_apply (T : IVec S32768 32) (hl : InRange (n := 32768) T) (i : S32768x1x1.Idx) :
    ReadP.val_main_call1_v11 (F := Ideal) T i = 1#1 := by
  rw [ReadP.val_main_call1_v11_apply, ReadP.val_main_call1_v7_apply, ReadP.val_main_call1_v10_apply,
    ReadP.val_main_call1_v6_apply, ReadP.val_main_call1_c_2_apply, ReadP.val_main_call1_v9_apply,
    ReadP.val_main_call1_v8_apply, ReadP.val_main_call1_c_1_apply, call1_v5_apply T hl]
  exact inRange_of_lt _ (lt_of_inRange T hl _)

/-- So its and-reduction over the last axis is 1 at every row. -/
theorem call1_v12_apply (T : IVec S32768 32) (hl : InRange (n := 32768) T) (k : S32768x1.Idx) :
    ReadP.val_main_call1_v12 (F := Ideal) T k = 1#1 := by
  unfold ReadP.val_main_call1_v12
  exact reduce_andi_of_all_one _ _ _ _ _ (call1_v11_apply T hl) rfl

/-- The take along the class axis, its range test passed by every label in range, reads row r of the
    log-probabilities at r's label. -/
theorem take_apply (X : FVec Ideal S32768x1000 .f32) (T : IVec S32768 32) (hl : InRange (n := 32768) T) (r : Fin 32768) :
    ReadP.val_main_v31 (F := Ideal) X T (ix2 r 0) = ReadP.val_main_v29 (F := Ideal) X (ix2 r (labelOf T r)) := by
  -- the range test holds, so the select takes the gather
  rw [ReadP.val_main_v31_apply, call1_v12_apply T hl, select_one]
  unfold ReadP.val_main_call1_v13
  -- the start index of row r is r's label, a column below 2³¹: the gather reads (r, label)
  have hw := call1_v5_row T hl r
  have hlt : (ReadP.val_main_call1_v5 (F := Ideal) T (ix3 r 0 0)).toNat < 1000 := by rw [hw]; exact hl r
  refine (Cert.LibTakeAlong.gather_take_along_of_lt gather_S32768x1000_S32768x1x1_S32768x1_n_1_0_0_1_2_11
    rfl rfl rfl rfl rfl rfl rfl (ReadP.val_main_v29 (F := Ideal) X) (ReadP.val_main_call1_v5 (F := Ideal) T) r hlt
    (by omega)).trans ?_
  refine congrArg (fun c => ReadP.val_main_v29 (F := Ideal) X (ix2 r c)) (Fin.ext ?_)
  show (ReadP.val_main_call1_v5 (F := Ideal) T (ix3 r 0 0)).toNat = (T (ix1 r)).toNat % 1000
  rw [hw, Nat.mod_eq_of_lt (hl r)]

end Cert.ReferenceIdeal.RefValue

end
-- ==== Proof.RefMdca.lean ====
/-
  The reference's calibration term: the class sums of the probabilities over the batch size, against the class
  counts over the batch size, their absolute differences summed and divided by the number of classes.
-/
import proofs.«407091_j17901423690504_3_alg».proof.Proof.RefReadP
import proofs.«407091_j17901423690504_3_alg».proof.Proof.Spec
import proofs.«407091_j17901423690504_3_alg».proof.Proof.SpecRows
import proofs.«407091_j17901423690504_3_alg».proof.Proof.LibEReal
import proofs.«407091_j17901423690504_3_alg».proof.Proof.RefSoft
import proofs.«407091_j17901423690504_3_alg».proof.Proof.RefIndex

noncomputable section

open scoped BigOperators

namespace Cert.ReferenceIdeal.RefValue

open Cert.ReferenceIdeal Cert.ReferenceIdeal.Gen Idealize.ShloMosaic Idealize.ShloMosaic.TcCoe
open Idealize.ShloMosaic.ValueIdx Cert.Mdca

namespace Calib

/-- The single-precision pattern 0x47000000 denotes 32768 = 2^15: exponent field 142, fraction field zero. -/
theorem ofBits_32768 : Ideal.ofBits .f32 0x47000000#32 = ((32768 : ℝ) : EReal) := by
  simp [Ideal.ofBits, Ideal.ieee, -EReal.coe_mul]; norm_num

/-- The single-precision pattern 0x447A0000 denotes 1000 = 1.953125 · 2^9. -/
theorem ofBits_1000 : Ideal.ofBits .f32 0x447A0000#32 = ((1000 : ℝ) : EReal) := by
  simp [Ideal.ofBits, Ideal.ieee, -EReal.coe_mul]; norm_num

/-- The larger of a real number and its negative, taken among the extended reals, is its absolute value. -/
theorem absf_coe (r : ℝ) : FloatOps.hostAbsf (F := Ideal) (φ := .f32) ((r : ℝ) : EReal) = ((|r| : ℝ) : EReal) := by
  show max ((r : ℝ) : EReal) (-((r : ℝ) : EReal)) = _
  rw [← EReal.coe_neg, Cert.LibEReal.max_coe, abs_eq_max_neg]

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable (X : FVec Ideal S32768x1000 .f32) (T : IVec S32768 32)

/-- The sum over the rows of the probabilities of class q is the real number sumProb. -/
theorem v22_apply (hx : AllReal (n := 32768) X) (q : Fin 1000) :
    ReadP.val_main_v22 (F := Ideal) X (ix1 q) = ((sumProb (realOf X) q : ℝ) : EReal) := by
  rw [ReadP.val_main_v22_apply, ReadP.val_main_cst_6_apply]
  show Ideal.ofBits .f32 0x00000000#32 + _ = _
  rw [Ideal.ofBits_zero_f32, zero_add]
  have hidx : ∀ k : Fin 32768, ReadP.idx_main_v22 (ix1 q) k = ix2 k q := fun k =>
    funext fun a => Fin.ext (by match a with | ⟨0, _⟩ => rfl | ⟨1, _⟩ => rfl)
  rw [Finset.sum_congr rfl fun k _ =>
    (congrArg (ReadP.val_main_v10 (F := Ideal) X) (hidx k)).trans (prob_apply X hx k q)]
  exact Cert.LibEReal.coe_sum _ _

/-- That sum over the batch size. -/
theorem v24_apply (hx : AllReal (n := 32768) X) (q : Fin 1000) :
    ReadP.val_main_v24 (F := Ideal) X (ix1 q) = ((sumProb (realOf X) q / 32768 : ℝ) : EReal) := by
  rw [ReadP.val_main_v24_apply, v22_apply X hx, ReadP.val_main_v23_apply, ReadP.val_main_cst_7_apply]
  show Ideal.div _ (Ideal.ofBits .f32 0x47000000#32) = _
  rw [ofBits_32768, Cert.LibEReal.div_coe_coe _ (by norm_num : (32768 : ℝ) ≠ 0)]

/-- The class count over the batch size. -/
theorem v21_apply (hl : InRange (n := 32768) T) (q : Fin 1000) :
    ReadP.val_main_v21 (F := Ideal) T (ix1 q) = ((count (labelOf T) q / 32768 : ℝ) : EReal) := by
  rw [ReadP.val_main_v21_apply, count_apply T hl, ReadP.val_main_v20_apply, ReadP.val_main_cst_5_apply]
  show Ideal.div _ (Ideal.ofBits .f32 0x47000000#32) = _
  rw [ofBits_32768, Cert.LibEReal.div_coe_coe _ (by norm_num : (32768 : ℝ) ≠ 0)]

/-- The absolute difference of the two, per class. -/
theorem v26_apply (hx : AllReal (n := 32768) X) (hl : InRange (n := 32768) T) (q : Fin 1000) :
    ReadP.val_main_v26 (F := Ideal) X T (ix1 q)
      = ((|sumProb (realOf X) q / 32768 - count (labelOf T) q / 32768| : ℝ) : EReal) := by
  rw [ReadP.val_main_v26_apply, ReadP.val_main_v25_apply, v24_apply X hx, v21_apply T hl]
  show FloatOps.hostAbsf (F := Ideal) (φ := .f32) (((_ : ℝ) : EReal) - ((_ : ℝ) : EReal)) = _
  rw [← EReal.coe_sub, absf_coe]

end Calib

/-- The reference's third result is the calibration term of the specification. -/
theorem mdca_eq (X : FVec Ideal S32768x1000 .f32) (T : IVec S32768 32)
    (hx : AllReal (n := 32768) X) (hl : InRange (n := 32768) T) :
    ReadP.val_main_v28 (F := Ideal) X T = fun _ => ((lossMdca (realOf X) (labelOf T) : ℝ) : EReal) := by
  funext i
  rw [ReadP.val_main_v28_apply, ReadP.val_main_v27_apply, ReadP.val_main_cst_8_apply, ReadP.val_main_cst_9_apply]
  show Ideal.div (Ideal.ofBits .f32 0x00000000#32 + _) (Ideal.ofBits .f32 0x447A0000#32) = _
  -- 0 + the sum over the classes of coerced reals is the coerced sum; 1000 is not zero; what is left is the definition
  rw [Ideal.ofBits_zero_f32, zero_add, Calib.ofBits_1000, Calib.sum_idx1,
    Finset.sum_congr rfl fun q _ => Calib.v26_apply X T hx hl q, Cert.LibEReal.coe_sum,
    Cert.LibEReal.div_coe_coe _ (by norm_num : (1000 : ℝ) ≠ 0)]
  rfl

end Cert.ReferenceIdeal.RefValue

end
-- ==== Proof.RefCe.lean ====
/-
  The reference's label-smoothed cross entropy: per row, the weighted negative log-probability at the label plus the
  weighted negative mean log-probability; summed over the rows and divided by the batch size.
-/
import proofs.«407091_j17901423690504_3_alg».proof.Proof.RefReadP
import proofs.«407091_j17901423690504_3_alg».proof.Proof.Spec
import proofs.«407091_j17901423690504_3_alg».proof.Proof.SpecRows
import proofs.«407091_j17901423690504_3_alg».proof.Proof.LibEReal
import proofs.«407091_j17901423690504_3_alg».proof.Proof.RefSoft
import proofs.«407091_j17901423690504_3_alg».proof.Proof.RefIndex
import Idealize.ShloMosaic.Lib.ValueIdxRank1

noncomputable section

open scoped BigOperators

namespace Cert.ReferenceIdeal.RefValue

open Cert.ReferenceIdeal Cert.ReferenceIdeal.Gen Idealize.ShloMosaic Idealize.ShloMosaic.TcCoe
open Idealize.ShloMosaic.ValueIdx Cert.Mdca

namespace Ce

/-! ## The constants the reference's cross entropy spells, as extended reals -/

/-- The all-zero pattern denotes 0. -/
theorem ofBits_zero : Ideal.ofBits .f32 0x00000000#32 = (0 : EReal) := by
  -- exponent field 0 and fraction field 0: the value is 0 · 2^(−149)
  simp [Ideal.ofBits, Ideal.ieee]

/-- The pattern of the class count denotes 1000. -/
theorem ofBits_thousand : Ideal.ofBits .f32 0x447A0000#32 = ((1000 : ℝ) : EReal) := by
  -- sign clear, exponent field 136, fraction field 7995392: (2^23 + 7995392) · 2^(136 − 127 − 23) = 1000
  simp [Ideal.ofBits, Ideal.ieee, -EReal.coe_mul]; norm_num

/-- The pattern of the batch size denotes 32768. -/
theorem ofBits_batch : Ideal.ofBits .f32 0x47000000#32 = ((32768 : ℝ) : EReal) := by
  -- sign clear, exponent field 142, fraction field 0: 2^23 · 2^(142 − 127 − 23) = 2^15
  simp [Ideal.ofBits, Ideal.ieee, -EReal.coe_mul]; norm_num

/-- The pattern of the label's weight denotes a real number, so it is the embedding of its real part. -/
theorem ofBits_wNll : Ideal.ofBits .f32 0x3F666666#32 = ((wNll : ℝ) : EReal) := by
  -- its exponent field is 126, neither all ones nor zero, so the pattern is a normal number: some real r
  obtain ⟨r, hr⟩ : ∃ r : ℝ, Ideal.ofBits .f32 0x3F666666#32 = ((r : ℝ) : EReal) := by
    simp [Ideal.ofBits, Ideal.ieee, -EReal.coe_mul]
  -- and the real part of an embedded real is that real
  rw [wNll, hr, EReal.toReal_coe]

/-- The pattern of the uniform term's weight likewise. -/
theorem ofBits_wSmooth : Ideal.ofBits .f32 0x3DCCCCCD#32 = ((wSmooth : ℝ) : EReal) := by
  -- exponent field 123: a normal number again
  obtain ⟨r, hr⟩ : ∃ r : ℝ, Ideal.ofBits .f32 0x3DCCCCCD#32 = ((r : ℝ) : EReal) := by
    simp [Ideal.ofBits, Ideal.ieee, -EReal.coe_mul]
  rw [wSmooth, hr, EReal.toReal_coe]

/-! ## The stages, at a row -/

section stages
variable (X : FVec Ideal S32768x1000 .f32) (T : IVec S32768 32)

/-- Minus the log-probability of a row's label. -/
theorem v33_apply (hx : AllReal (n := 32768) X) (hl : InRange (n := 32768) T) (r : Fin 32768) :
    ReadP.val_main_v33 (F := Ideal) X T (ix1 r) = ((-(logp (realOf X) r (labelOf T r)) : ℝ) : EReal) := by
  -- the column of taken values, read as a vector: row r is the entry (r, 0)
  have ei : ReadP.idx_main_v32 (ix1 r) = ix2 r 0 :=
    funext fun a => Fin.ext (by match a with | ⟨0, _⟩ => exact Nat.div_one _ | ⟨1, _⟩ => rfl)
  rw [ReadP.val_main_v33_apply, ReadP.val_main_v32_apply, ei, take_apply X T hl r, logp_apply X hx,
    Ideal.hostNegf_def, Ideal.negf_def, ← EReal.coe_neg]

/-- Minus the mean log-probability of a row. -/
theorem v37_apply (hx : AllReal (n := 32768) X) (r : Fin 32768) :
    ReadP.val_main_v37 (F := Ideal) X (ix1 r) = ((-((∑ j, logp (realOf X) r j) / 1000) : ℝ) : EReal) := by
  -- the row sum of the log-probabilities, each an embedded real
  have e34 : ReadP.val_main_v34 (F := Ideal) X (ix1 r) = ((∑ j, logp (realOf X) r j : ℝ) : EReal) := by
    rw [ReadP.val_main_v34_apply, ReadP.val_main_cst_10_apply, Ideal.ofBits_def, ofBits_zero, zero_add]
    have e : ∀ k : Fin 1000, ReadP.val_main_v29 (F := Ideal) X (ReadP.idx_main_v34 (ix1 r) k)
        = ((logp (realOf X) r k : ℝ) : EReal) := by
      intro k
      rw [← logp_apply X hx r k]
      exact congrArg _ (funext fun a => Fin.ext (by match a with | ⟨0, _⟩ => rfl | ⟨1, _⟩ => rfl))
    simp only [e]
    exact Cert.LibEReal.coe_sum _ _
  -- divided by 1000 ≠ 0 and negated, within the reals
  rw [ReadP.val_main_v37_apply, ReadP.val_main_v36_apply, e34, ReadP.val_main_v35_apply,
    ReadP.val_main_cst_11_apply, Ideal.ofBits_def, ofBits_thousand, Ideal.hostDivf_def,
    Cert.LibEReal.div_coe_coe _ (by norm_num), Ideal.hostNegf_def, Ideal.negf_def, ← EReal.coe_neg]

/-- The label-smoothed cross entropy of a row. -/
theorem v42_apply (hx : AllReal (n := 32768) X) (hl : InRange (n := 32768) T) (r : Fin 32768) :
    ReadP.val_main_v42 (F := Ideal) X T (ix1 r) = ((rowLoss (realOf X) (labelOf T) r : ℝ) : EReal) := by
  rw [ReadP.val_main_v42_apply, ReadP.val_main_v39_apply, ReadP.val_main_v41_apply, v33_apply X T hx hl,
    v37_apply X hx, ReadP.val_main_v38_apply, ReadP.val_main_cst_12_apply, ReadP.val_main_v40_apply,
    ReadP.val_main_cst_13_apply, Ideal.ofBits_def, Ideal.ofBits_def, ofBits_wNll, ofBits_wSmooth,
    Ideal.mulf_def, Ideal.mulf_def, Ideal.addf_def, ← EReal.coe_mul, ← EReal.coe_mul, ← EReal.coe_add]
  rfl

/-- The sum of the rows' losses. -/
theorem v43_apply (hx : AllReal (n := 32768) X) (hl : InRange (n := 32768) T) (i : S_.Idx) :
    ReadP.val_main_v43 (F := Ideal) X T i = ((ceSum (realOf X) (labelOf T) : ℝ) : EReal) := by
  rw [ReadP.val_main_v43_apply, ReadP.val_main_cst_14_apply, Ideal.ofBits_def, ofBits_zero, zero_add]
  -- a sum over the indices of a vector is the sum over its one coordinate
  rw [← Equiv.sum_comp (idxEquiv1 (n := 32768)).symm]
  have e : ∀ r : Fin 32768, ReadP.val_main_v42 (F := Ideal) X T ((idxEquiv1 (n := 32768)).symm r)
      = ((rowLoss (realOf X) (labelOf T) r : ℝ) : EReal) := fun r => v42_apply X T hx hl r
  simp only [e]
  exact Cert.LibEReal.coe_sum _ _

end stages

end Ce

open Ce

/-- The reference's second result is the mean label-smoothed cross entropy of the specification. -/
theorem ce_eq (X : FVec Ideal S32768x1000 .f32) (T : IVec S32768 32)
    (hx : AllReal (n := 32768) X) (hl : InRange (n := 32768) T) :
    ReadP.val_main_v44 (F := Ideal) X T = fun _ => ((lossCe (realOf X) (labelOf T) : ℝ) : EReal) := by
  funext i
  -- the sum of the rows' losses divided by the batch size 32768 ≠ 0
  rw [ReadP.val_main_v44_apply, v43_apply X T hx hl, ReadP.val_main_cst_15_apply, Ideal.ofBits_def, ofBits_batch,
    Ideal.hostDivf_def, Cert.LibEReal.div_coe_coe _ (by norm_num)]
  rfl

end Cert.ReferenceIdeal.RefValue

end
-- ==== Proof.RefStages.lean ====
/-
  The reference program read down to the three numbers it returns: with every logit real and every label a class,
  its results are the loss, the mean label-smoothed cross entropy and the calibration term of Spec.lean.
-/
import proofs.«407091_j17901423690504_3_alg».proof.Proof.RefRun
import proofs.«407091_j17901423690504_3_alg».proof.Proof.RefMdca
import proofs.«407091_j17901423690504_3_alg».proof.Proof.RefCe

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.Mdca

/-- The reference's first result is the sum of the other two. -/
theorem loss_eq (X : FVec Ideal S32768x1000 .f32) (T : IVec S32768 32)
    (hx : AllReal (n := 32768) X) (hl : InRange (n := 32768) T) :
    ReadP.val_main_v45 (F := Ideal) X T = fun _ => ((loss (realOf X) (labelOf T) : ℝ) : EReal) := by
  funext i
  rw [ReadP.val_main_v45_apply, ce_eq X T hx hl, mdca_eq X T hx hl]
  show ((lossCe (realOf X) (labelOf T) : ℝ) : EReal) + ((lossMdca (realOf X) (labelOf T) : ℝ) : EReal) = _
  rw [← EReal.coe_add]
  rfl

/-- The reference's run with its three results named: the loss, its cross-entropy part and its calibration part, as
    real numbers of the logits read as reals and the labels read as classes; the arguments end unchanged. -/
theorem run (m : (ℓ : Loc nD τ sig) → Buf (Elt Ideal) ℓ) (ρ : Dev nD → PrngReg)
    (hx : ∀ c : Dev nD, AllReal (n := 32768) (m ((c.tc : Thread nD τ).loc main_arg0)))
    (hl : ∀ c : Dev nD, InRange (n := 32768) (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v45)
          = (fun _ => ((loss (realOf (m ((c.tc : Thread nD τ).loc main_arg0))) (labelOf (m ((c.tc : Thread nD τ).loc main_arg1))) : ℝ) : EReal))
      ∧ r.2.mem ((c.tc : Thread nD τ).loc main_v44)
          = (fun _ => ((lossCe (realOf (m ((c.tc : Thread nD τ).loc main_arg0))) (labelOf (m ((c.tc : Thread nD τ).loc main_arg1))) : ℝ) : EReal))
      ∧ r.2.mem ((c.tc : Thread nD τ).loc main_v28)
          = (fun _ => ((lossMdca (realOf (m ((c.tc : Thread nD τ).loc main_arg0))) (labelOf (m ((c.tc : Thread nD τ).loc main_arg1))) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (loss_eq _ _ (hx c) (hl c)),
     (h c).2.1.trans (ce_eq _ _ (hx c) (hl c)),
     (h c).2.2.1.trans (mdca_eq _ _ (hx c) (hl c)),
     (h c).2.2.2.1, (h c).2.2.2.2⟩)
    (run_stages (F := Ideal) m ρ)

end Cert.ReferenceIdeal.RefValue

end
-- ==== Proof.lean ====
/-
  The certificate of the calibration loss kernel against its jnp reference, over the extended reals, for finite
  logits and labels that are classes (0 ≤ label < 1000).

  Both programs compute, from logits x[32768, 1000] and one label per row: the row-wise softmax p; the
  log-probabilities of p itself, p − log Σ exp p; per row the label-smoothed cross entropy
  a·(−logp at the label) + b·(−mean logp), with a and b the single-precision words of 0.9 and 0.1; its mean over the
  batch; per class the mean of p over the batch against the frequency of the label, their absolute differences
  averaged over the classes; and the sum of the two. Proof/Spec.lean states these as real numbers.

  The kernel walks the batch in 32 blocks of 1024 rows, two groups of sixteen, with three accumulators (the class sums
  of p, the class counts, the sum of the row losses) zeroed at the start of each group and written out, copied into
  eight rows, at its end; the host then takes the mean over the eight copies, adds the two groups and finishes the
  arithmetic. It multiplies by 1/s where the reference divides by s, compares a class iota with the label where the
  reference takes and scatters at the label, and omits the reference's shift of p by its row maximum before the second
  exponential — all equal on real numbers: x·(1/s) = x/s for s > 0; Σⱼ [j = label]·vⱼ = v at the label;
  (p − M) − log Σ exp(p − M) = p − log Σ exp p. Sums over the batch are regrouped by blocks and groups.

  frame_Kernel, frame_KernelIdeal: the generated frames. frame_ReferenceIdeal, and the reference half of the algebraic
  claim: the reference's 99 host operations run stretch by stretch (Proof/RefRun.lean) onto the generated stages, then
  the stages read down to the specification (Proof/RefSoft, RefIndex, RefMdca, RefCe, RefStages). The kernel half: the
  body's arithmetic on one block (Proof/KBlock, KBlockAcc), what a run of the body leaves (Proof/KPieces), the
  accumulators point by point (Proof/KAccum), the output arrays (Proof/KArrays), the host tail (Proof/KTail),
  assembled in Proof/KRun. preserves: the idealization rewrote nothing.
-/
import proofs.«407091_j17901423690504_3_alg».proof.Defs
import proofs.«407091_j17901423690504_3_alg».proof.Proof.Gen.Kernel
import proofs.«407091_j17901423690504_3_alg».proof.Proof.Gen.Kernel.Frame
import proofs.«407091_j17901423690504_3_alg».proof.Proof.Gen.KernelIdeal
import proofs.«407091_j17901423690504_3_alg».proof.Proof.Gen.KernelIdeal.Frame
import proofs.«407091_j17901423690504_3_alg».proof.Proof.Gen.ReferenceIdeal
import proofs.«407091_j17901423690504_3_alg».proof.Proof.Gen.Pre_finite_inputs
import proofs.«407091_j17901423690504_3_alg».proof.Proof.Pre
import proofs.«407091_j17901423690504_3_alg».proof.Proof.KRun
import proofs.«407091_j17901423690504_3_alg».proof.Proof.RefStages
import Idealize.ShloMosaic.Adequacy
import Idealize.ShloMosaic.Init

noncomputable section

namespace Cert.Proof

open Idealize.ShloMosaic Idealize.SL.Sem Cert.Mdca

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the results dropped. -/
theorem frame_ri : Cert.frame_ReferenceIdeal := fun m ρ hpre =>
  (θ_run Cert.ReferenceIdeal.defs _ _).mono (fun _ h c => ⟨(h c).2.2.2.1, (h c).2.2.2.2⟩)
    (Cert.ReferenceIdeal.RefValue.run m ρ (fun c => (of_pre _ _ (hpre c)).1) (fun c => (of_pre _ _ (hpre c)).2))

/-- The idealization rewrote nothing. -/
theorem preserves : Cert.preserves_Kernel_KernelIdeal := trivial

/-- From memories agreeing on the arguments, both idealized programs end with the loss, its cross-entropy part and
    its calibration part of the logits and labels: the same three real numbers. -/
theorem algebraic : Cert.algebraic_KernelIdeal_ReferenceIdeal := by
  intro m ρ m' ρ' hpre hagree
  have hx : ∀ c : Dev Cert.KernelIdeal.nD, AllReal (n := 32768) (m ((c.tc : Thread Cert.KernelIdeal.nD Cert.KernelIdeal.τ).loc Cert.KernelIdeal.main_arg0)) :=
    fun c => (of_pre _ _ (hpre c)).1
  have hl : ∀ c : Dev Cert.KernelIdeal.nD, InRange (n := 32768) (m ((c.tc : Thread Cert.KernelIdeal.nD Cert.KernelIdeal.τ).loc Cert.KernelIdeal.main_arg1)) :=
    fun c => (of_pre _ _ (hpre c)).2
  have hx' : ∀ c : Dev Cert.ReferenceIdeal.nD, AllReal (n := 32768) (m' ((c.tc : Thread Cert.ReferenceIdeal.nD Cert.ReferenceIdeal.τ).loc Cert.ReferenceIdeal.main_arg0)) :=
    fun c => by rw [(hagree c).1]; exact hx c
  have hl' : ∀ c : Dev Cert.ReferenceIdeal.nD, InRange (n := 32768) (m' ((c.tc : Thread Cert.ReferenceIdeal.nD Cert.ReferenceIdeal.τ).loc Cert.ReferenceIdeal.main_arg1)) :=
    fun c => by rw [(hagree c).2]; exact hl c
  refine ⟨_, _, _, Cert.KernelIdeal.KValue.run m ρ hx hl, ?_⟩
  refine (θ_run Cert.ReferenceIdeal.defs _ _).mono (fun _ h c => ⟨(h c).1.trans ?_, (h c).2.1.trans ?_, (h c).2.2.1.trans ?_, (h c).2.2.2.1, (h c).2.2.2.2⟩)
    (Cert.ReferenceIdeal.RefValue.run m' ρ' hx' hl')
  all_goals (simp only [(hagree c).1, (hagree c).2]; rfl)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
